-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S600000 : Shape := ⟨1, ![600000]⟩
abbrev S1280000 : Shape := ⟨1, ![1280000]⟩
abbrev S80000 : Shape := ⟨1, ![80000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S600000 : S_.BroadcastsInDim S600000 (![] : Fin 0 → Fin S600000.rank)
  reducesTo_S600000_S_d0 : S600000.ReducesTo [0] S_
  bcast_S_S1280000 : S_.BroadcastsInDim S1280000 (![] : Fin 0 → Fin S1280000.rank)
  reducesTo_S1280000_S_d0 : S1280000.ReducesTo [0] S_
  bcast_S_S80000 : S_.BroadcastsInDim S80000 (![] : Fin 0 → Fin S80000.rank)
  reducesTo_S80000_S_d0 : S80000.ReducesTo [0] S_

variable [Facts]

def fn_part2 {F : FTy → Type} [FloatOps F] (main_arg2 : IVec S1280000 32) (main_arg4 : IVec S80000 32) (main_v30 : IVec S_ 1) (main_v32 : IVec S1280000 1) (main_c_12 : IVec S_ 32) : IVec S_ 1 :=
  let main_v33 : IVec S1280000 32 := broadcastInDim S1280000 ![] bcast_S_S1280000 main_c_12
  let main_v34 : IVec S1280000 1 := cmpi .slt main_arg2 main_v33
  let main_v35 : IVec S1280000 1 := andi main_v32 main_v34
  let main_c_13 : IVec S_ 1 := constantI S_ 1 1#1
  let main_v36 : IVec S_ 1 := (fun x v => Host.reduce IntOp.andi x v reducesTo_S1280000_S_d0 h_S_) main_v35 main_c_13
  let main_v37 : IVec S_ 1 := andi main_v30 main_v36
  let main_c_14 : IVec S_ 32 := constantI S_ 32 0#32
  let main_v38 : IVec S80000 32 := broadcastInDim S80000 ![] bcast_S_S80000 main_c_14
  let main_v39 : IVec S80000 1 := cmpi .sge main_arg4 main_v38
  let main_c_15 : IVec S_ 32 := constantI S_ 32 80000#32
  let main_v40 : IVec S80000 32 := broadcastInDim S80000 ![] bcast_S_S80000 main_c_15
  let main_v41 : IVec S80000 1 := cmpi .slt main_arg4 main_v40
  let main_v42 : IVec S80000 1 := andi main_v39 main_v41
  let main_c_16 : IVec S_ 1 := constantI S_ 1 1#1
  let main_v43 : IVec S_ 1 := (fun x v => Host.reduce IntOp.andi x v reducesTo_S80000_S_d0 h_S_) main_v42 main_c_16
  let main_v44 : IVec S_ 1 := andi main_v37 main_v43
  main_v44

def fn_part1 {F : FTy → Type} [FloatOps F] (main_arg1 : IVec S600000 32) (main_arg2 : IVec S1280000 32) (main_arg4 : IVec S80000 32) (main_arg9 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg9
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_c_8 : IVec S_ 32 := constantI S_ 32 0#32
  let main_v24 : IVec S600000 32 := broadcastInDim S600000 ![] bcast_S_S600000 main_c_8
  let main_v25 : IVec S600000 1 := cmpi .sge main_arg1 main_v24
  let main_c_9 : IVec S_ 32 := constantI S_ 32 1000000#32
  let main_v26 : IVec S600000 32 := broadcastInDim S600000 ![] bcast_S_S600000 main_c_9
  let main_v27 : IVec S600000 1 := cmpi .slt main_arg1 main_v26
  let main_v28 : IVec S600000 1 := andi main_v25 main_v27
  let main_c_10 : IVec S_ 1 := constantI S_ 1 1#1
  let main_v29 : IVec S_ 1 := (fun x v => Host.reduce IntOp.andi x v reducesTo_S600000_S_d0 h_S_) main_v28 main_c_10
  let main_v30 : IVec S_ 1 := andi main_v23 main_v29
  let main_c_11 : IVec S_ 32 := constantI S_ 32 0#32
  let main_v31 : IVec S1280000 32 := broadcastInDim S1280000 ![] bcast_S_S1280000 main_c_11
  let main_v32 : IVec S1280000 1 := cmpi .sge main_arg2 main_v31
  let main_c_12 : IVec S_ 32 := constantI S_ 32 600000#32
  fn_part2 (F := F) main_arg2 main_arg4 main_v30 main_v32 main_c_12

def fn {F : FTy → Type} [FloatOps F] (main_arg0 : FVec F S1000000x128 .f32) (main_arg1 : IVec S600000 32) (main_arg2 : IVec S1280000 32) (main_arg3 : IVec S1280000 32) (main_arg4 : IVec S80000 32) (main_arg5 : IVec S80000 32) (main_arg6 : FVec F S128x32 .f32) (main_arg7 : FVec F S32 .f32) (main_arg8 : FVec F S32x16 .f32) (main_arg9 : FVec F S16 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x32 .f32 := Host.absf main_arg6
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg7
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg8
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg1 main_arg2 main_arg4 main_arg9 main_v13 main_v16
-- ==== Kernel.lean ====
abbrev S1000000x128 : Shape := ⟨2, ![1000000, 128]⟩
abbrev S600000 : Shape := ⟨1, ![600000]⟩
abbrev S1280000 : Shape := ⟨1, ![1280000]⟩
abbrev S80000 : Shape := ⟨1, ![80000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1000000x32 : Shape := ⟨2, ![1000000, 32]⟩
abbrev S8000x128 : Shape := ⟨2, ![8000, 128]⟩
abbrev S8000x32 : Shape := ⟨2, ![8000, 32]⟩
abbrev S_ : Shape := ⟨0, ![]⟩
abbrev S1280000x1 : Shape := ⟨2, ![1280000, 1]⟩
abbrev S1 : Shape := ⟨1, ![1]⟩
abbrev S1x1 : Shape := ⟨2, ![1, 1]⟩
abbrev S1280000x32 : Shape := ⟨2, ![1280000, 32]⟩
abbrev S1280000x33 : Shape := ⟨2, ![1280000, 33]⟩
abbrev S80000x33 : Shape := ⟨2, ![80000, 33]⟩
abbrev S80000x32 : Shape := ⟨2, ![80000, 32]⟩
abbrev S4000x33 : Shape := ⟨2, ![4000, 33]⟩
abbrev S4000x32 : Shape := ⟨2, ![4000, 32]⟩
abbrev S4000x1 : Shape := ⟨2, ![4000, 1]⟩
abbrev S1x32 : Shape := ⟨2, ![1, 32]⟩
abbrev S80000x1 : Shape := ⟨2, ![80000, 1]⟩
abbrev S8000x33 : Shape := ⟨2, ![8000, 33]⟩
abbrev S8000x16 : Shape := ⟨2, ![8000, 16]⟩
abbrev S8000x1 : Shape := ⟨2, ![8000, 1]⟩
abbrev S1x16 : Shape := ⟨2, ![1, 16]⟩
abbrev S8000 : Shape := ⟨1, ![8000]⟩

abbrev nBuf : Space → Nat
  | .hbm => 95
  | .vmem => 14
  | .smem => 0
  | _ => 0

abbrev bufTy : (tb : Table) → Fin (tcTables nBuf tb) → BufTy
  | .hbm, ⟨0, _⟩ => ⟨S1000000x128, .f32⟩
  | .hbm, ⟨1, _⟩ => ⟨S600000, .i32⟩
  | .hbm, ⟨2, _⟩ => ⟨S1280000, .i32⟩
  | .hbm, ⟨3, _⟩ => ⟨S1280000, .i32⟩
  | .hbm, ⟨4, _⟩ => ⟨S80000, .i32⟩
  | .hbm, ⟨5, _⟩ => ⟨S80000, .i32⟩
  | .hbm, ⟨6, _⟩ => ⟨S128x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S1000000x32, .f32⟩
  | .hbm, ⟨11, _⟩ => ⟨S_, .i32⟩
  | .hbm, ⟨12, _⟩ => ⟨S1280000, .i32⟩
  | .hbm, ⟨13, _⟩ => ⟨S1280000, .i1⟩
  | .hbm, ⟨14, _⟩ => ⟨S_, .i32⟩
  | .hbm, ⟨15, _⟩ => ⟨S1280000, .i32⟩
  | .hbm, ⟨16, _⟩ => ⟨S1280000, .i32⟩
  | .hbm, ⟨17, _⟩ => ⟨S1280000, .i32⟩
  | .hbm, ⟨18, _⟩ => ⟨S1280000x1, .i32⟩
  | .hbm, ⟨19, _⟩ => ⟨S1, .i32⟩
  | .hbm, ⟨20, _⟩ => ⟨S_, .i32⟩
  | .hbm, ⟨21, _⟩ => ⟨S1280000x1, .i32⟩
  | .hbm, ⟨22, _⟩ => ⟨S1280000x1, .i1⟩
  | .hbm, ⟨23, _⟩ => ⟨S1x1, .i32⟩
  | .hbm, ⟨24, _⟩ => ⟨S1280000x1, .i32⟩
  | .hbm, ⟨25, _⟩ => ⟨S1280000x1, .i1⟩
  | .hbm, ⟨26, _⟩ => ⟨S1280000x1, .i1⟩
  | .hbm, ⟨27, _⟩ => ⟨S_, .i1⟩
  | .hbm, ⟨28, _⟩ => ⟨S1280000, .i1⟩
  | .hbm, ⟨29, _⟩ => ⟨S1280000, .i32⟩
  | .hbm, ⟨30, _⟩ => ⟨S_, .i32⟩
  | .hbm, ⟨31, _⟩ => ⟨S1280000, .i32⟩
  | .hbm, ⟨32, _⟩ => ⟨S1280000, .i32⟩
  | .hbm, ⟨33, _⟩ => ⟨S_, .i32⟩
  | .hbm, ⟨34, _⟩ => ⟨S1280000, .i32⟩
  | .hbm, ⟨35, _⟩ => ⟨S1280000, .i1⟩
  | .hbm, ⟨36, _⟩ => ⟨S_, .i32⟩
  | .hbm, ⟨37, _⟩ => ⟨S1280000, .i32⟩
  | .hbm, ⟨38, _⟩ => ⟨S1280000, .i32⟩
  | .hbm, ⟨39, _⟩ => ⟨S1280000, .i32⟩
  | .hbm, ⟨40, _⟩ => ⟨S1280000x1, .i32⟩
  | .hbm, ⟨41, _⟩ => ⟨S1, .i32⟩
  | .hbm, ⟨42, _⟩ => ⟨S_, .i32⟩
  | .hbm, ⟨43, _⟩ => ⟨S1280000x1, .i32⟩
  | .hbm, ⟨44, _⟩ => ⟨S1280000x1, .i1⟩
  | .hbm, ⟨45, _⟩ => ⟨S1x1, .i32⟩
  | .hbm, ⟨46, _⟩ => ⟨S1280000x1, .i32⟩
  | .hbm, ⟨47, _⟩ => ⟨S1280000x1, .i1⟩
  | .hbm, ⟨48, _⟩ => ⟨S1280000x1, .i1⟩
  | .hbm, ⟨49, _⟩ => ⟨S_, .i1⟩
  | .hbm, ⟨50, _⟩ => ⟨S1280000, .i1⟩
  | .hbm, ⟨51, _⟩ => ⟨S1280000x32, .f32⟩
  | .hbm, ⟨52, _⟩ => ⟨S1280000x32, .i1⟩
  | .hbm, ⟨53, _⟩ => ⟨S_, .f32⟩
  | .hbm, ⟨54, _⟩ => ⟨S1280000x32, .f32⟩
  | .hbm, ⟨55, _⟩ => ⟨S1280000x32, .f32⟩
  | .hbm, ⟨56, _⟩ => ⟨S_, .f32⟩
  | .hbm, ⟨57, _⟩ => ⟨S1280000x1, .f32⟩
  | .hbm, ⟨58, _⟩ => ⟨S1280000x33, .f32⟩
  | .hbm, ⟨59, _⟩ => ⟨S_, .f32⟩
  | .hbm, ⟨60, _⟩ => ⟨S80000x33, .f32⟩
  | .hbm, ⟨61, _⟩ => ⟨S1280000x1, .i32⟩
  | .hbm, ⟨62, _⟩ => ⟨S80000x33, .f32⟩
  | .hbm, ⟨63, _⟩ => ⟨S80000x32, .f32⟩
  | .hbm, ⟨64, _⟩ => ⟨S_, .i32⟩
  | .hbm, ⟨65, _⟩ => ⟨S80000, .i32⟩
  | .hbm, ⟨66, _⟩ => ⟨S80000, .i1⟩
  | .hbm, ⟨67, _⟩ => ⟨S_, .i32⟩
  | .hbm, ⟨68, _⟩ => ⟨S80000, .i32⟩
  | .hbm, ⟨69, _⟩ => ⟨S80000, .i32⟩
  | .hbm, ⟨70, _⟩ => ⟨S80000, .i32⟩
  | .hbm, ⟨71, _⟩ => ⟨S80000x1, .i32⟩
  | .hbm, ⟨72, _⟩ => ⟨S1, .i32⟩
  | .hbm, ⟨73, _⟩ => ⟨S_, .i32⟩
  | .hbm, ⟨74, _⟩ => ⟨S80000x1, .i32⟩
  | .hbm, ⟨75, _⟩ => ⟨S80000x1, .i1⟩
  | .hbm, ⟨76, _⟩ => ⟨S1x1, .i32⟩
  | .hbm, ⟨77, _⟩ => ⟨S80000x1, .i32⟩
  | .hbm, ⟨78, _⟩ => ⟨S80000x1, .i1⟩
  | .hbm, ⟨79, _⟩ => ⟨S80000x1, .i1⟩
  | .hbm, ⟨80, _⟩ => ⟨S_, .i1⟩
  | .hbm, ⟨81, _⟩ => ⟨S80000, .i1⟩
  | .hbm, ⟨82, _⟩ => ⟨S80000x32, .f32⟩
  | .hbm, ⟨83, _⟩ => ⟨S80000x32, .i1⟩
  | .hbm, ⟨84, _⟩ => ⟨S_, .f32⟩
  | .hbm, ⟨85, _⟩ => ⟨S80000x32, .f32⟩
  | .hbm, ⟨86, _⟩ => ⟨S80000x32, .f32⟩
  | .hbm, ⟨87, _⟩ => ⟨S_, .f32⟩
  | .hbm, ⟨88, _⟩ => ⟨S80000x1, .f32⟩
  | .hbm, ⟨89, _⟩ => ⟨S80000x33, .f32⟩
  | .hbm, ⟨90, _⟩ => ⟨S_, .f32⟩
  | .hbm, ⟨91, _⟩ => ⟨S8000x33, .f32⟩
  | .hbm, ⟨92, _⟩ => ⟨S80000x1, .i32⟩
  | .hbm, ⟨93, _⟩ => ⟨S8000x33, .f32⟩
  | .hbm, ⟨94, _⟩ => ⟨S8000x16, .f32⟩
  | .local _ .vmem, ⟨0, _⟩ => ⟨S8000x128, .f32⟩
  | .local _ .vmem, ⟨1, _⟩ => ⟨S8000x128, .f32⟩
  | .local _ .vmem, ⟨2, _⟩ => ⟨S128x32, .f32⟩
  | .local _ .vmem, ⟨3, _⟩ => ⟨S8000x32, .f32⟩
  | .local _ .vmem, ⟨4, _⟩ => ⟨S8000x32, .f32⟩
  | .local _ .vmem, ⟨5, _⟩ => ⟨S4000x33, .f32⟩
  | .local _ .vmem, ⟨6, _⟩ => ⟨S4000x33, .f32⟩
  | .local _ .vmem, ⟨7, _⟩ => ⟨S32, .f32⟩
  | .local _ .vmem, ⟨8, _⟩ => ⟨S4000x32, .f32⟩
  | .local _ .vmem, ⟨9, _⟩ => ⟨S4000x32, .f32⟩
  | .local _ .vmem, ⟨10, _⟩ => ⟨S8000x33, .f32⟩
  | .local _ .vmem, ⟨11, _⟩ => ⟨S32x16, .f32⟩
  | .local _ .vmem, ⟨12, _⟩ => ⟨S16, .f32⟩
  | .local _ .vmem, ⟨13, _⟩ => ⟨S8000x16, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v2 : Ref sig .tc := ⟨.hbm, 55, rfl⟩
abbrev main_cst : Ref sig .tc := ⟨.hbm, 56, rfl⟩
abbrev main_v3 : Ref sig .tc := ⟨.hbm, 57, rfl⟩
abbrev main_v4 : Ref sig .tc := ⟨.hbm, 58, rfl⟩
abbrev main_cst_0 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v9 : Ref sig .tc := ⟨.hbm, 86, rfl⟩
abbrev main_cst_1 : Ref sig .tc := ⟨.hbm, 87, rfl⟩
abbrev main_v10 : Ref sig .tc := ⟨.hbm, 88, rfl⟩
abbrev main_v11 : Ref sig .tc := ⟨.hbm, 89, rfl⟩
abbrev main_cst_2 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x33 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8000x33 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8000x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S8000x32_S8000x32_0_0 : ∀ a, (![0, 0] : Fin 2 → Nat) a + S8000x32.size a ≤ S8000x32.size a
  h_S8000x32 : 0 < S8000x32.numel
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  bcast_S1_S1x1_1 : S1.BroadcastsInDim S1x1 (![1] : Fin 1 → Fin S1x1.rank)
  bcast_S1x1_S1280000x1_0_1 : S1x1.BroadcastsInDim S1280000x1 (![0, 1] : Fin 2 → Fin S1280000x1.rank)
  reducesTo_S1280000x1_S1280000_d1 : S1280000x1.ReducesTo [1] S1280000
  h_S_ : 0 < S_.numel
  bcast_S1280000_S1280000x32_0 : S1280000.BroadcastsInDim S1280000x32 (![0] : Fin 1 → Fin S1280000x32.rank)
  bcast_S_S1280000x32 : S_.BroadcastsInDim S1280000x32 (![] : Fin 0 → Fin S1280000x32.rank)
  concatenates_S1280000x32_S1280000x1_S1280000x33_d1 : Shape.Concatenates [S1280000x32, S1280000x1] S1280000x33 1
  bcast_S_S80000x33 : S_.BroadcastsInDim S80000x33 (![] : Fin 0 → Fin S80000x33.rank)
  inb_S4000x33_S4000x33_0_0 : ∀ a, (![0, 0] : Fin 2 → Nat) a + S4000x33.size a ≤ S4000x33.size a
  h_S4000x33 : 0 < S4000x33.numel
  shapeCasts_S4000x33_S4000x33 : S4000x33.ShapeCasts S4000x33
  slices_S4000x33_o0_0_S4000x32 : S4000x33.Slices ![0, 0] S4000x32
  slices_S4000x33_o0_32_S4000x1 : S4000x33.Slices ![0, 32] S4000x1
  broadcasts_S4000x1_S4000x32 : S4000x1.Broadcasts S4000x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S_S80000 : S_.BroadcastsInDim S80000 (![] : Fin 0 → Fin S80000.rank)
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S1x1_S80000x1_0_1 : S1x1.BroadcastsInDim S80000x1 (![0, 1] : Fin 2 → Fin S80000x1.rank)
  reducesTo_S80000x1_S80000_d1 : S80000x1.ReducesTo [1] S80000
  bcast_S80000_S80000x32_0 : S80000.BroadcastsInDim S80000x32 (![0] : Fin 1 → Fin S80000x32.rank)
  bcast_S_S80000x32 : S_.BroadcastsInDim S80000x32 (![] : Fin 0 → Fin S80000x32.rank)
  concatenates_S80000x32_S80000x1_S80000x33_d1 : Shape.Concatenates [S80000x32, S80000x1] S80000x33 1
  bcast_S_S8000x33 : S_.BroadcastsInDim S8000x33 (![] : Fin 0 → Fin S8000x33.rank)
  inb_S8000x33_S8000x33_0_0 : ∀ a, (![0, 0] : Fin 2 → Nat) a + S8000x33.size a ≤ S8000x33.size a
  h_S8000x33 : 0 < S8000x33.numel
  shapeCasts_S8000x33_S8000x33 : S8000x33.ShapeCasts S8000x33
  slices_S8000x33_o0_0_S8000x32 : S8000x33.Slices ![0, 0] S8000x32
  slices_S8000x33_o0_32_S8000x1 : S8000x33.Slices ![0, 32] S8000x1
  broadcasts_S8000x1_S8000x32 : S8000x1.Broadcasts S8000x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S8000x16 : S1x16.Broadcasts S8000x16
  reduces_S8000x16_S8000 : S8000x16.Reduces [1] S8000
  shapeCasts_S8000_S8000x1 : S8000.ShapeCasts S8000x1
  broadcasts_S8000x1_S8000x16 : S8000x1.Broadcasts S8000x16
  inb_S8000x16_S8000x16_0_0 : ∀ a, (![0, 0] : Fin 2 → Nat) a + S8000x16.size a ≤ S8000x16.size a
  h_S8000x16 : 0 < S8000x16.numel
  dot_S8000x128_S128x32_S8000x32_1_0_0_1_n_n_wf : DotDims.WF S8000x128 S128x32 S8000x32 [1] [0] [0] [1] [] []
  gather_S600000_S1280000x1_S1280000_n_0_n_n_0_1_1_wf : GatherDims.WF S600000 S1280000x1 S1280000 [] [0] [] [0] [] 1 ![1]
  gather_S1000000x32_S1280000x1_S1280000x32_1_0_n_n_0_1_132_wf : GatherDims.WF S1000000x32 S1280000x1 S1280000x32 [1] [0] [] [0] [] 1 ![1, 32]
  scatter_S80000x33_S1280000x1_S1280000x33_1_0_0_1_wf : ScatterDims.WF S80000x33 S1280000x1 S1280000x33 [1] [0] [0] 1
  gather_S80000x32_S80000x1_S80000x32_1_0_n_n_0_1_132_wf : GatherDims.WF S80000x32 S80000x1 S80000x32 [1] [0] [] [0] [] 1 ![1, 32]
  scatter_S8000x33_S80000x1_S80000x33_1_0_0_1_wf : ScatterDims.WF S8000x33 S80000x1 S80000x33 [1] [0] [0] 1
  dot_S8000x32_S32x16_S8000x16_1_0_0_1_n_n_wf : DotDims.WF S8000x32 S32x16 S8000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1000000x32.size a
  hwx0_2 : ∀ i : grid0.Coords, EltTy.bits .f32 = 32 ∨ (Rect.block (s := S1000000x32) S8000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x33.size a ≤ S80000x33.size a
  hwx1_0 : ∀ i : grid1.Coords, EltTy.bits .f32 = 32 ∨ (Rect.block (s := S80000x33) S4000x33.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S80000x32.size a
  hwx1_2 : ∀ i : grid1.Coords, EltTy.bits .f32 = 32 ∨ (Rect.block (s := S80000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S8000x33.size a ≤ S8000x33.size a
  hwx2_0 : ∀ i : grid2.Coords, EltTy.bits .f32 = 32 ∨ (Rect.block (s := S8000x33) S8000x33.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S8000x16.size a ≤ S8000x16.size a
  hwx2_3 : ∀ i : grid2.Coords, EltTy.bits .f32 = 32 ∨ (Rect.block (s := S8000x16) S8000x16.size (cc2_transform_3 i) (hinb2_3 i)).WholeWords (EltTy.packing .f32)

variable [Facts₀]

def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf
def gather_S600000_S1280000x1_S1280000_n_0_n_n_0_1_1 : GatherDims S600000 S1280000x1 S1280000 where
  offsetDims := []
  collapsedSliceDims := [0]
  operandBatchingDims := []
  startIndicesBatchingDims := []
  startIndexMap := [0]
  indexVectorDim := 1
  sliceSizes := ![1]
  wf := gather_S600000_S1280000x1_S1280000_n_0_n_n_0_1_1_wf
def gather_S1000000x32_S1280000x1_S1280000x32_1_0_n_n_0_1_132 : GatherDims S1000000x32 S1280000x1 S1280000x32 where
  offsetDims := [1]
  collapsedSliceDims := [0]
  operandBatchingDims := []
  startIndicesBatchingDims := []
  startIndexMap := [0]
  indexVectorDim := 1
  sliceSizes := ![1, 32]
  wf := gather_S1000000x32_S1280000x1_S1280000x32_1_0_n_n_0_1_132_wf
def scatter_S80000x33_S1280000x1_S1280000x33_1_0_0_1 : ScatterDims S80000x33 S1280000x1 S1280000x33 where
  updateWindowDims := [1]
  insertedWindowDims := [0]
  scatterDimsToOperandDims := [0]
  indexVectorDim := 1
  wf := scatter_S80000x33_S1280000x1_S1280000x33_1_0_0_1_wf
def gather_S80000x32_S80000x1_S80000x32_1_0_n_n_0_1_132 : GatherDims S80000x32 S80000x1 S80000x32 where
  offsetDims := [1]
  collapsedSliceDims := [0]
  operandBatchingDims := []
  startIndicesBatchingDims := []
  startIndexMap := [0]
  indexVectorDim := 1
  sliceSizes := ![1, 32]
  wf := gather_S80000x32_S80000x1_S80000x32_1_0_n_n_0_1_132_wf
def scatter_S8000x33_S80000x1_S80000x33_1_0_0_1 : ScatterDims S8000x33 S80000x1 S80000x33 where
  updateWindowDims := [1]
  insertedWindowDims := [0]
  scatterDimsToOperandDims := [0]
  indexVectorDim := 1
  wf := scatter_S8000x33_S80000x1_S80000x33_1_0_0_1_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S4000x33.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S8000x33.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S8000x16.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1000000x128 : Shape := ⟨2, ![1000000, 128]⟩
abbrev S600000 : Shape := ⟨1, ![600000]⟩
abbrev S1280000 : Shape := ⟨1, ![1280000]⟩
abbrev S80000 : Shape := ⟨1, ![80000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩
abbrev S600000x1 : Shape := ⟨2, ![600000, 1]⟩
abbrev S600000x128 : Shape := ⟨2, ![600000, 128]⟩
abbrev S1280000x1 : Shape := ⟨2, ![1280000, 1]⟩
abbrev S1280000x128 : Shape := ⟨2, ![1280000, 128]⟩
abbrev S80000x128 : Shape := ⟨2, ![80000, 128]⟩
abbrev S80000x1 : Shape := ⟨2, ![80000, 1]⟩
abbrev S80000x32 : Shape := ⟨2, ![80000, 32]⟩
abbrev S1x32 : Shape := ⟨2, ![1, 32]⟩
abbrev S8000x32 : Shape := ⟨2, ![8000, 32]⟩
abbrev S8000 : Shape := ⟨1, ![8000]⟩
abbrev S8000x1 : Shape := ⟨2, ![8000, 1]⟩
abbrev S8000x16 : Shape := ⟨2, ![8000, 16]⟩
abbrev S1x16 : Shape := ⟨2, ![1, 16]⟩

abbrev nBuf : Space → Nat
  | .hbm => 95
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S600000, .i32⟩
  | .hbm, ⟨2, _⟩ => ⟨S1280000, .i32⟩
  | .hbm, ⟨3, _⟩ => ⟨S1280000, .i32⟩
  | .hbm, ⟨4, _⟩ => ⟨S80000, .i32⟩
  | .hbm, ⟨5, _⟩ => ⟨S80000, .i32⟩
  | .hbm, ⟨6, _⟩ => ⟨S128x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .i32⟩
  | .hbm, ⟨20, _⟩ => ⟨S1280000, .i32⟩
  | .hbm, ⟨21, _⟩ => ⟨S1280000, .i1⟩
  | .hbm, ⟨22, _⟩ => ⟨S_, .i32⟩
  | .hbm, ⟨23, _⟩ => ⟨S1280000, .i32⟩
  | .hbm, ⟨24, _⟩ => ⟨S1280000, .i32⟩
  | .hbm, ⟨25, _⟩ => ⟨S1280000, .i32⟩
  | .hbm, ⟨26, _⟩ => ⟨S1280000x1, .i32⟩
  | .hbm, ⟨27, _⟩ => ⟨S1280000x128, .f32⟩
  | .hbm, ⟨28, _⟩ => ⟨S_, .f32⟩
  | .hbm, ⟨29, _⟩ => ⟨S80000x128, .f32⟩
  | .hbm, ⟨30, _⟩ => ⟨S1280000x1, .i32⟩
  | .hbm, ⟨31, _⟩ => ⟨S80000x128, .f32⟩
  | .hbm, ⟨32, _⟩ => ⟨S_, .f32⟩
  | .hbm, ⟨33, _⟩ => ⟨S1280000, .f32⟩
  | .hbm, ⟨34, _⟩ => ⟨S_, .f32⟩
  | .hbm, ⟨35, _⟩ => ⟨S80000, .f32⟩
  | .hbm, ⟨36, _⟩ => ⟨S1280000x1, .i32⟩
  | .hbm, ⟨37, _⟩ => ⟨S80000, .f32⟩
  | .hbm, ⟨38, _⟩ => ⟨S_, .f32⟩
  | .hbm, ⟨39, _⟩ => ⟨S80000, .f32⟩
  | .hbm, ⟨40, _⟩ => ⟨S80000, .f32⟩
  | .hbm, ⟨41, _⟩ => ⟨S80000x1, .f32⟩
  | .hbm, ⟨42, _⟩ => ⟨S80000x128, .f32⟩
  | .hbm, ⟨43, _⟩ => ⟨S80000x128, .f32⟩
  | .hbm, ⟨44, _⟩ => ⟨S80000x32, .f32⟩
  | .hbm, ⟨45, _⟩ => ⟨S1x32, .f32⟩
  | .hbm, ⟨46, _⟩ => ⟨S80000x32, .f32⟩
  | .hbm, ⟨47, _⟩ => ⟨S80000x32, .f32⟩
  | .hbm, ⟨48, _⟩ => ⟨S_, .f32⟩
  | .hbm, ⟨49, _⟩ => ⟨S80000x32, .f32⟩
  | .hbm, ⟨50, _⟩ => ⟨S80000x32, .f32⟩
  | .hbm, ⟨51, _⟩ => ⟨S_, .i32⟩
  | .hbm, ⟨52, _⟩ => ⟨S80000, .i32⟩
  | .hbm, ⟨53, _⟩ => ⟨S80000, .i1⟩
  | .hbm, ⟨54, _⟩ => ⟨S_, .i32⟩
  | .hbm, ⟨55, _⟩ => ⟨S80000, .i32⟩
  | .hbm, ⟨56, _⟩ => ⟨S80000, .i32⟩
  | .hbm, ⟨57, _⟩ => ⟨S80000, .i32⟩
  | .hbm, ⟨58, _⟩ => ⟨S80000x1, .i32⟩
  | .hbm, ⟨59, _⟩ => ⟨S80000x32, .f32⟩
  | .hbm, ⟨60, _⟩ => ⟨S_, .f32⟩
  | .hbm, ⟨61, _⟩ => ⟨S8000x32, .f32⟩
  | .hbm, ⟨62, _⟩ => ⟨S80000x1, .i32⟩
  | .hbm, ⟨63, _⟩ => ⟨S8000x32, .f32⟩
  | .hbm, ⟨64, _⟩ => ⟨S_, .f32⟩
  | .hbm, ⟨65, _⟩ => ⟨S80000, .f32⟩
  | .hbm, ⟨66, _⟩ => ⟨S_, .f32⟩
  | .hbm, ⟨67, _⟩ => ⟨S8000, .f32⟩
  | .hbm, ⟨68, _⟩ => ⟨S80000x1, .i32⟩
  | .hbm, ⟨69, _⟩ => ⟨S8000, .f32⟩
  | .hbm, ⟨70, _⟩ => ⟨S_, .f32⟩
  | .hbm, ⟨71, _⟩ => ⟨S8000, .f32⟩
  | .hbm, ⟨72, _⟩ => ⟨S8000, .f32⟩
  | .hbm, ⟨73, _⟩ => ⟨S8000x1, .f32⟩
  | .hbm, ⟨74, _⟩ => ⟨S8000x32, .f32⟩
  | .hbm, ⟨75, _⟩ => ⟨S8000x32, .f32⟩
  | .hbm, ⟨76, _⟩ => ⟨S8000x16, .f32⟩
  | .hbm, ⟨77, _⟩ => ⟨S1x16, .f32⟩
  | .hbm, ⟨78, _⟩ => ⟨S8000x16, .f32⟩
  | .hbm, ⟨79, _⟩ => ⟨S8000x16, .f32⟩
  | .hbm, ⟨80, _⟩ => ⟨S_, .f32⟩
  | .hbm, ⟨81, _⟩ => ⟨S8000, .f32⟩
  | .hbm, ⟨82, _⟩ => ⟨S_, .f32⟩
  | .hbm, ⟨83, _⟩ => ⟨S8000, .f32⟩
  | .hbm, ⟨84, _⟩ => ⟨S8000, .f32⟩
  | .hbm, ⟨85, _⟩ => ⟨S8000x1, .f32⟩
  | .hbm, ⟨86, _⟩ => ⟨S8000x16, .f32⟩
  | .hbm, ⟨87, _⟩ => ⟨S8000x16, .f32⟩
  | .hbm, ⟨88, _⟩ => ⟨S8000x16, .f32⟩
  | .hbm, ⟨89, _⟩ => ⟨S_, .f32⟩
  | .hbm, ⟨90, _⟩ => ⟨S8000, .f32⟩
  | .hbm, ⟨91, _⟩ => ⟨S8000x1, .f32⟩
  | .hbm, ⟨92, _⟩ => ⟨S8000x1, .f32⟩
  | .hbm, ⟨93, _⟩ => ⟨S8000x16, .f32⟩
  | .hbm, ⟨94, _⟩ => ⟨S8000x16, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v54 : Ref sig .tc := ⟨.hbm, 94, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S80000x128 : S_.BroadcastsInDim S80000x128 (![] : Fin 0 → Fin S80000x128.rank)
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x128_0_1 : S80000x1.BroadcastsInDim S80000x128 (![0, 1] : Fin 2 → Fin S80000x128.rank)
  bcast_S32_S1x32_1 : S32.BroadcastsInDim S1x32 (![1] : Fin 1 → Fin S1x32.rank)
  bcast_S1x32_S80000x32_0_1 : S1x32.BroadcastsInDim S80000x32 (![0, 1] : Fin 2 → Fin S80000x32.rank)
  bcast_S_S80000x32 : S_.BroadcastsInDim S80000x32 (![] : Fin 0 → Fin S80000x32.rank)
  bcast_S_S8000x32 : S_.BroadcastsInDim S8000x32 (![] : Fin 0 → Fin S8000x32.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x32_0_1 : S8000x1.BroadcastsInDim S8000x32 (![0, 1] : Fin 2 → Fin S8000x32.rank)
  bcast_S16_S1x16_1 : S16.BroadcastsInDim S1x16 (![1] : Fin 1 → Fin S1x16.rank)
  bcast_S1x16_S8000x16_0_1 : S1x16.BroadcastsInDim S8000x16 (![0, 1] : Fin 2 → Fin S8000x16.rank)
  reducesTo_S8000x16_S8000_d1 : S8000x16.ReducesTo [1] S8000
  h_S_ : 0 < S_.numel
  bcast_S8000x1_S8000x16_0_1 : S8000x1.BroadcastsInDim S8000x16 (![0, 1] : Fin 2 → Fin S8000x16.rank)
  gather_S1000000x128_S600000x1_S600000x128_1_0_n_n_0_1_1128_wf : GatherDims.WF S1000000x128 S600000x1 S600000x128 [1] [0] [] [0] [] 1 ![1, 128]
  gather_S600000x128_S1280000x1_S1280000x128_1_0_n_n_0_1_1128_wf : GatherDims.WF S600000x128 S1280000x1 S1280000x128 [1] [0] [] [0] [] 1 ![1, 128]
  scatter_S80000x128_S1280000x1_S1280000x128_1_0_0_1_wf : ScatterDims.WF S80000x128 S1280000x1 S1280000x128 [1] [0] [0] 1
  scatter_S80000_S1280000x1_S1280000_n_0_0_1_wf : ScatterDims.WF S80000 S1280000x1 S1280000 [] [0] [0] 1
  dot_S80000x128_S128x32_S80000x32_1_0_0_1_n_n_wf : DotDims.WF S80000x128 S128x32 S80000x32 [1] [0] [0] [1] [] []
  gather_S80000x32_S80000x1_S80000x32_1_0_n_n_0_1_132_wf : GatherDims.WF S80000x32 S80000x1 S80000x32 [1] [0] [] [0] [] 1 ![1, 32]
  scatter_S8000x32_S80000x1_S80000x32_1_0_0_1_wf : ScatterDims.WF S8000x32 S80000x1 S80000x32 [1] [0] [0] 1
  scatter_S8000_S80000x1_S80000_n_0_0_1_wf : ScatterDims.WF S8000 S80000x1 S80000 [] [0] [0] 1
  dot_S8000x32_S32x16_S8000x16_1_0_0_1_n_n_wf : DotDims.WF S8000x32 S32x16 S8000x16 [1] [0] [0] [1] [] []

variable [Facts₀]

def gather_S1000000x128_S600000x1_S600000x128_1_0_n_n_0_1_1128 : GatherDims S1000000x128 S600000x1 S600000x128 where
  offsetDims := [1]
  collapsedSliceDims := [0]
  operandBatchingDims := []
  startIndicesBatchingDims := []
  startIndexMap := [0]
  indexVectorDim := 1
  sliceSizes := ![1, 128]
  wf := gather_S1000000x128_S600000x1_S600000x128_1_0_n_n_0_1_1128_wf
def gather_S600000x128_S1280000x1_S1280000x128_1_0_n_n_0_1_1128 : GatherDims S600000x128 S1280000x1 S1280000x128 where
  offsetDims := [1]
  collapsedSliceDims := [0]
  operandBatchingDims := []
  startIndicesBatchingDims := []
  startIndexMap := [0]
  indexVectorDim := 1
  sliceSizes := ![1, 128]
  wf := gather_S600000x128_S1280000x1_S1280000x128_1_0_n_n_0_1_1128_wf
def scatter_S80000x128_S1280000x1_S1280000x128_1_0_0_1 : ScatterDims S80000x128 S1280000x1 S1280000x128 where
  updateWindowDims := [1]
  insertedWindowDims := [0]
  scatterDimsToOperandDims := [0]
  indexVectorDim := 1
  wf := scatter_S80000x128_S1280000x1_S1280000x128_1_0_0_1_wf
def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def dot_S80000x128_S128x32_S80000x32_1_0_0_1_n_n : DotDims S80000x128 S128x32 S80000x32 where
  lhsContracting := [1]
  rhsContracting := [0]
  lhsNonContracting := [0]
  rhsNonContracting := [1]
  lhsBatch := []
  rhsBatch := []
  wf := dot_S80000x128_S128x32_S80000x32_1_0_0_1_n_n_wf
def gather_S80000x32_S80000x1_S80000x32_1_0_n_n_0_1_132 : GatherDims S80000x32 S80000x1 S80000x32 where
  offsetDims := [1]
  collapsedSliceDims := [0]
  operandBatchingDims := []
  startIndicesBatchingDims := []
  startIndexMap := [0]
  indexVectorDim := 1
  sliceSizes := ![1, 32]
  wf := gather_S80000x32_S80000x1_S80000x32_1_0_n_n_0_1_132_wf
def scatter_S8000x32_S80000x1_S80000x32_1_0_0_1 : ScatterDims S8000x32 S80000x1 S80000x32 where
  updateWindowDims := [1]
  insertedWindowDims := [0]
  scatterDimsToOperandDims := [0]
  indexVectorDim := 1
  wf := scatter_S8000x32_S80000x1_S80000x32_1_0_0_1_wf
def scatter_S8000_S80000x1_S80000_n_0_0_1 : ScatterDims S8000 S80000x1 S80000 where
  updateWindowDims := []
  insertedWindowDims := [0]
  scatterDimsToOperandDims := [0]
  indexVectorDim := 1
  wf := scatter_S8000_S80000x1_S80000_n_0_0_1_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf

class Facts : Prop extends Facts₀ where

variable [Facts]
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.LibGatherScatter.lean ====
/-
  A row gather and a row scatter-add read at an index.

  `table[idx]` over a table of rows prints as a gather whose start indices are an [n × 1] column, whose
  row axis is collapsed and start-indexed and whose column axis is an offset axis: result row `p` is the
  table's row at `p`'s start index, read signed and clamped into the table.

  `segment_sum(rows, idx)` prints as an accumulating scatter with the same column of indices: the result's
  row `r` is the operand's row `r` plus the sum of the update rows whose index word, read signed, is
  exactly `r`; an update whose word is negative or past the end lands nowhere and is dropped.
-/
import Idealize.ShloMosaic.PureOps.Ideal
import Idealize.ShloMosaic.PureOps.Ideal.Laws
import Idealize.ShloMosaic.Lib.ValueIdx

noncomputable section

namespace Cert.GS

open Idealize.ShloMosaic Idealize.ShloMosaic.ValueIdx
open scoped BigOperators

/-- An index word read as a signed integer and clamped into `[0, n - 1]`: the row a gather reads. -/
def rd (n : ℕ) (hn : 0 < n) (b : BitVec 32) : Fin n := ⟨min b.toInt.toNat (n - 1), by omega⟩

/-- A word already inside `[0, n)` is read as itself. -/
theorem rd_val_of_inRange {n : ℕ} (hn : 0 < n) {b : BitVec 32} (h0 : 0 ≤ b.toInt) (h1 : b.toInt < n) :
    (rd n hn b).val = b.toInt.toNat := by
  unfold rd; simp only; omega

/-- The positions whose index word, read signed, is exactly `r`. A position whose word is negative or too
    large is in no row's set. -/
def into {E : ℕ} (dst : Fin E → BitVec 32) (r : ℕ) : Finset (Fin E) :=
  Finset.univ.filter fun e => (dst e).toInt = (r : ℤ)

/-- THE ROW GATHER. Result entry `(p, q)` is the table's entry `(row, q)`, the row being `p`'s start index read
    signed and clamped into the table. The five hypotheses are the printed dimension numbers, each by `rfl`. -/
theorem gather_rows {α : Type} {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ 32) (p : Fin n) (q : Fin C) (hN : 0 < N) :
    Host.gather d x idx (ix2 p q) = x (ix2 (rd N hN (idx (ix2 p 0))) q) := by
  unfold Host.gather
  congr 1
  funext a
  apply Fin.ext
  have hb : ∀ a : Fin 2, a ∉ d.operandBatchingDims := by intro a; rw [hob]; exact List.not_mem_nil
  -- a batch axis of the result (one that is not an offset axis) is axis 0
  have hbatch : ∀ X : Fin 2, X ∈ d.batchDims → (ix2 p q X).val = p.val := by
    intro X hX
    have h1 : X ≠ 1 := by
      intro h; subst h
      simp [GatherDims.batchDims, Shape.kept, hoff] at hX
    have h0 : X = 0 := by
      apply Fin.ext; have := X.isLt; have : X.val ≠ 1 := fun h => h1 (Fin.ext h); omega
    subst h0; rfl
  -- an offset axis of the result is axis 1
  have hoffs : ∀ X : Fin 2, X ∈ d.offsetDims → (ix2 p q X).val = q.val := by
    intro X hX
    rw [hoff] at hX
    have h1 : X = 1 := List.mem_singleton.1 hX
    subst h1; rfl
  revert a
  refine Fin.forall_fin_two.2 ⟨?_, ?_⟩
  · have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    revert b
    refine Fin.forall_fin_two.2 ⟨?_, ?_⟩
    · unfold GatherDims.siIdx
      rw [dif_neg (by rw [hivd]; simp)]
      unfold GatherDims.siCoord
      apply Fin.ext
      simp only [Fin.val_cast]
      exact hbatch _ (List.getElem_mem _)
    · unfold GatherDims.siIdx
      rw [dif_pos (by rw [hivd]; rfl)]
      apply Fin.ext
      show List.idxOf (0 : Fin 2) d.startIndexMap = 0
      rw [hsim]; simp
  · have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _),
      Nat.add_zero, GatherDims.start, dif_neg hm, Nat.zero_add]
    unfold GatherDims.offCoord
    rw [dif_pos hk]
    exact hoffs _ (List.getElem_mem _)

/-- Where an update entry lands: update entry `(e, c)` goes to operand entry `(r, q)` exactly when `e`'s index
    word reads `r` and the columns agree. -/
theorem resultIdx_rows {R C n : Nat} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ 32) (e : Fin n) (c : Fin C) (r : Fin R) (q : Fin C) :
    d.resultIdx? (ix2 e c) idx = some (ix2 r q) ↔ (idx (ix2 e 0)).toInt = (r.val : ℤ) ∧ c = q := by
  -- an update scatter axis (one that is not a window axis) is axis 0
  have hscat : ∀ X : Fin 2, X ∈ d.uScatter → (ix2 e c X).val = e.val := by
    intro X hX
    have h1 : X ≠ 1 := by
      intro h; subst h
      simp [ScatterDims.uScatter, Shape.kept, huw] at hX
    have h0 : X = 0 := by
      apply Fin.ext; have := X.isLt; have : X.val ≠ 1 := fun h => h1 (Fin.ext h); omega
    subst h0; rfl
  -- a window axis of the updates is axis 1
  have hwin : ∀ X : Fin 2, X ∈ d.updateWindowDims → (ix2 e c X).val = c.val := by
    intro X hX
    rw [huw] at hX
    have h1 : X = 1 := List.mem_singleton.1 hX
    subst h1; rfl
  -- the start and the window coordinate on each operand axis
  have hs0 : d.start (ix2 e c) idx 0 = (idx (ix2 e 0)).toInt := by
    have hm : (0 : Fin 2) ∈ d.scatterDimsToOperandDims := by rw [hsd]; exact List.mem_singleton.mpr rfl
    unfold ScatterDims.start
    rw [dif_pos hm]
    congr 2
    funext b
    revert b
    refine Fin.forall_fin_two.2 ⟨?_, ?_⟩
    · unfold ScatterDims.siIdx
      rw [dif_neg (by rw [hivd]; simp)]
      unfold ScatterDims.siCoord
      apply Fin.ext
      simp only [Fin.val_cast]
      exact hscat _ (List.getElem_mem _)
    · unfold ScatterDims.siIdx
      rw [dif_pos (by rw [hivd]; rfl)]
      apply Fin.ext
      show List.idxOf (0 : Fin 2) d.scatterDimsToOperandDims = 0
      rw [hsd]; simp
  have hs1 : d.start (ix2 e c) idx 1 = 0 := by
    unfold ScatterDims.start; rw [dif_neg (by rw [hsd]; simp)]
  have hw0 : d.window (ix2 e c) 0 = 0 := by
    unfold ScatterDims.window; rw [dif_neg (by simp [ScatterDims.sKept, Shape.kept, hiw])]
  have hw1 : d.window (ix2 e c) 1 = c.val := by
    have hk : (1 : Fin 2) ∈ d.sKept := by simp [ScatterDims.sKept, Shape.kept, hiw]
    unfold ScatterDims.window; rw [dif_pos hk]
    exact hwin _ (List.getElem_mem _)
  have hr := r.isLt
  have hc := c.isLt
  unfold ScatterDims.resultIdx?
  split
  next h =>
    have h0 := (h 0).1
    rw [hs0, hw0] at h0
    constructor
    · intro heq
      have heq := Option.some.inj heq
      have e0 : (d.start (ix2 e c) idx 0 + d.window (ix2 e c) 0).toNat = r.val := congrArg (fun f => (f 0).val) heq
      have e1 : (d.start (ix2 e c) idx 1 + d.window (ix2 e c) 1).toNat = q.val := congrArg (fun f => (f 1).val) heq
      rw [hs0, hw0] at e0
      rw [hs1, hw1] at e1
      refine ⟨by omega, Fin.ext (by omega)⟩
    · rintro ⟨h1, h2⟩
      subst h2
      congr 1
      funext a
      revert a
      refine Fin.forall_fin_two.2 ⟨?_, ?_⟩
      · apply Fin.ext
        show (d.start (ix2 e c) idx 0 + d.window (ix2 e c) 0).toNat = r.val
        rw [hs0, hw0]; omega
      · apply Fin.ext
        show (d.start (ix2 e c) idx 1 + d.window (ix2 e c) 1).toNat = c.val
        rw [hs1, hw1]; omega
  next h =>
    constructor
    · intro heq; cases heq
    · rintro ⟨h1, h2⟩
      exfalso
      apply h
      refine Fin.forall_fin_two.2 ⟨?_, ?_⟩
      · rw [hs0, hw0, h1]
        show _ ∧ _ < ((R : ℕ) : ℤ)
        omega
      · rw [hs1, hw1]
        show _ ∧ _ < ((C : ℕ) : ℤ)
        omega

/-- THE ROW SCATTER-ADD at the extended reals. Result entry `(r, q)` is the operand's entry plus the sum of the
    updates' entries `(e, q)` over the positions `e` whose index word reads `r`. -/
theorem scatterAdd_rows {R C n : Nat} {φ : FTy} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![R, C]⟩ φ) (idx : IVec ⟨2, ![n, 1]⟩ 32) (upd : FVec Ideal ⟨2, ![n, C]⟩ φ) (r : Fin R) (q : Fin C) :
    Host.scatterAdd d x idx upd (ix2 r q)
      = x (ix2 r q) + ∑ e ∈ into (fun e : Fin n => idx (ix2 e 0)) r.val, upd (ix2 e q) := by
  show Ideal.hostScatterAdd d x idx upd (ix2 r q) = _
  unfold Ideal.hostScatterAdd
  congr 1
  rw [Finset.sum_filter, sum_idx2]
  unfold into
  rw [Finset.sum_filter]
  refine Finset.sum_congr rfl fun e _ => ?_
  simp only [resultIdx_rows d huw hiw hsd hivd idx e _ r q]
  by_cases hA : (idx (ix2 e 0)).toInt = (r.val : ℤ)
  · simp [hA]
  · simp [hA]

/-- A rank-1 index set is its one coordinate's range … -/
def vecIdxEquiv {n : Nat} : (⟨1, ![n]⟩ : Shape).Idx ≃ Fin n where
  toFun i := i 0
  invFun a := ix1 a
  left_inv i := (eq_ix1 i).symm
  right_inv _ := rfl

/-- … so a sum over it is the sum over the coordinate. -/
theorem sum_vecIdx {M : Type*} [AddCommMonoid M] {n : Nat} (f : (⟨1, ![n]⟩ : Shape).Idx → M) :
    ∑ i, f i = ∑ a : Fin n, f (ix1 a) := by
  rw [← Equiv.sum_comp (vecIdxEquiv (n := n)).symm f]
  rfl

/-- Where an update entry lands (no window axis): update entry `e` goes to operand entry `r` exactly when `e`'s
    index word reads `r`. -/
theorem resultIdx_vec {R n : Nat} (d : ScatterDims ⟨1, ![R]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ 32) (e : Fin n) (r : Fin R) :
    d.resultIdx? (ix1 e) idx = some (ix1 r) ↔ (idx (ix2 e 0)).toInt = (r.val : ℤ) := by
  -- the updates have one axis
  have hscat : ∀ X : Fin 1, (ix1 e X).val = e.val := by
    intro X
    have hX : X = 0 := Subsingleton.elim _ _
    subst hX; rfl
  -- the start and the window coordinate on the operand's one axis
  have hs0 : d.start (ix1 e) idx 0 = (idx (ix2 e 0)).toInt := by
    have hm : (0 : Fin 1) ∈ d.scatterDimsToOperandDims := by rw [hsd]; exact List.mem_singleton.mpr rfl
    unfold ScatterDims.start
    rw [dif_pos hm]
    congr 2
    funext b
    revert b
    refine Fin.forall_fin_two.2 ⟨?_, ?_⟩
    · unfold ScatterDims.siIdx
      rw [dif_neg (by rw [hivd]; simp)]
      unfold ScatterDims.siCoord
      apply Fin.ext
      simp only [Fin.val_cast]
      exact hscat _
    · unfold ScatterDims.siIdx
      rw [dif_pos (by rw [hivd]; rfl)]
      apply Fin.ext
      show List.idxOf (0 : Fin 1) d.scatterDimsToOperandDims = 0
      rw [hsd]; simp
  have hw0 : d.window (ix1 e) 0 = 0 := by
    unfold ScatterDims.window; rw [dif_neg (by simp [ScatterDims.sKept, Shape.kept, hiw])]
  have hr := r.isLt
  unfold ScatterDims.resultIdx?
  split
  next h =>
    have h0 := (h 0).1
    rw [hs0, hw0] at h0
    constructor
    · intro heq
      have heq := Option.some.inj heq
      have e0 : (d.start (ix1 e) idx 0 + d.window (ix1 e) 0).toNat = r.val := congrArg (fun f => (f 0).val) heq
      rw [hs0, hw0] at e0
      omega
    · intro h1
      congr 1
      funext a
      have ha : a = 0 := Subsingleton.elim _ _
      subst ha
      apply Fin.ext
      show (d.start (ix1 e) idx 0 + d.window (ix1 e) 0).toNat = r.val
      rw [hs0, hw0]; omega
  next h =>
    constructor
    · intro heq; cases heq
    · intro h1
      exfalso
      apply h
      intro a
      have ha : a = 0 := Subsingleton.elim _ _
      subst ha
      rw [hs0, hw0, h1]
      show _ ∧ _ < ((R : ℕ) : ℤ)
      omega

/-- THE SCATTER-ADD OF A VECTOR (no window axis): result entry `r` is the operand's entry plus the sum of the
    updates' entries over the positions whose index word reads `r`. -/
theorem scatterAdd_vec {R n : Nat} {φ : FTy} (d : ScatterDims ⟨1, ![R]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![R]⟩ φ) (idx : IVec ⟨2, ![n, 1]⟩ 32) (upd : FVec Ideal ⟨1, ![n]⟩ φ) (r : Fin R) :
    Host.scatterAdd d x idx upd (ix1 r)
      = x (ix1 r) + ∑ e ∈ into (fun e : Fin n => idx (ix2 e 0)) r.val, upd (ix1 e) := by
  show Ideal.hostScatterAdd d x idx upd (ix1 r) = _
  unfold Ideal.hostScatterAdd
  congr 1
  rw [Finset.sum_filter, sum_vecIdx]
  unfold into
  rw [Finset.sum_filter]
  refine Finset.sum_congr rfl fun e _ => ?_
  simp only [resultIdx_vec d huw hiw hsd hivd idx e r]

end Cert.GS

end
-- ==== Proof.Spec.lean ====
/-
  The mathematics of the two-layer mean-aggregation network, over plain finite index types.

  A layer gathers rows of a feature table along edges, sums the gathered rows into the edges'
  destination nodes, divides each node's sum by its (clamped) in-degree and applies a linear map.
  One program applies the linear map after the mean ("mean, then linear"), the other applies it to the
  whole table first, sums the projected rows, and multiplies by the reciprocal of the clamped degree
  ("linear, then mean").  Over finite entries the two agree: the linear map commutes with the sum
  and with the division by a real number that is at least one.

  Everything here is about extended reals; no program is mentioned.
-/
import Idealize.ShloMosaic.PureOps.Ideal
import Idealize.ShloMosaic.PureOps.Ideal.Laws
import proofs.«430451_j11338713661814_3_alg».proof.Proof.LibFinite
import proofs.«430451_j11338713661814_3_alg».proof.Proof.LibGatherScatter

noncomputable section

namespace Cert.Sage

open Idealize.ShloMosaic Cert.Fin Cert.GS
open scoped BigOperators

/-- The number of edges into node `d`, as an extended real: a sum of ones. -/
def cnt {E : ℕ} (dst : Fin E → BitVec 32) (d : ℕ) : EReal := ∑ _e ∈ into dst d, (1 : EReal)

/-- The divisor of the mean: the in-degree, or one for an isolated node. -/
def den {E : ℕ} (dst : Fin E → BitVec 32) (d : ℕ) : EReal := max (cnt dst d) 1

/-- The in-degree is the real number `card`. -/
theorem nsmul_one_eq (n : ℕ) : n • (1 : EReal) = ((n : ℝ) : EReal) := by
  induction n with
  | zero => simp
  | succ n ih => rw [succ_nsmul, ih, Nat.cast_succ, EReal.coe_add, EReal.coe_one]

theorem cnt_eq {E : ℕ} (dst : Fin E → BitVec 32) (d : ℕ) : cnt dst d = (((into dst d).card : ℝ) : EReal) := by
  unfold cnt
  rw [Finset.sum_const]
  exact nsmul_one_eq _

/-- The divisor is a real number that is at least one. -/
theorem den_eq {E : ℕ} (dst : Fin E → BitVec 32) (d : ℕ) :
    den dst d = ((max ((into dst d).card : ℝ) 1 : ℝ) : EReal) := by
  unfold den
  rw [cnt_eq]
  rcases le_total ((into dst d).card : ℝ) 1 with h | h
  · rw [max_eq_right h, max_eq_right (by exact_mod_cast h)]; rfl
  · rw [max_eq_left h, max_eq_left (by exact_mod_cast h)]

theorem den_real_ne_zero {E : ℕ} (dst : Fin E → BitVec 32) (d : ℕ) : (max ((into dst d).card : ℝ) 1 : ℝ) ≠ 0 :=
  ne_of_gt (lt_of_lt_of_le one_pos (le_max_right _ _))

/-- Dividing by the divisor is multiplying by its reciprocal, for EVERY extended real numerator. -/
theorem div_den {E : ℕ} (dst : Fin E → BitVec 32) (d : ℕ) (a : EReal) :
    Ideal.div a (den dst d) = a * Ideal.div 1 (den dst d) := by
  rw [den_eq]
  have h0 := den_real_ne_zero dst d
  rw [Ideal.div_coe h0, Ideal.div_coe h0, one_mul]

/-- "Mean, then linear": the reference's arrangement of one layer before the bias. -/
def meanLin {E N C H : ℕ} (X : Fin N → Fin C → EReal) (row : Fin E → Fin N) (dst : Fin E → BitVec 32)
    (W : Fin C → Fin H → EReal) (d : ℕ) (h : Fin H) : EReal :=
  ∑ k : Fin C, Ideal.div (∑ e ∈ into dst d, X (row e) k) (den dst d) * W k h

/-- "Linear, then mean": the kernel's arrangement of the first layer before the bias. -/
def linMean {E N C H : ℕ} (X : Fin N → Fin C → EReal) (row : Fin E → Fin N) (dst : Fin E → BitVec 32)
    (W : Fin C → Fin H → EReal) (d : ℕ) (h : Fin H) : EReal :=
  (∑ e ∈ into dst d, ∑ k : Fin C, X (row e) k * W k h) * Ideal.div 1 (den dst d)

/-- "Mean by reciprocal, then linear": the kernel's arrangement of the second layer before the bias. -/
def meanLinInv {E N C H : ℕ} (X : Fin N → Fin C → EReal) (row : Fin E → Fin N) (dst : Fin E → BitVec 32)
    (W : Fin C → Fin H → EReal) (d : ℕ) (h : Fin H) : EReal :=
  ∑ k : Fin C, ((∑ e ∈ into dst d, X (row e) k) * Ideal.div 1 (den dst d)) * W k h

/-- The second layer's two arrangements agree term by term, whatever the entries. -/
theorem meanLinInv_eq {E N C H : ℕ} (X : Fin N → Fin C → EReal) (row : Fin E → Fin N) (dst : Fin E → BitVec 32)
    (W : Fin C → Fin H → EReal) (d : ℕ) (h : Fin H) : meanLinInv X row dst W d h = meanLin X row dst W d h := by
  unfold meanLinInv meanLin
  exact Finset.sum_congr rfl fun k _ => by rw [div_den dst d (∑ e ∈ into dst d, X (row e) k)]

/-- The first layer's two arrangements agree when the features and the weights are finite: the linear
    map commutes with the sum over the edges and with the division by the real divisor. -/
theorem linMean_eq {E N C H : ℕ} (X : Fin N → Fin C → EReal) (row : Fin E → Fin N) (dst : Fin E → BitVec 32)
    (W : Fin C → Fin H → EReal) (hX : ∀ n k, IsFin (X n k)) (hW : ∀ k h, IsFin (W k h)) (d : ℕ) (h : Fin H) :
    linMean X row dst W d h = meanLin X row dst W d h := by
  unfold linMean meanLin
  choose Xr hXr using hX
  choose Wr hWr using hW
  rw [den_eq]
  have h0 := den_real_ne_zero dst d
  set D : ℝ := max ((into dst d).card : ℝ) 1 with hD
  simp only [hXr, hWr, ← EReal.coe_mul, ← coe_sum, Ideal.div_coe h0, ← EReal.coe_one, ← EReal.coe_div]
  congr 1
  rw [Finset.sum_comm, Finset.sum_mul]
  refine Finset.sum_congr rfl fun k _ => ?_
  rw [← Finset.sum_mul]
  field_simp

/-- Every entry of an index array lies in `[0, n)`, read signed. -/
def InRange {ι : Type} (a : ι → BitVec 32) (n : ℕ) : Prop := ∀ i, 0 ≤ (a i).toInt ∧ (a i).toInt < (n : ℤ)

/-- The largest entry of a row of sixteen (or any number of) logits, from minus infinity. -/
def rowMax {K : ℕ} (l : Fin K → EReal) : EReal := (Finset.univ : Finset (Fin K)).fold max ⊥ l

/-- The logarithm of the softmax of a row: each logit less the row's maximum, less the logarithm of
    the sum of the exponentials of those differences. -/
def logSoftmax {K : ℕ} (l : Fin K → EReal) (o : Fin K) : EReal :=
  (l o - rowMax l) - Ideal.log (∑ k : Fin K, Ideal.exp (l k - rowMax l))

end Cert.Sage

end
-- ==== Proof.KernelRegion0.lean ====
/-
  What the kernel's first pipelined region leaves in its output array, entry by entry: each block of 8000
  feature rows multiplied by the first weight matrix, so entry (n, h) is the sum over the 128 features k of
  x[n, k] · W1[k, h], as a function of the arrays the region finds when it is entered.
-/
import proofs.«430451_j11338713661814_3_alg».proof.Proof.Gen.KernelIdeal.Frame
import proofs.«430451_j11338713661814_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Sage Cert.GS
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The arrays the region reads, each at its literal type. -/
abbrev xArr (c : Dev nD) : S1000000x128.Idx → EReal := V c main_arg0
abbrev w1Arr (c : Dev nD) : S128x32.Idx → EReal := V c main_arg6

/-! ## The body's product at an entry -/

/-- The product's dimension numbers: the left operand's axis 1 contracted against the right operand's axis 0. -/
abbrev dims0 := dot_S8000x128_S128x32_S8000x32_1_0_0_1_n_n

/-- The left operand is read at the result's row … -/
theorem dims0_lhs0 (i : S8000x32.Idx) (q : dims0.contr.Idx) : (dims0.lhsIdx i q 0).val = (i 0).val := by
  unfold DotDims.lhsIdx
  rw [dif_neg (show ¬(0 : Fin S8000x128.rank) ∈ dims0.lhsBatch by decide),
    dif_pos (show (0 : Fin S8000x128.rank) ∈ dims0.lhsNonContracting by decide)]
  rfl
/-- … and at the contracted index; -/
theorem dims0_lhs1 (i : S8000x32.Idx) (q : dims0.contr.Idx) : (dims0.lhsIdx i q 1).val = (q ⟨0, by decide⟩).val :=
  dims0.lhsIdx_val_of_single rfl i q
/-- the right operand at the contracted index … -/
theorem dims0_rhs0 (i : S8000x32.Idx) (q : dims0.contr.Idx) : (dims0.rhsIdx i q 0).val = (q ⟨0, by decide⟩).val :=
  dims0.rhsIdx_val_of_single rfl i q
/-- … and at the result's column. -/
theorem dims0_rhs1 (i : S8000x32.Idx) (q : dims0.contr.Idx) : (dims0.rhsIdx i q 1).val = (i 1).val := by
  unfold DotDims.rhsIdx
  rw [dif_neg (show ¬(1 : Fin S128x32.rank) ∈ dims0.rhsBatch by decide),
    dif_pos (show (1 : Fin S128x32.rank) ∈ dims0.rhsNonContracting by decide)]
  rfl

/-- The body's stored value at entry (p, q): the two format changes are the identity on extended reals and the
    accumulator is the zero splat, so it is the sum over the 128 features of the products. -/
theorem pay0_apply (x0 : S8000x128.Idx → EReal) (x1 : S128x32.Idx → EReal) (p : Fin 8000) (q : Fin 32) :
    (k0_pay1 (F := Ideal) x0 x1 : S8000x32.Idx → EReal) (ix2 p q) = ∑ k : Fin 128, x0 (ix2 p k) * x1 (ix2 k q) := by
  unfold k0_pay1
  show FloatOps.matmul dims0 none _ _ (constant S8000x32 .f32 0x00000000#32) (ix2 p q) = _
  rw [Ideal.matmul_constant_zero_apply, ← Equiv.sum_comp (ValueIdx.contrEquiv1 dims0 128 rfl rfl).symm]
  refine Finset.sum_congr rfl fun k _ => ?_
  have hk := ValueIdx.contrEquiv1_symm_val dims0 128 rfl rfl k
  have el : dims0.lhsIdx (ix2 p q) ((ValueIdx.contrEquiv1 dims0 128 rfl rfl).symm k) = ix2 p k :=
    funext fun a => Fin.ext (by
      match a with
      | ⟨0, _⟩ => exact dims0_lhs0 _ _
      | ⟨1, _⟩ => exact (dims0_lhs1 _ _).trans hk)
  have er : dims0.rhsIdx (ix2 p q) ((ValueIdx.contrEquiv1 dims0 128 rfl rfl).symm k) = ix2 k q :=
    funext fun a => Fin.ext (by
      match a with
      | ⟨0, _⟩ => exact (dims0_rhs0 _ _).trans hk
      | ⟨1, _⟩ => exact dims0_rhs1 _ _)
  rw [truncf_apply, truncf_apply, el, er]

/-! ## From blocks to the array -/

theorem hz0 : (![0, 0] : Fin 2 → Nat) = fun _ => 0 := funext fun a => by fin_cases a <;> rfl

/-- The region's result as one function of the array index. -/
abbrev G0 (c : Dev nD) : S1000000x32.Idx → EReal :=
  fun i => ∑ k : Fin 128, xArr V c (ix2 ⟨(i 0).val, idx2_lt0 i⟩ k) * w1Arr V c (ix2 k ⟨(i 1).val, idx2_lt1 i⟩)

/-- The index maps over the grid: at point t the feature block and the output block are block t along the rows,
    the weight block is the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is the feature array's entry (8000·t + p, k). -/
theorem iblk0_0_apply (c : Dev nD) (t : Fin cfg0.N) (p : Fin 8000) (k : Fin 128) (n : Fin 1000000)
    (hn : n.val = 8000 * t.val + p.val) :
    (iblk0 V c 0 t : S8000x128.Idx → EReal) (ix2 p k) = xArr V c (ix2 n k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 8000 + 1 * p.val = n.val; rw [e0, hn]; omega
  | ⟨1, _⟩ => show win0_0.index t 1 * 128 + 1 * k.val = k.val; rw [e1]; omega

/-- The weight block at any point is the weight matrix. -/
theorem iblk0_1_apply (c : Dev nD) (t : Fin cfg0.N) (k : Fin 128) (q q' : Fin 32) (hq : q'.val = q.val) :
    (iblk0 V c 1 t : S128x32.Idx → EReal) (ix2 k q) = w1Arr V c (ix2 k q') := by
  obtain rfl : q = q' := Fin.ext hq.symm
  obtain ⟨-, -, e2, e3, -⟩ := idx_facts0 t
  unfold iblk0
  rw [View.read_apply]
  show V c main_arg6 _ = V c main_arg6 _
  congr 1
  funext a
  apply Fin.ext
  match a with
  | ⟨0, _⟩ => show win0_1.index t 0 * 128 + 1 * k.val = k.val; rw [e2]; omega
  | ⟨1, _⟩ => show win0_1.index t 1 * 32 + 1 * q.val = q.val; rw [e3]; omega

/-- What point t writes back is block t of `G0`. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S8000x128) hz0, View.ld_unit_zero (S := S128x32) hz0]
  funext j
  obtain ⟨p, q, rfl⟩ : ∃ (p : Fin 8000) (q : Fin 32), j = ix2 p q := ⟨j 0, j 1, eq_ix2 j⟩
  rw [View.read_apply]
  refine (pay0_apply (iblk0 V c 0 t) (iblk0 V c 1 t) p q).trans ?_
  show _ = G0 V c (((View.whole main_v0).slice ((win0 2).rect t)).emb (ix2 p q))
  obtain ⟨-, -, -, -, e4, e5⟩ := idx_facts0 t
  refine Finset.sum_congr rfl fun k _ => ?_
  congr 1
  · refine iblk0_0_apply V c t p k _ ?_
    show win0_2.index t 0 * 8000 + 1 * p.val = 8000 * t.val + p.val
    rw [e4]; omega
  · refine iblk0_1_apply V c t k q _ ?_
    show win0_2.index t 1 * 32 + 1 * q.val = q.val
    rw [e5]; omega

/-- Every row lies in the block of the point numbered by its quotient by 8000. -/
theorem cover0 (i : S1000000x32.Idx) :
    ∃ t : Fin cfg0.N, (cfg0.win 2).flush t = true ∧ i ∈ ((cfg0.win 2).blk t).view.set := by
  have hi0 : (i 0).val < 1000000 := idx2_lt0 i
  have hi1 : (i 1).val < 32 := idx2_lt1 i
  have hN : cfg0.N = 125 := N_0
  have ht : (i 0).val / 8000 < cfg0.N := by rw [hN]; omega
  refine ⟨⟨(i 0).val / 8000, ht⟩, flush0_2 _, ?_⟩
  obtain ⟨-, -, -, -, e4, e5⟩ := idx_facts0 ⟨(i 0).val / 8000, ht⟩
  show i ∈ ((View.whole main_v0).slice (win0_2.rect ⟨(i 0).val / 8000, ht⟩)).set
  rw [View.set_slice_whole, Rect.mem_set_unit]
  intro a
  match a with
  | ⟨0, _⟩ =>
    show win0_2.index ⟨(i 0).val / 8000, ht⟩ 0 * 8000 ≤ (i 0).val
      ∧ (i 0).val < win0_2.index ⟨(i 0).val / 8000, ht⟩ 0 * 8000 + 8000
    rw [e4]
    show (i 0).val / 8000 * 8000 ≤ (i 0).val ∧ (i 0).val < (i 0).val / 8000 * 8000 + 8000
    omega
  | ⟨1, _⟩ =>
    show win0_2.index ⟨(i 0).val / 8000, ht⟩ 1 * 32 ≤ (i 1).val
      ∧ (i 1).val < win0_2.index ⟨(i 0).val / 8000, ht⟩ 1 * 32 + 32
    rw [e5]; omega

/-- Region 0's output array after its 125 points: the projected features. -/
theorem arr0 (c : Dev nD) (n : Fin 1000000) (h : Fin 32) :
    ((dat0 (F := Ideal) V c).arrAt 2 cfg0.N : S1000000x32.Idx → EReal) (ix2 n h)
      = ∑ k : Fin 128, xArr V c (ix2 n k) * w1Arr V c (ix2 k h) := by
  have hG := (dat0 (F := Ideal) V c).arrAt_eq_of_cover 2 (G0 V c) (fun t _ => flushed0_eq V c t) cover0
  exact congrFun hG (ix2 n h)

end Cert.KernelIdeal.Region0

end
-- ==== Proof.KernelRegion1.lean ====
/-
  What the kernel's second pipelined region leaves in its output array, entry by entry: it reads a block of
  4000 rows of width 33 (32 summed features and, in the last column, the number of summed rows), scales the
  features by the reciprocal of that number clamped below at one, adds the bias and clamps below at zero.
-/
import proofs.«430451_j11338713661814_3_alg».proof.Proof.Gen.KernelIdeal.Frame
import proofs.«430451_j11338713661814_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Sage Cert.GS
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The arrays the region reads, each at its literal type. -/
abbrev s1Arr (c : Dev nD) : S80000x33.Idx → EReal := V c main_v7
abbrev b1Arr (c : Dev nD) : S32.Idx → EReal := V c main_arg7

/-! ## The body's arithmetic at an entry -/

/-- The first 32 columns of a row … -/
theorem slice1_feat {α : Type} (x : S4000x33.Idx → α) (p : Fin 4000) (q : Fin 32) :
    extractStridedSlice S4000x32 ![0, 0] x slices_S4000x33_o0_0_S4000x32 (ix2 p q) = x (ix2 p q.castSucc) :=
  extractStridedSlice_apply _ x _ (ix2 p q) (ix2 p q.castSucc) fun a => by
    match a with
    | ⟨0, _⟩ => show p.val = 0 + p.val; omega
    | ⟨1, _⟩ => show q.val = 0 + q.val; omega
/-- … and its last column. -/
theorem slice1_cnt {α : Type} (x : S4000x33.Idx → α) (p : Fin 4000) (u : Fin 1) :
    extractStridedSlice S4000x1 ![0, 32] x slices_S4000x33_o0_32_S4000x1 (ix2 p u) = x (ix2 p (Fin.last 32)) :=
  extractStridedSlice_apply _ x _ (ix2 p u) (ix2 p (Fin.last 32)) fun a => by
    match a with
    | ⟨0, _⟩ => show p.val = 0 + p.val; omega
    | ⟨1, _⟩ => show 32 = 32 + u.val; omega
/-- A column spread over the 32 columns reads its row's entry. -/
theorem bcast1_col {α : Type} (y : S4000x1.Idx → α) (p : Fin 4000) (q : Fin 32) :
    broadcastTo S4000x32 y broadcasts_S4000x1_S4000x32 (ix2 p q) = y (ix2 p (0 : Fin 1)) :=
  broadcastTo_apply y _ (ix2 p q) (ix2 p 0) fun a => by
    match a with
    | ⟨0, _⟩ => show p.val = if (4000 : ℕ) = 1 then 0 else p.val; rw [if_neg (by decide)]
    | ⟨1, _⟩ => show 0 = if (1 : ℕ) = 1 then 0 else q.val; rw [if_pos rfl]
/-- A row spread over the 4000 rows reads its column's entry. -/
theorem bcast1_row {α : Type} (y : S1x32.Idx → α) (p : Fin 4000) (q : Fin 32) :
    broadcastTo S4000x32 y broadcasts_S1x32_S4000x32 (ix2 p q) = y (ix2 (0 : Fin 1) q) :=
  broadcastTo_apply y _ (ix2 p q) (ix2 0 q) fun a => by
    match a with
    | ⟨0, _⟩ => show 0 = if (1 : ℕ) = 1 then 0 else p.val; rw [if_pos rfl]
    | ⟨1, _⟩ => show q.val = if (32 : ℕ) = 1 then 0 else q.val; rw [if_neg (by decide)]

/-- The body's stored value at entry (p, q): the features' entry times the reciprocal of the row's last column clamped
    below at one, plus the bias, clamped below at zero (the two constant words denote one and zero). -/
theorem pay1_apply (x0 : S4000x33.Idx → EReal) (x1 : S32.Idx → EReal) (p : Fin 4000) (q : Fin 32) :
    (k1_pay1 (F := Ideal) x0 x1 : S4000x32.Idx → EReal) (ix2 p q)
      = max (x0 (ix2 p q.castSucc) * Ideal.div 1 (max (x0 (ix2 p (Fin.last 32))) 1) + x1 (ix1 q)) 0 := by
  unfold k1_pay1
  simp only [maximumf_apply, addf_apply, mulf_apply, divf_apply, slice1_feat, slice1_cnt, bcast1_col, bcast1_row,
    shapeCast_a_1a_apply, shapeCast_self, broadcast_apply, Ideal.ofBits_def, Cert.Fin.ofBits_one, Cert.Fin.ofBits_zero]

/-! ## From blocks to the array -/

theorem hz1 : (![0, 0] : Fin 2 → Nat) = fun _ => 0 := funext fun a => by fin_cases a <;> rfl
theorem hz1' : (![0] : Fin 1 → Nat) = fun _ => 0 := funext fun a => by fin_cases a; rfl

/-- The region's result as one function of the array index. -/
abbrev G1 (c : Dev nD) : S80000x32.Idx → EReal :=
  fun i => max (s1Arr V c (ix2 ⟨(i 0).val, idx2_lt0 i⟩ (Fin.castSucc ⟨(i 1).val, idx2_lt1 i⟩))
      * Ideal.div 1 (max (s1Arr V c (ix2 ⟨(i 0).val, idx2_lt0 i⟩ (Fin.last 32))) 1)
    + b1Arr V c (ix1 ⟨(i 1).val, idx2_lt1 i⟩)) 0

/-- `G1` at an index whose coordinates are known as literal-size numbers. -/
theorem G1_eq (c : Dev nD) (i : S80000x32.Idx) (d : Fin 80000) (q : Fin 32) (hd : (i 0).val = d.val) (hq : (i 1).val = q.val) :
    G1 V c i = max (s1Arr V c (ix2 d q.castSucc) * Ideal.div 1 (max (s1Arr V c (ix2 d (Fin.last 32))) 1)
      + b1Arr V c (ix1 q)) 0 := by
  have e0 : (⟨(i 0).val, idx2_lt0 i⟩ : Fin 80000) = d := Fin.ext hd
  have e1 : (⟨(i 1).val, idx2_lt1 i⟩ : Fin 32) = q := Fin.ext hq
  show max (s1Arr V c (ix2 ⟨(i 0).val, idx2_lt0 i⟩ (Fin.castSucc ⟨(i 1).val, idx2_lt1 i⟩))
      * Ideal.div 1 (max (s1Arr V c (ix2 ⟨(i 0).val, idx2_lt0 i⟩ (Fin.last 32))) 1)
    + b1Arr V c (ix1 ⟨(i 1).val, idx2_lt1 i⟩)) 0 = _
  rw [e0, e1]

/-- The index maps over the grid: at point t the input block and the output block are block t along the rows,
    the bias block is the whole vector. -/
theorem idx_facts1 : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Entry (p, k) of the input block at point t is the input array's entry (4000·t + p, k). -/
theorem iblk1_0_apply (c : Dev nD) (t : Fin cfg1.N) (p : Fin 4000) (k : Fin 33) (d : Fin 80000)
    (hd : d.val = 4000 * t.val + p.val) :
    (iblk1 V c 0 t : S4000x33.Idx → EReal) (ix2 p k) = s1Arr V c (ix2 d k) := by
  obtain ⟨e0, e1, -⟩ := idx_facts1 t
  unfold iblk1
  rw [View.read_apply]
  show V c main_v7 _ = V c main_v7 _
  congr 1
  funext a
  apply Fin.ext
  match a with
  | ⟨0, _⟩ => show win1_0.index t 0 * 4000 + 1 * p.val = d.val; rw [e0, hd]; omega
  | ⟨1, _⟩ => show win1_0.index t 1 * 33 + 1 * k.val = k.val; rw [e1]; omega

/-- The bias block at any point is the bias vector. -/
theorem iblk1_1_apply (c : Dev nD) (t : Fin cfg1.N) (q : Fin 32) :
    (iblk1 V c 1 t : S32.Idx → EReal) (ix1 q) = b1Arr V c (ix1 q) := by
  obtain ⟨-, -, e2, -⟩ := idx_facts1 t
  unfold iblk1
  rw [View.read_apply]
  show V c main_arg7 _ = V c main_arg7 _
  congr 1
  funext a
  apply Fin.ext
  match a with
  | ⟨0, _⟩ => show win1_1.index t 0 * 32 + 1 * q.val = q.val; rw [e2]; omega

/-- What point t writes back is block t of `G1`. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz1]
  simp only [View.ld_unit_zero (S := S4000x33) hz1, View.ld_unit_zero (S := S32) hz1']
  funext j
  obtain ⟨p, q, rfl⟩ : ∃ (p : Fin 4000) (q : Fin 32), j = ix2 p q := ⟨j 0, j 1, eq_ix2 j⟩
  rw [View.read_apply]
  refine (pay1_apply (iblk1 V c 0 t) (iblk1 V c 1 t) p q).trans ?_
  show _ = G1 V c (((View.whole main_v8).slice ((win1 2).rect t)).emb (ix2 p q))
  obtain ⟨-, -, -, e3, e4⟩ := idx_facts1 t
  have hN : cfg1.N = 20 := N_1
  have htl : t.val < 20 := by have := t.isLt; omega
  have hD : 4000 * t.val + p.val < 80000 := by omega
  rw [G1_eq V c _ ⟨4000 * t.val + p.val, hD⟩ q
    (by show win1_2.index t 0 * 4000 + 1 * p.val = 4000 * t.val + p.val; rw [e3]; omega)
    (by show win1_2.index t 1 * 32 + 1 * q.val = q.val; rw [e4]; omega),
    iblk1_0_apply V c t p q.castSucc ⟨4000 * t.val + p.val, hD⟩ rfl,
    iblk1_0_apply V c t p (Fin.last 32) ⟨4000 * t.val + p.val, hD⟩ rfl,
    iblk1_1_apply V c t q]

/-- Every row lies in the block of the point numbered by its quotient by 4000. -/
theorem cover1 (i : S80000x32.Idx) :
    ∃ t : Fin cfg1.N, (cfg1.win 2).flush t = true ∧ i ∈ ((cfg1.win 2).blk t).view.set := by
  have hi0 : (i 0).val < 80000 := idx2_lt0 i
  have hi1 : (i 1).val < 32 := idx2_lt1 i
  have hN : cfg1.N = 20 := N_1
  have ht : (i 0).val / 4000 < cfg1.N := by rw [hN]; omega
  refine ⟨⟨(i 0).val / 4000, ht⟩, flush1_2 _, ?_⟩
  obtain ⟨-, -, -, e3, e4⟩ := idx_facts1 ⟨(i 0).val / 4000, ht⟩
  show i ∈ ((View.whole main_v8).slice (win1_2.rect ⟨(i 0).val / 4000, ht⟩)).set
  rw [View.set_slice_whole, Rect.mem_set_unit]
  intro a
  match a with
  | ⟨0, _⟩ =>
    show win1_2.index ⟨(i 0).val / 4000, ht⟩ 0 * 4000 ≤ (i 0).val
      ∧ (i 0).val < win1_2.index ⟨(i 0).val / 4000, ht⟩ 0 * 4000 + 4000
    rw [e3]
    show (i 0).val / 4000 * 4000 ≤ (i 0).val ∧ (i 0).val < (i 0).val / 4000 * 4000 + 4000
    omega
  | ⟨1, _⟩ =>
    show win1_2.index ⟨(i 0).val / 4000, ht⟩ 1 * 32 ≤ (i 1).val
      ∧ (i 1).val < win1_2.index ⟨(i 0).val / 4000, ht⟩ 1 * 32 + 32
    rw [e4]; omega

/-- Region 1's output array after its 20 points: scaled, biased, clamped below at zero. -/
theorem arr1 (c : Dev nD) (d : Fin 80000) (h : Fin 32) :
    ((dat1 (F := Ideal) V c).arrAt 2 cfg1.N : S80000x32.Idx → EReal) (ix2 d h)
      = max (s1Arr V c (ix2 d h.castSucc) * Ideal.div 1 (max (s1Arr V c (ix2 d (Fin.last 32))) 1)
              + b1Arr V c (ix1 h)) 0 := by
  have hG := (dat1 (F := Ideal) V c).arrAt_eq_of_cover 2 (G1 V c) (fun t _ => flushed1_eq V c t) cover1
  exact (congrFun hG (ix2 d h)).trans (G1_eq V c (ix2 d h) d h rfl rfl)

end Cert.KernelIdeal.Region1

end
-- ==== Proof.KernelRegion2.lean ====
/-
  What the kernel's third pipelined region leaves in its output array, entry by entry: it reads all 8000 rows
  of width 33 at once, scales the 32 features by the reciprocal of the last column clamped below at one,
  multiplies by the second weight matrix, adds the bias, and takes the logarithm of the softmax of each row.
-/
import proofs.«430451_j11338713661814_3_alg».proof.Proof.Gen.KernelIdeal.Frame
import proofs.«430451_j11338713661814_3_alg».proof.Proof.Spec
import proofs.«430451_j11338713661814_3_alg».proof.Proof.LibFinite
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Sage Cert.GS
open Idealize.ShloMosaic Idealize.ShloMosaic.TcCoe Idealize.ShloMosaic.ValueIdx Idealize.SL.Sem
open Idealize.ShloMosaic.Pipeline (Dat)
open scoped BigOperators

/-! ## The body's arithmetic, read at an entry

Everything here is about vectors given as variables: no array of the program appears. -/

section Payload

/-! ### The layout operations of the body, each read at an entry -/

/-- Reshaping an 8000 × 33 matrix to its own shape changes nothing. -/
theorem same33_apply {α : Type} (x : S8000x33.Idx → α) (j : S8000x33.Idx) :
    shapeCast S8000x33 x shapeCasts_S8000x33_S8000x33 j = x j :=
  shapeCast_apply x shapeCasts_S8000x33_S8000x33 j j rfl

/-- The first 32 columns of an 8000 × 33 matrix. -/
theorem sliceLo_apply {α : Type} (x : S8000x33.Idx → α) (d : Fin 8000) (k : Fin 32) :
    extractStridedSlice S8000x32 ![0, 0] x slices_S8000x33_o0_0_S8000x32 (ix2 d k) = x (ix2 d k.castSucc) :=
  extractStridedSlice_apply ![0, 0] x slices_S8000x33_o0_0_S8000x32 (ix2 d k) (ix2 d k.castSucc) (fun a => by
    match a with
    | ⟨0, _⟩ => show d.val = 0 + d.val; omega
    | ⟨1, _⟩ => show k.val = 0 + k.val; omega)

/-- The last column of an 8000 × 33 matrix, kept as a matrix of width one. -/
theorem sliceLast_apply {α : Type} (x : S8000x33.Idx → α) (d : Fin 8000) :
    extractStridedSlice S8000x1 ![0, 32] x slices_S8000x33_o0_32_S8000x1 (ix2 d (0 : Fin 1)) = x (ix2 d (Fin.last 32)) :=
  extractStridedSlice_apply ![0, 32] x slices_S8000x33_o0_32_S8000x1 (ix2 d (0 : Fin 1)) (ix2 d (Fin.last 32)) (fun a => by
    match a with
    | ⟨0, _⟩ => show d.val = 0 + d.val; omega
    | ⟨1, _⟩ => show (32 : Nat) = 32 + 0; rfl)

/-- A width-one matrix spread over 32 columns reads, in every column, its one column. -/
theorem col32_apply {α : Type} (y : S8000x1.Idx → α) (d : Fin 8000) (k : Fin 32) :
    broadcastTo S8000x32 y broadcasts_S8000x1_S8000x32 (ix2 d k) = y (ix2 d (0 : Fin 1)) :=
  broadcastTo_apply y broadcasts_S8000x1_S8000x32 (ix2 d k) (ix2 d (0 : Fin 1)) (fun a => by
    match a with
    | ⟨0, _⟩ => show d.val = if (8000 : Nat) = 1 then 0 else d.val; rw [if_neg (by decide)]
    | ⟨1, _⟩ => show (0 : Nat) = if (1 : Nat) = 1 then 0 else k.val; rw [if_pos rfl])

/-- A width-one matrix spread over 16 columns reads, in every column, its one column. -/
theorem col16_apply {α : Type} (y : S8000x1.Idx → α) (d : Fin 8000) (o : Fin 16) :
    broadcastTo S8000x16 y broadcasts_S8000x1_S8000x16 (ix2 d o) = y (ix2 d (0 : Fin 1)) :=
  broadcastTo_apply y broadcasts_S8000x1_S8000x16 (ix2 d o) (ix2 d (0 : Fin 1)) (fun a => by
    match a with
    | ⟨0, _⟩ => show d.val = if (8000 : Nat) = 1 then 0 else d.val; rw [if_neg (by decide)]
    | ⟨1, _⟩ => show (0 : Nat) = if (1 : Nat) = 1 then 0 else o.val; rw [if_pos rfl])

/-- A one-row matrix spread over 8000 rows reads, in every row, its one row. -/
theorem row16_apply {α : Type} (y : S1x16.Idx → α) (d : Fin 8000) (o : Fin 16) :
    broadcastTo S8000x16 y broadcasts_S1x16_S8000x16 (ix2 d o) = y (ix2 (0 : Fin 1) o) :=
  broadcastTo_apply y broadcasts_S1x16_S8000x16 (ix2 d o) (ix2 (0 : Fin 1) o) (fun a => by
    match a with
    | ⟨0, _⟩ => show (0 : Nat) = if (1 : Nat) = 1 then 0 else d.val; rw [if_pos rfl]
    | ⟨1, _⟩ => show o.val = if (16 : Nat) = 1 then 0 else o.val; rw [if_neg (by decide)])

/-- A vector of 8000 entries kept as a matrix of width one. -/
theorem keep8000_apply {α : Type} (y : S8000.Idx → α) (d : Fin 8000) :
    shapeCast S8000x1 y shapeCasts_S8000_S8000x1 (ix2 d (0 : Fin 1)) = y (ix1 d) :=
  shapeCast_apply y shapeCasts_S8000_S8000x1 (ix2 d (0 : Fin 1)) (ix1 d) (by
    rw [Shape.rowMajor_val_two, Shape.rowMajor_val_one]; show d.val = d.val * 1 + 0; omega)

/-- A vector of 16 entries kept as a matrix of one row. -/
theorem keep16_apply {α : Type} (y : S16.Idx → α) (o : Fin 16) :
    shapeCast S1x16 y shapeCasts_S16_S1x16 (ix2 (0 : Fin 1) o) = y (ix1 o) :=
  shapeCast_apply y shapeCasts_S16_S1x16 (ix2 (0 : Fin 1) o) (ix1 o) (by
    rw [Shape.rowMajor_val_two, Shape.rowMajor_val_one]; show o.val = 0 * 16 + o.val; omega)

/-- The source entry over row `d` of the reduced vector with column `k` put back is entry `(d, k)`. -/
theorem lift_eq (d : Fin 8000) (k : Fin 16) : reduces_S8000x16_S8000.lift (ix1 d) k = ix2 d k := by
  funext a
  apply Fin.ext
  match a with
  | ⟨0, _⟩ => rfl
  | ⟨1, _⟩ => rfl

/-- The word of `1.0` denotes one. -/
theorem one_word : (Scalar.ofBits .f32 0x3F800000#32 : Ideal .f32) = 1 := Cert.Fin.ofBits_one

/-- The word of `-∞` denotes the bottom element. -/
theorem neg_inf_word : (FloatOps.ofBits .f32 0xFF800000#32 : Ideal .f32) = ⊥ := by
  show Ideal.ofBits .f32 0xFF800000#32 = ⊥
  simp [Ideal.ofBits, Ideal.ieee]

/-! ### The scaled features -/

/-- The 32 features of each row times the reciprocal of the row's last entry clamped below at one. -/
def scaledV (x0 : Vec Ideal S8000x33 .f32) : FVec Ideal S8000x32 .bf16 :=
  truncf .bf16
    (mulf
      (extractStridedSlice S8000x32 ![0, 0] (shapeCast S8000x33 x0 shapeCasts_S8000x33_S8000x33) slices_S8000x33_o0_0_S8000x32)
      (broadcastTo S8000x32
        (divf (broadcast S8000x1 (Scalar.ofBits .f32 0x3F800000#32 : Ideal .f32))
          (maximumf
            (extractStridedSlice S8000x1 ![0, 32] (shapeCast S8000x33 x0 shapeCasts_S8000x33_S8000x33) slices_S8000x33_o0_32_S8000x1)
            (broadcast S8000x1 (Scalar.ofBits .f32 0x3F800000#32 : Ideal .f32))))
        broadcasts_S8000x1_S8000x32))
    bitsLt_bf16_f32

theorem scaledV_apply (x0 : Vec Ideal S8000x33 .f32) (d : Fin 8000) (k : Fin 32) :
    scaledV x0 (ix2 d k) = x0 (ix2 d k.castSucc) * Ideal.div 1 (max (x0 (ix2 d (Fin.last 32))) 1) := by
  unfold scaledV
  rw [truncf_apply, mulf_apply, sliceLo_apply, same33_apply, col32_apply, divf_apply, broadcast_apply, maximumf_apply,
    sliceLast_apply, same33_apply, broadcast_apply, one_word]

end Payload

/-! ### The logits -/

section Logits

/-- The left operand's entry of the product at output entry `i` and contraction coordinate `q`: row `i 0`, -/
theorem lhs_ax0 (i : S8000x16.Idx) (q : dot_S8000x32_S32x16_S8000x16_1_0_0_1_n_n.contr.Idx) :
    (dot_S8000x32_S32x16_S8000x16_1_0_0_1_n_n.lhsIdx i q 0).val = (i 0).val := by
  unfold DotDims.lhsIdx
  rw [dif_neg (show ¬(0 : Fin S8000x32.rank) ∈ dot_S8000x32_S32x16_S8000x16_1_0_0_1_n_n.lhsBatch by decide),
    dif_pos (show (0 : Fin S8000x32.rank) ∈ dot_S8000x32_S32x16_S8000x16_1_0_0_1_n_n.lhsNonContracting by decide)]
  rfl
/-- column `q`; -/
theorem lhs_ax1 (i : S8000x16.Idx) (q : dot_S8000x32_S32x16_S8000x16_1_0_0_1_n_n.contr.Idx) :
    (dot_S8000x32_S32x16_S8000x16_1_0_0_1_n_n.lhsIdx i q 1).val = (q ⟨0, by decide⟩).val :=
  dot_S8000x32_S32x16_S8000x16_1_0_0_1_n_n.lhsIdx_val_of_single rfl i q
/-- the right operand's: row `q`, -/
theorem rhs_ax0 (i : S8000x16.Idx) (q : dot_S8000x32_S32x16_S8000x16_1_0_0_1_n_n.contr.Idx) :
    (dot_S8000x32_S32x16_S8000x16_1_0_0_1_n_n.rhsIdx i q 0).val = (q ⟨0, by decide⟩).val :=
  dot_S8000x32_S32x16_S8000x16_1_0_0_1_n_n.rhsIdx_val_of_single rfl i q
/-- column `i 1`. -/
theorem rhs_ax1 (i : S8000x16.Idx) (q : dot_S8000x32_S32x16_S8000x16_1_0_0_1_n_n.contr.Idx) :
    (dot_S8000x32_S32x16_S8000x16_1_0_0_1_n_n.rhsIdx i q 1).val = (i 1).val := by
  unfold DotDims.rhsIdx
  rw [dif_neg (show ¬(1 : Fin S32x16.rank) ∈ dot_S8000x32_S32x16_S8000x16_1_0_0_1_n_n.rhsBatch by decide),
    dif_pos (show (1 : Fin S32x16.rank) ∈ dot_S8000x32_S32x16_S8000x16_1_0_0_1_n_n.rhsNonContracting by decide)]
  rfl

/-- The matrix product into the zero matrix, at an entry: the sum over the 32 shared coordinates. -/
theorem prod_apply (A : FVec Ideal S8000x32 .bf16) (B : FVec Ideal S32x16 .bf16) (d : Fin 8000) (o : Fin 16) :
    matmul dot_S8000x32_S32x16_S8000x16_1_0_0_1_n_n none A B (constant (F := Ideal) S8000x16 .f32 0x00000000#32) (ix2 d o)
      = ∑ k : Fin 32, A (ix2 d k) * B (ix2 k o) := by
  refine (Ideal.matmul_constant_zero_apply dot_S8000x32_S32x16_S8000x16_1_0_0_1_n_n none A B (ix2 d o)).trans ?_
  rw [← Equiv.sum_comp (ValueIdx.contrEquiv1 dot_S8000x32_S32x16_S8000x16_1_0_0_1_n_n 32 rfl rfl).symm]
  refine Finset.sum_congr rfl fun k _ => ?_
  have hk := ValueIdx.contrEquiv1_symm_val dot_S8000x32_S32x16_S8000x16_1_0_0_1_n_n 32 rfl rfl k
  have el : dot_S8000x32_S32x16_S8000x16_1_0_0_1_n_n.lhsIdx (ix2 d o)
      ((ValueIdx.contrEquiv1 dot_S8000x32_S32x16_S8000x16_1_0_0_1_n_n 32 rfl rfl).symm k) = ix2 d k :=
    funext fun a => Fin.ext (by
      match a with
      | ⟨0, _⟩ => exact lhs_ax0 _ _
      | ⟨1, _⟩ => exact (lhs_ax1 _ _).trans hk)
  have er : dot_S8000x32_S32x16_S8000x16_1_0_0_1_n_n.rhsIdx (ix2 d o)
      ((ValueIdx.contrEquiv1 dot_S8000x32_S32x16_S8000x16_1_0_0_1_n_n 32 rfl rfl).symm k) = ix2 k o :=
    funext fun a => Fin.ext (by
      match a with
      | ⟨0, _⟩ => exact (rhs_ax0 _ _).trans hk
      | ⟨1, _⟩ => exact rhs_ax1 _ _)
  rw [el, er]

/-- The logits: the scaled features times the weights, plus the bias. -/
def logitsV (x0 : Vec Ideal S8000x33 .f32) (x1 : Vec Ideal S32x16 .f32) (x2 : Vec Ideal S16 .f32) : FVec Ideal S8000x16 .f32 :=
  addf
    (matmul dot_S8000x32_S32x16_S8000x16_1_0_0_1_n_n none (scaledV x0) (truncf .bf16 x1 bitsLt_bf16_f32)
      (constant S8000x16 .f32 0x00000000#32))
    (broadcastTo S8000x16 (shapeCast S1x16 x2 shapeCasts_S16_S1x16) broadcasts_S1x16_S8000x16)

theorem logitsV_apply (x0 : Vec Ideal S8000x33 .f32) (x1 : Vec Ideal S32x16 .f32) (x2 : Vec Ideal S16 .f32)
    (d : Fin 8000) (o : Fin 16) :
    logitsV x0 x1 x2 (ix2 d o)
      = (∑ k : Fin 32, (x0 (ix2 d k.castSucc) * Ideal.div 1 (max (x0 (ix2 d (Fin.last 32))) 1)) * x1 (ix2 k o))
          + x2 (ix1 o) := by
  unfold logitsV
  rw [addf_apply, prod_apply, row16_apply, keep16_apply]
  refine congrArg (· + x2 (ix1 o)) (Finset.sum_congr rfl fun k _ => ?_)
  rw [scaledV_apply, truncf_apply]

end Logits

/-! ### The logarithm of the softmax of each row -/

section LogSoftmax

/-- Each row's maximum. -/
def rowMaxV (v : FVec Ideal S8000x16 .f32) : FVec Ideal S8000 .f32 :=
  multiReduction .maximumf [1] S8000 v 0xFF800000#32 reduces_S8000x16_S8000 (.inl rfl) rfl

theorem rowMaxV_apply (v : FVec Ideal S8000x16 .f32) (d : Fin 8000) :
    rowMaxV v (ix1 d) = rowMax (fun o' : Fin 16 => v (ix2 d o')) := by
  unfold rowMaxV rowMax
  refine (Ideal.multiReduction_maximumf_single v 0xFF800000#32 reduces_S8000x16_S8000 (.inl rfl) rfl (ix1 d)).trans ?_
  rw [neg_inf_word]
  show (Finset.univ : Finset (Fin 16)).fold max ⊥ (fun k : Fin 16 => v (reduces_S8000x16_S8000.lift (ix1 d) k)) = _
  simp only [lift_eq]

/-- Each entry less its row's maximum. -/
def shiftedV (v : FVec Ideal S8000x16 .f32) : FVec Ideal S8000x16 .f32 :=
  subf v (broadcastTo S8000x16 (shapeCast S8000x1 (rowMaxV v) shapeCasts_S8000_S8000x1) broadcasts_S8000x1_S8000x16)

theorem shiftedV_apply (v : FVec Ideal S8000x16 .f32) (d : Fin 8000) (o : Fin 16) :
    shiftedV v (ix2 d o) = v (ix2 d o) - rowMax (fun o' : Fin 16 => v (ix2 d o')) := by
  unfold shiftedV
  rw [subf_apply, col16_apply, keep8000_apply, rowMaxV_apply]

/-- Each row's sum of the exponentials of the shifted entries. -/
def rowSumV (v : FVec Ideal S8000x16 .f32) : FVec Ideal S8000 .f32 :=
  multiReduction .add [1] S8000 (exp (shiftedV v)) 0x00000000#32 reduces_S8000x16_S8000 (.inl rfl) rfl

theorem rowSumV_apply (v : FVec Ideal S8000x16 .f32) (d : Fin 8000) :
    rowSumV v (ix1 d)
      = ∑ k : Fin 16, Ideal.exp (v (ix2 d k) - rowMax (fun o' : Fin 16 => v (ix2 d o'))) := by
  unfold rowSumV
  refine (Ideal.multiReduction_add_single (exp (shiftedV v)) 0x00000000#32 reduces_S8000x16_S8000 (.inl rfl) rfl (ix1 d)).trans ?_
  show ∑ k : Fin 16, Ideal.exp (shiftedV v (reduces_S8000x16_S8000.lift (ix1 d) k)) = _
  refine Finset.sum_congr rfl fun k _ => ?_
  rw [lift_eq, shiftedV_apply]

/-- The shifted entries less the logarithm of their row's sum of exponentials. -/
def lsmV (v : FVec Ideal S8000x16 .f32) : FVec Ideal S8000x16 .f32 :=
  subf (shiftedV v)
    (broadcastTo S8000x16 (log (shapeCast S8000x1 (rowSumV v) shapeCasts_S8000_S8000x1)) broadcasts_S8000x1_S8000x16)

theorem lsmV_apply (v : FVec Ideal S8000x16 .f32) (d : Fin 8000) (o : Fin 16) :
    lsmV v (ix2 d o) = logSoftmax (fun o' : Fin 16 => v (ix2 d o')) o := by
  unfold lsmV logSoftmax
  rw [subf_apply, shiftedV_apply, col16_apply]
  show _ - Ideal.log (shapeCast S8000x1 (rowSumV v) shapeCasts_S8000_S8000x1 (ix2 d (0 : Fin 1))) = _
  rw [keep8000_apply, rowSumV_apply]

end LogSoftmax

/-- The body's stored value is the logarithm of the softmax of the logits: the same tree of operations. -/
theorem pay_eq (x0 : Vec Ideal S8000x33 .f32) (x1 : Vec Ideal S32x16 .f32) (x2 : Vec Ideal S16 .f32) :
    k2_pay1 x0 x1 x2 = lsmV (logitsV x0 x1 x2) := rfl

/-- The body's stored value at an entry. -/
theorem pay_apply (x0 : Vec Ideal S8000x33 .f32) (x1 : Vec Ideal S32x16 .f32) (x2 : Vec Ideal S16 .f32)
    (d : Fin 8000) (o : Fin 16) :
    k2_pay1 x0 x1 x2 (ix2 d o)
      = logSoftmax (fun o' : Fin 16 =>
          (∑ k : Fin 32, (x0 (ix2 d k.castSucc) * Ideal.div 1 (max (x0 (ix2 d (Fin.last 32))) 1)) * x1 (ix2 k o'))
            + x2 (ix1 o')) o := by
  rw [pay_eq, lsmV_apply]
  exact congrArg (fun l => logSoftmax l o) (funext fun o' => logitsV_apply x0 x1 x2 d o')

/-! ## From the one block to the array -/

variable (V : (c : Dev nD) → (b : Ref sig .tc) → Buf (Elt Ideal) ((c : Thread nD τ).loc b))

/-- The arrays the region reads, each at its literal type. -/
abbrev s2Arr (c : Dev nD) : S8000x33.Idx → EReal := V c main_v14
abbrev w2Arr (c : Dev nD) : S32x16.Idx → EReal := V c main_arg8
abbrev b2Arr (c : Dev nD) : S16.Idx → EReal := V c main_arg9

theorem zeros2 : (![0, 0] : Fin 2 → Nat) = fun _ => 0 := funext fun a => by fin_cases a <;> rfl
theorem zeros1 : (![0] : Fin 1 → Nat) = fun _ => 0 := funext fun a => by fin_cases a <;> rfl

/-- The printed index maps at the region's points: every window's block index is zero on every axis. -/
theorem idx_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

/-- Each input window's block is its whole array: block 0 of blocks as large as the array. -/
theorem blk0_eq (c : Dev nD) (t : Fin cfg2.N) : iblk2 V c 0 t = s2Arr V c := by
  obtain ⟨e0, e1, -⟩ := idx_zero t
  funext j
  show V c main_v14 (((cfg2.win 0).blk t).view.emb j) = V c main_v14 j
  refine congrArg (V c main_v14) (funext fun a => Fin.ext ?_)
  match a with
  | ⟨0, _⟩ => show win2_0.index t (0 : Fin 2) * 8000 + 1 * (j 0).val = (j 0).val; rw [e0]; omega
  | ⟨1, _⟩ => show win2_0.index t (1 : Fin 2) * 33 + 1 * (j 1).val = (j 1).val; rw [e1]; omega

theorem blk1_eq (c : Dev nD) (t : Fin cfg2.N) : iblk2 V c 1 t = w2Arr V c := by
  obtain ⟨-, -, e0, e1, -⟩ := idx_zero t
  funext j
  show V c main_arg8 (((cfg2.win 1).blk t).view.emb j) = V c main_arg8 j
  refine congrArg (V c main_arg8) (funext fun a => Fin.ext ?_)
  match a with
  | ⟨0, _⟩ => show win2_1.index t (0 : Fin 2) * 32 + 1 * (j 0).val = (j 0).val; rw [e0]; omega
  | ⟨1, _⟩ => show win2_1.index t (1 : Fin 2) * 16 + 1 * (j 1).val = (j 1).val; rw [e1]; omega

theorem blk2_eq (c : Dev nD) (t : Fin cfg2.N) : iblk2 V c 2 t = b2Arr V c := by
  obtain ⟨-, -, -, -, e0, -⟩ := idx_zero t
  funext j
  show V c main_arg9 (((cfg2.win 2).blk t).view.emb j) = V c main_arg9 j
  refine congrArg (V c main_arg9) (funext fun a => Fin.ext ?_)
  match a with
  | ⟨0, _⟩ => show win2_2.index t (0 : Fin 1) * 16 + 1 * (j 0).val = (j 0).val; rw [e0]; omega

/-- What the output array ends holding: the body's stored value of the three whole arrays. -/
abbrev out2 (c : Dev nD) : S8000x16.Idx → EReal := k2_pay1 (F := Ideal) (s2Arr V c) (w2Arr V c) (b2Arr V c)

/-- What the one point writes back is its block of `out2`. -/
theorem flushed_eq (c : Dev nD) (t : Fin cfg2.N) :
    (dat2 V c).flushed 3 t = ((cfg2.win 3).blk t).view.read (Elt Ideal) (out2 V c) := by
  show (cfg2.win 3).cut (grid2.coords t) ((dat2 V c).after 3 t) = _
  rw [after2_3]
  unfold out2_3
  rw [View.canon_unit_zero zeros2]
  simp only [View.ld_unit_zero (S := S8000x33) zeros2, View.ld_unit_zero (S := S32x16) zeros2,
    View.ld_unit_zero (S := S16) zeros1]
  rw [blk0_eq, blk1_eq, blk2_eq]
  obtain ⟨-, -, -, -, -, e0, e1⟩ := idx_zero t
  funext j
  show out2 V c _ = out2 V c (((cfg2.win 3).blk t).view.emb j)
  refine congrArg (out2 V c) (funext fun a => Fin.ext ?_)
  match a with
  | ⟨0, _⟩ => show (j 0).val = win2_3.index t (0 : Fin 2) * 8000 + 1 * (j 0).val; rw [e0]; omega
  | ⟨1, _⟩ => show (j 1).val = win2_3.index t (1 : Fin 2) * 16 + 1 * (j 1).val; rw [e1]; omega

/-- Every entry of the output array is in the one point's block. -/
theorem cover (i : S8000x16.Idx) :
    ∃ t : Fin cfg2.N, (cfg2.win 3).flush t = true ∧ i ∈ ((cfg2.win 3).blk t).view.set := by
  obtain ⟨-, -, -, -, -, e0, e1⟩ := idx_zero t2_0
  refine ⟨t2_0, flush2_3 t2_0, ?_⟩
  show i ∈ ((View.whole main_v15).slice (win2_3.rect t2_0)).set
  rw [View.set_slice_whole, Rect.mem_set_unit]
  intro a
  have h0 : (i 0).val < 8000 := (i 0).isLt
  have h1 : (i 1).val < 16 := (i 1).isLt
  match a with
  | ⟨0, _⟩ =>
    show win2_3.index t2_0 (0 : Fin 2) * 8000 ≤ (i 0).val ∧ (i 0).val < win2_3.index t2_0 (0 : Fin 2) * 8000 + 8000
    rw [e0]; omega
  | ⟨1, _⟩ =>
    show win2_3.index t2_0 (1 : Fin 2) * 16 ≤ (i 1).val ∧ (i 1).val < win2_3.index t2_0 (1 : Fin 2) * 16 + 16
    rw [e1]; omega

/-- So the output array ends holding `out2`. -/
theorem final (c : Dev nD) : (dat2 (F := Ideal) V c).arrAt 3 cfg2.N = out2 V c :=
  (dat2 V c).arrAt_eq_of_cover 3 (out2 V c) (fun t _ => flushed_eq V c t) cover

/-- Region 2's output array after its one point: the logarithm of the softmax of each row of logits. -/
theorem arr2 (c : Dev nD) (d : Fin 8000) (o : Fin 16) :
    ((dat2 (F := Ideal) V c).arrAt 3 cfg2.N : S8000x16.Idx → EReal) (ix2 d o)
      = logSoftmax (fun o' : Fin 16 =>
          (∑ k : Fin 32, (s2Arr V c (ix2 d k.castSucc) * Ideal.div 1 (max (s2Arr V c (ix2 d (Fin.last 32))) 1))
              * w2Arr V c (ix2 k o')) + b2Arr V c (ix1 o')) o := by
  rw [final]
  exact pay_apply (s2Arr V c) (w2Arr V c) (b2Arr V c) d o

end Cert.KernelIdeal.Region2

end
-- ==== Proof.KernelHostDefs.lean ====
/-
  Names for the kernel program's host side: the integer arguments as launched, the arrays its host operations
  read and write, and the feature row each edge reads (its index word read signed and clamped into the table).
-/
import proofs.«430451_j11338713661814_3_alg».proof.Proof.Gen.KernelIdeal.Frame
import proofs.«430451_j11338713661814_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.ReduceAll

set_option maxRecDepth 16384

noncomputable section

namespace Cert.KernelIdeal.Host

open Cert.KernelIdeal Cert.KernelIdeal.Gen Cert.Sage Cert.GS
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The integer arguments as launched, each at its literal type. -/
abbrev nid (c : Dev nD) : S600000.Idx → BitVec 32 := m ((c : Thread nD τ).loc main_arg1)
abbrev src1 (c : Dev nD) : S1280000.Idx → BitVec 32 := m ((c : Thread nD τ).loc main_arg2)
abbrev dst1 (c : Dev nD) : S1280000.Idx → BitVec 32 := m ((c : Thread nD τ).loc main_arg3)
abbrev src2 (c : Dev nD) : S80000.Idx → BitVec 32 := m ((c : Thread nD τ).loc main_arg4)
abbrev dst2 (c : Dev nD) : S80000.Idx → BitVec 32 := m ((c : Thread nD τ).loc main_arg5)

/-- The arrays the host operations read and write, each at its literal type. -/
abbrev xpArr (c : Dev nD) : S1000000x32.Idx → EReal := V1 m ρ c main_v0
abbrev s1Arr (c : Dev nD) : S80000x33.Idx → EReal := V4 m ρ c main_v7
abbrev h1Arr (c : Dev nD) : S80000x32.Idx → EReal := V5 m ρ c main_v8
abbrev s2Arr (c : Dev nD) : S8000x33.Idx → EReal := V7 m ρ c main_v14

/-- The feature row the first hop's edge `e` reads: its source's sampled node. -/
def row1 (c : Dev nD) (e : Fin 1280000) : Fin 1000000 :=
  rd 1000000 (by decide) (nid m c (ix1 (rd 600000 (by decide) (src1 m c (ix1 e)))))

/-- The row of region 1's output the second hop's edge `e` reads. -/
def row2 (c : Dev nD) (e : Fin 80000) : Fin 80000 := rd 80000 (by decide) (src2 m c (ix1 e))

end Cert.KernelIdeal.Host

end
-- ==== Proof.KernelHost1.lean ====
/-
  What the kernel program's host operations between its first and second regions compute, entry by entry:
  the edge sources are looked up twice (edge → sampled node → feature row), the projected feature rows are
  gathered along them, a column of ones is appended, and the 33-wide rows are summed into their destination
  nodes. With every index in range each lookup reads the row its index names, so column h < 32 of node d holds
  the sum of the projected rows of the edges into d, and column 32 holds their number.
-/
import proofs.«430451_j11338713661814_3_alg».proof.Proof.Gen.KernelIdeal.Frame
import proofs.«430451_j11338713661814_3_alg».proof.Proof.Spec
import proofs.«430451_j11338713661814_3_alg».proof.Proof.KernelHostDefs
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.ReduceAll

set_option maxRecDepth 16384

noncomputable section

namespace Cert.KernelIdeal.Host1

open Cert.KernelIdeal Cert.KernelIdeal.Gen Cert.KernelIdeal.Host Cert.Sage Cert.GS
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! ### Words, masks and indices -/

/-- A non-negative index word is left as it is by the negative-index wrap. -/
theorem wrap_of_nonneg (x N : BitVec 32) (h : 0 ≤ x.toInt) :
    Scalar.select (IntOp.cmpi .slt x 0#32) (IntOp.addi x N) x = x := by
  have z : (0#32 : BitVec 32).toInt = 0 := by decide
  have hb : x.slt 0#32 = false := by
    unfold BitVec.slt; rw [z]; exact decide_eq_false (by omega)
  show Scalar.select (BitVec.ofBool (x.slt 0#32)) (IntOp.addi x N) x = x
  rw [hb]; exact select_zero _ _

/-- A word between zero and the bound passes both comparisons of the in-range mask. -/
theorem mask_of_inRange (x hi : BitVec 32) (h0 : 0 ≤ x.toInt) (h1 : x.toInt ≤ hi.toInt) :
    IntOp.andi (IntOp.cmpi .sge x 0#32) (IntOp.cmpi .sle x hi) = 1#1 := by
  have z : (0#32 : BitVec 32).toInt = 0 := by decide
  have a : (0#32 : BitVec 32).sle x = true := by unfold BitVec.sle; rw [z]; exact decide_eq_true h0
  have b : x.sle hi = true := by unfold BitVec.sle; exact decide_eq_true h1
  show IntOp.andi (BitVec.ofBool ((0#32 : BitVec 32).sle x)) (BitVec.ofBool (x.sle hi)) = 1#1
  rw [a, b]; decide

/-- A reduction by `and` from 1 over an array of 1s is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  have e : IntOp.andi (1#1 : BitVec 1) 1#1 = 1#1 := by decide
  induction l with
  | nil => rfl
  | cons a l ih => rw [List.foldl_cons, hx, e]; exact ih

/-- The rank-1 index at a coordinate, in its two spellings. -/
theorem ofFin_eq_ix1 {n : Nat} (p : Fin n) : Shape.Idx.ofFin p = ix1 p := by
  funext a; match a with | ⟨0, _⟩ => rfl

/-- Row `p` of a one-column array, in its two spellings. -/
theorem ixP_eq_ix2 {n : Nat} (p : Fin n) : StableHlo.Predicate.ixP p = ix2 p (0 : Fin 1) := by
  funext a; match a with | ⟨0, _⟩ => rfl | ⟨1, _⟩ => rfl

/-- A vector kept as a one-column array reads, at row `p`, the vector at `p`. -/
theorem bcast_col_apply {α : Type} {n : Nat} (h : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] h v (ix2 p q) = v (ix1 p) := by
  obtain rfl : q = 0 := Subsingleton.elim _ _
  have := StableHlo.Predicate.bcast_col1 h v p
  rwa [ixP_eq_ix2, ofFin_eq_ix1] at this

/-- A vector laid along the rows of an array reads, at `(p, q)`, the vector at `p`. -/
theorem bcast_row_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- The take of a vector: result position `p` reads the table at `p`'s index word, read signed and clamped. -/
theorem gather_vec {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n) (hN : 0 < N) :
    Host.gather d x idx (ix1 p) = x (ix1 (rd N hN (idx (ix2 p 0)))) := by
  rw [← ofFin_eq_ix1 p, StableHlo.Predicate.gather_take d hcoll hob hsim hivd x idx p hN, ofFin_eq_ix1]
  refine congrArg (fun r => x (ix1 r)) (Fin.ext ?_)
  show min (idx (StableHlo.Predicate.ixP p)).toInt.toNat (N - 1) = min (idx (ix2 p 0)).toInt.toNat (N - 1)
  rw [ixP_eq_ix2]

/-! ### A take, operation by operation -/

/-- A typed reference's two transports undo one another. -/
theorem ofBuf_toBuf {Val : EltTy → Type} {T : BufTy} (x : StableHlo.TRef sig T) (v : T.Contents Val) :
    x.ofBuf (x.toBuf v) = v := by
  obtain ⟨r, rfl, _, _⟩ := x
  rfl

/-- The index column of a take: the negative-index wrap of the index vector, kept as one column. -/
abbrev idxCol {n : ℕ} (b0 : (⟨0, ![]⟩ : Shape).BroadcastsInDim ⟨1, ![n]⟩ ![])
    (bc : (⟨1, ![n]⟩ : Shape).BroadcastsInDim ⟨2, ![n, 1]⟩ ![0]) (Nw : BitVec 32)
    (i : IVec ⟨1, ![n]⟩ 32) : IVec ⟨2, ![n, 1]⟩ 32 :=
  broadcastInDim ⟨2, ![n, 1]⟩ ![0] bc
    (select (cmpi .slt i (broadcastInDim ⟨1, ![n]⟩ ![] b0 (constantI ⟨0, ![]⟩ 32 0#32)))
      (addi i (broadcastInDim ⟨1, ![n]⟩ ![] b0 (constantI ⟨0, ![]⟩ 32 Nw))) i)

/-- A non-negative index word comes through the wrap unchanged. -/
theorem idxCol_apply {n : ℕ} (b0 : (⟨0, ![]⟩ : Shape).BroadcastsInDim ⟨1, ![n]⟩ ![])
    (bc : (⟨1, ![n]⟩ : Shape).BroadcastsInDim ⟨2, ![n, 1]⟩ ![0]) (Nw : BitVec 32)
    (i : IVec ⟨1, ![n]⟩ 32) (p : Fin n) (q : Fin 1) (hi : 0 ≤ (i (ix1 p)).toInt) :
    idxCol b0 bc Nw i (ix2 p q) = i (ix1 p) := by
  refine (bcast_col_apply bc _ p q).trans ?_
  show Scalar.select (IntOp.cmpi .slt (i (ix1 p)) 0#32) (IntOp.addi (i (ix1 p)) Nw) (i (ix1 p)) = _
  exact wrap_of_nonneg _ _ hi

/-- The in-range mask of a take: both comparisons of the index column, reduced over the column axis. -/
abbrev inMask {n : ℕ} (b0c : (⟨0, ![]⟩ : Shape).BroadcastsInDim ⟨2, ![n, 1]⟩ ![])
    (b11 : (⟨1, ![1]⟩ : Shape).BroadcastsInDim ⟨2, ![1, 1]⟩ ![1])
    (b1c : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel)
    (hiw : BitVec 32) (col : IVec ⟨2, ![n, 1]⟩ 32) : IVec ⟨1, ![n]⟩ 1 :=
  Host.reduce IntOp.andi
    (andi (cmpi .sge col (broadcastInDim ⟨2, ![n, 1]⟩ ![] b0c (constantI ⟨0, ![]⟩ 32 0#32)))
      (cmpi .sle col (broadcastInDim ⟨2, ![n, 1]⟩ ![0, 1] b1c
        (broadcastInDim ⟨2, ![1, 1]⟩ ![1] b11 (constantI ⟨1, ![1]⟩ 32 hiw)))))
    (constantI ⟨0, ![]⟩ 1 1#1) hr hu

/-- With every index word in range the mask is 1 at every position. -/
theorem inMask_eq_one {n : ℕ} (b0c : (⟨0, ![]⟩ : Shape).BroadcastsInDim ⟨2, ![n, 1]⟩ ![])
    (b11 : (⟨1, ![1]⟩ : Shape).BroadcastsInDim ⟨2, ![1, 1]⟩ ![1])
    (b1c : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel)
    (hiw : BitVec 32) (col : IVec ⟨2, ![n, 1]⟩ 32)
    (hcol : ∀ j, 0 ≤ (col j).toInt ∧ (col j).toInt ≤ hiw.toInt) (p : (⟨1, ![n]⟩ : Shape).Idx) :
    inMask b0c b11 b1c hr hu hiw col p = 1#1 := by
  refine reduce_andi_of_all _ _ hr hu (fun j => ?_) rfl p
  show IntOp.andi (IntOp.cmpi .sge (col j) 0#32) (IntOp.cmpi .sle (col j) hiw) = 1#1
  exact mask_of_inRange _ _ (hcol j).1 (hcol j).2

/-- THE TAKE OF A VECTOR with every index in range: position `e` reads the table at its index word. -/
theorem take_vec_read {α : Type} {N n : ℕ} (hN : 0 < N)
    (b0 : (⟨0, ![]⟩ : Shape).BroadcastsInDim ⟨1, ![n]⟩ ![])
    (bc : (⟨1, ![n]⟩ : Shape).BroadcastsInDim ⟨2, ![n, 1]⟩ ![0])
    (b0c : (⟨0, ![]⟩ : Shape).BroadcastsInDim ⟨2, ![n, 1]⟩ ![])
    (b11 : (⟨1, ![1]⟩ : Shape).BroadcastsInDim ⟨2, ![1, 1]⟩ ![1])
    (b1c : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (Nw hiw : BitVec 32) (hhi : hiw.toInt = (N : ℤ) - 1)
    (tbl : (⟨1, ![N]⟩ : Shape).Idx → α) (fill : (⟨1, ![n]⟩ : Shape).Idx → α) (i : IVec ⟨1, ![n]⟩ 32)
    (hi : ∀ p : Fin n, 0 ≤ (i (ix1 p)).toInt ∧ (i (ix1 p)).toInt < (N : ℤ)) (e : Fin n) :
    select (inMask b0c b11 b1c hr hu hiw (idxCol b0 bc Nw i)) (Host.gather d tbl (idxCol b0 bc Nw i)) fill (ix1 e)
      = tbl (ix1 (rd N hN (i (ix1 e)))) := by
  have hcol : ∀ p q, idxCol b0 bc Nw i (ix2 p q) = i (ix1 p) := fun p q => idxCol_apply b0 bc Nw i p q (hi p).1
  have hm : inMask b0c b11 b1c hr hu hiw (idxCol b0 bc Nw i) (ix1 e) = 1#1 := by
    refine inMask_eq_one b0c b11 b1c hr hu hiw _ (fun j => ?_) _
    obtain ⟨p, q, rfl⟩ : ∃ p q, j = ix2 p q := ⟨j 0, j 1, eq_ix2 j⟩
    rw [hcol]
    have := hi p
    exact ⟨this.1, by omega⟩
  rw [select_apply, hm, select_one, gather_vec d hcoll hob hsim hivd tbl _ e hN, hcol]

/-- THE TAKE OF ROWS with every index in range: row `e` is the table's row at its index word. -/
theorem take_rows_read {α : Type} {N C n : ℕ} (hN : 0 < N)
    (b0 : (⟨0, ![]⟩ : Shape).BroadcastsInDim ⟨1, ![n]⟩ ![])
    (bc : (⟨1, ![n]⟩ : Shape).BroadcastsInDim ⟨2, ![n, 1]⟩ ![0])
    (b0c : (⟨0, ![]⟩ : Shape).BroadcastsInDim ⟨2, ![n, 1]⟩ ![])
    (b11 : (⟨1, ![1]⟩ : Shape).BroadcastsInDim ⟨2, ![1, 1]⟩ ![1])
    (b1c : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel)
    (bm : (⟨1, ![n]⟩ : Shape).BroadcastsInDim ⟨2, ![n, C]⟩ ![0])
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (Nw hiw : BitVec 32) (hhi : hiw.toInt = (N : ℤ) - 1)
    (tbl : (⟨2, ![N, C]⟩ : Shape).Idx → α) (fill : (⟨2, ![n, C]⟩ : Shape).Idx → α) (i : IVec ⟨1, ![n]⟩ 32)
    (hi : ∀ p : Fin n, 0 ≤ (i (ix1 p)).toInt ∧ (i (ix1 p)).toInt < (N : ℤ)) (e : Fin n) (q : Fin C) :
    select (broadcastInDim ⟨2, ![n, C]⟩ ![0] bm (inMask b0c b11 b1c hr hu hiw (idxCol b0 bc Nw i)))
        (Host.gather d tbl (idxCol b0 bc Nw i)) fill (ix2 e q)
      = tbl (ix2 (rd N hN (i (ix1 e))) q) := by
  have hcol : ∀ p q, idxCol b0 bc Nw i (ix2 p q) = i (ix1 p) := fun p q => idxCol_apply b0 bc Nw i p q (hi p).1
  have hm : inMask b0c b11 b1c hr hu hiw (idxCol b0 bc Nw i) (ix1 e) = 1#1 := by
    refine inMask_eq_one b0c b11 b1c hr hu hiw _ (fun j => ?_) _
    obtain ⟨p, q, rfl⟩ : ∃ p q, j = ix2 p q := ⟨j 0, j 1, eq_ix2 j⟩
    rw [hcol]
    have := hi p
    exact ⟨this.1, by omega⟩
  rw [select_apply, bcast_row_apply, hm, select_one, gather_rows d hoff hcoll hob hsim hivd tbl _ e q hN, hcol]

/-! ### The scatter-add of the 33-wide rows -/

/-- The index column of the scatter reads, at row `e`, the destination word of edge `e`. -/
theorem dst_col (dst : S1280000.Idx → BitVec 32) :
    (fun e : Fin 1280000 => broadcastInDim S1280000x1 ![0] bcast_S1280000_S1280000x1_0 dst (ix2 e 0))
      = fun e => dst (ix1 e) := funext fun e => bcast_col_apply _ dst e 0

/-- The scattered sums, feature columns: whatever the buffers hold before these operations. -/
theorem scatter_feat (V : Valuation τ sig (Elt Ideal)) (dst : S1280000.Idx → BitVec 32) (rows : S1280000x32.Idx → EReal)
    (out : S80000x33.Idx → EReal) (hd : V (Proc.devRef .tc main_arg3) = dst) (hw : V (Proc.devRef .tc main_v2) = rows)
    (ho : StableHlo.after (hostOps1_2 (F := Ideal)) V (Proc.devRef .tc main_v7) = out) (d : Fin 80000) (h : Fin 32) :
    out (ix2 d h.castSucc) = ∑ e ∈ into (fun e : Fin 1280000 => dst (ix1 e)) d.val, rows (ix2 e h) := by
  subst ho
  after_results
  rw [hd, hw]
  refine (scatterAdd_rows _ rfl rfl rfl rfl _ _ _ d h.castSucc).trans ?_
  rw [show broadcastInDim S80000x33 ![] bcast_S_S80000x33 (constant (F := Ideal) S_ .f32 0x00000000#32) (ix2 d h.castSucc)
      = Ideal.ofBits .f32 0x00000000#32 from rfl, Cert.Fin.ofBits_zero, zero_add, dst_col]
  refine Finset.sum_congr rfl fun e _ => ?_
  exact concatenate_pair_apply_left (t := S1280000x33) (s₁ := S1280000x32) (s₂ := S1280000x1) (1 : Fin 2) _ _ _
    (ix2 e h.castSucc) rfl (ix2 e h) (Fin.forall_fin_two.2 ⟨rfl, rfl⟩)

/-- The scattered sums, last column: the ones add up to the number of edges into the node. -/
theorem scatter_cnt (V : Valuation τ sig (Elt Ideal)) (dst : S1280000.Idx → BitVec 32)
    (out : S80000x33.Idx → EReal) (hd : V (Proc.devRef .tc main_arg3) = dst)
    (ho : StableHlo.after (hostOps1_2 (F := Ideal)) V (Proc.devRef .tc main_v7) = out) (d : Fin 80000) :
    out (ix2 d (Fin.last 32)) = cnt (fun e : Fin 1280000 => dst (ix1 e)) d.val := by
  subst ho
  after_results
  rw [hd]
  refine (scatterAdd_rows _ rfl rfl rfl rfl _ _ _ d (Fin.last 32)).trans ?_
  rw [show broadcastInDim S80000x33 ![] bcast_S_S80000x33 (constant (F := Ideal) S_ .f32 0x00000000#32) (ix2 d (Fin.last 32))
      = Ideal.ofBits .f32 0x00000000#32 from rfl, Cert.Fin.ofBits_zero, zero_add, dst_col]
  unfold cnt
  refine Finset.sum_congr rfl fun e _ => ?_
  refine (concatenate_pair_apply_right (t := S1280000x33) (s₁ := S1280000x32) (s₂ := S1280000x1) (1 : Fin 2) _ _ _
    (ix2 e (Fin.last 32)) rfl rfl (ix2 e (0 : Fin 1)) ?_ ?_).trans ?_
  · refine Fin.forall_fin_two.2 ⟨fun _ => rfl, fun hne => absurd rfl hne⟩
  · rfl
  · exact Cert.Fin.ofBits_one

/-! ### The two takes of the program -/

/-- The first take (edge → sampled node): with every edge's source in range, position `e` of its result is the
    sampled-node table at the source's word. -/
theorem take1_read (V : Valuation τ sig (Elt Ideal)) (tbl : S600000.Idx → BitVec 32) (i : S1280000.Idx → BitVec 32)
    (out : S1280000.Idx → BitVec 32)
    (ht : (StableHlo.TRef.of main_arg1 : StableHlo.TRef sig ⟨S600000, .i32⟩).ofBuf (V (Proc.devRef .tc main_arg1)) = tbl)
    (hi : (StableHlo.TRef.of main_arg2 : StableHlo.TRef sig ⟨S1280000, .i32⟩).ofBuf (V (Proc.devRef .tc main_arg2)) = i)
    (ho : (StableHlo.TRef.of main_v1 : StableHlo.TRef sig ⟨S1280000, .i32⟩).ofBuf
        (StableHlo.after (hostOps1 (F := Ideal)) V (Proc.devRef .tc main_v1)) = out)
    (hr : ∀ p : Fin 1280000, 0 ≤ (i (ix1 p)).toInt ∧ (i (ix1 p)).toInt < ((600000 : ℕ) : ℤ)) (e : Fin 1280000) :
    out (ix1 e) = tbl (ix1 (rd 600000 (by decide) (i (ix1 e)))) := by
  subst ho
  after_results_simp
  simp only [ofBuf_toBuf]
  rw [ht, hi]
  exact take_vec_read (N := 600000) (n := 1280000) (by decide) _ _ _ _ _ _ _ _ rfl rfl rfl rfl
    600000#32 599999#32 (by decide) tbl _ i hr e

/-- The second take (sampled node → projected feature row): with every sampled node in range, row `e` of its
    result is the table's row at the node's word. -/
theorem take2_read (V : Valuation τ sig (Elt Ideal)) (tbl : S1000000x32.Idx → EReal) (i : S1280000.Idx → BitVec 32)
    (out : S1280000x32.Idx → EReal)
    (ht : (StableHlo.TRef.of main_v0 : StableHlo.TRef sig ⟨S1000000x32, .f32⟩).ofBuf (V (Proc.devRef .tc main_v0)) = tbl)
    (hi : (StableHlo.TRef.of main_v1 : StableHlo.TRef sig ⟨S1280000, .i32⟩).ofBuf (V (Proc.devRef .tc main_v1)) = i)
    (ho : (StableHlo.TRef.of main_v2 : StableHlo.TRef sig ⟨S1280000x32, .f32⟩).ofBuf
        (StableHlo.after (hostOps1_1 (F := Ideal)) V (Proc.devRef .tc main_v2)) = out)
    (hr : ∀ p : Fin 1280000, 0 ≤ (i (ix1 p)).toInt ∧ (i (ix1 p)).toInt < ((1000000 : ℕ) : ℤ)) (e : Fin 1280000) (q : Fin 32) :
    out (ix2 e q) = tbl (ix2 (rd 1000000 (by decide) (i (ix1 e))) q) := by
  subst ho
  after_results_simp
  simp only [ofBuf_toBuf]
  rw [ht, hi]
  exact take_rows_read (N := 1000000) (C := 32) (n := 1280000) (by decide) _ _ _ _ _ _ _ _ _ rfl rfl rfl rfl rfl
    1000000#32 999999#32 (by decide) tbl _ i hr e q

/-! ### The program's host operations between its first two regions -/

/-- Closes "no operation of the list writes this buffer" for one of the three literal lists. -/
local macro "unwritten " l:ident : tactic => `(tactic| (
  refine List.forall_iff_forall_mem.mp ?_
  simp only [$l:ident, List.Forall, StableHlo.nullary_writes, StableHlo.unary_writes, StableHlo.binary_writes,
    StableHlo.ternary_writes, Finset.mem_singleton]
  repeat' apply And.intro
  all_goals exact StableHlo.devRef_ne_of_ne (by decide)))

/-- The sampled node of each edge, as the first take leaves it. -/
abbrev nodeArr (c : Dev nD) : S1280000.Idx → BitVec 32 := W2 m ρ c (Proc.devRef .tc main_v1)
/-- The gathered feature rows, as the second take leaves them. -/
abbrev rowsArr (c : Dev nD) : S1280000x32.Idx → EReal := W3 m ρ c (Proc.devRef .tc main_v2)

/-- Region 1 is entered with the float arguments as launched. -/
theorem V4_arg7 (c : Dev nD) : V4 m ρ c main_arg7 = m ((c : Thread nD τ).loc main_arg7) :=
  calc W4 m ρ c (Proc.devRef .tc main_arg7)
    _ = W3 m ρ c (Proc.devRef .tc main_arg7) :=
        StableHlo.after_of_forall_not_mem (b := Proc.devRef .tc main_arg7) _ _ (by unwritten hostOps1_2)
    _ = W2 m ρ c (Proc.devRef .tc main_arg7) :=
        StableHlo.after_of_forall_not_mem (b := Proc.devRef .tc main_arg7) _ _ (by unwritten hostOps1_1)
    _ = W1 m ρ c (Proc.devRef .tc main_arg7) :=
        StableHlo.after_of_forall_not_mem (b := Proc.devRef .tc main_arg7) _ _ (by unwritten hostOps1)
    _ = W0 m ρ c (Proc.devRef .tc main_arg7) := W1_of_ne m ρ c main_arg7 (by decide)
    _ = m ((c : Thread nD τ).loc main_arg7) := rfl

/-- The edge destinations reach the scatter as launched. -/
theorem W3_arg3 (c : Dev nD) : W3 m ρ c (Proc.devRef .tc main_arg3) = dst1 m c :=
  calc W3 m ρ c (Proc.devRef .tc main_arg3)
    _ = W2 m ρ c (Proc.devRef .tc main_arg3) :=
        StableHlo.after_of_forall_not_mem (b := Proc.devRef .tc main_arg3) _ _ (by unwritten hostOps1_1)
    _ = W1 m ρ c (Proc.devRef .tc main_arg3) :=
        StableHlo.after_of_forall_not_mem (b := Proc.devRef .tc main_arg3) _ _ (by unwritten hostOps1)
    _ = W0 m ρ c (Proc.devRef .tc main_arg3) := W1_of_ne m ρ c main_arg3 (by decide)
    _ = dst1 m c := rfl

/-- The projected features reach the second take as region 0 left them. -/
theorem W2_v0 (c : Dev nD) : W2 m ρ c (Proc.devRef .tc main_v0) = xpArr m ρ c :=
  StableHlo.after_of_forall_not_mem (b := Proc.devRef .tc main_v0) _ _ (by unwritten hostOps1)

/-- With every edge's source in range, the first take leaves each edge's sampled node. -/
theorem nodeArr_apply (c : Dev nD) (hs : InRange (src1 m c) 600000) (e : Fin 1280000) :
    nodeArr m ρ c (ix1 e) = nid m c (ix1 (rd 600000 (by decide) (src1 m c (ix1 e)))) :=
  take1_read (W1 m ρ c) (nid m c) (src1 m c) (nodeArr m ρ c)
    ((congrArg (StableHlo.TRef.of main_arg1 : StableHlo.TRef sig ⟨S600000, .i32⟩).ofBuf
      (W1_of_ne m ρ c main_arg1 (by decide))).trans rfl)
    ((congrArg (StableHlo.TRef.of main_arg2 : StableHlo.TRef sig ⟨S1280000, .i32⟩).ofBuf
      (W1_of_ne m ρ c main_arg2 (by decide))).trans rfl)
    rfl (fun p => hs (ix1 p)) e

/-- With every index in range, the second take leaves each edge's projected feature row. -/
theorem rowsArr_apply (c : Dev nD) (hn : InRange (nid m c) 1000000) (hs : InRange (src1 m c) 600000)
    (e : Fin 1280000) (q : Fin 32) :
    rowsArr m ρ c (ix2 e q) = xpArr m ρ c (ix2 (row1 m c e) q) := by
  have := take2_read (W2 m ρ c) (xpArr m ρ c) (nodeArr m ρ c) (rowsArr m ρ c)
    ((congrArg (StableHlo.TRef.of main_v0 : StableHlo.TRef sig ⟨S1000000x32, .f32⟩).ofBuf (W2_v0 m ρ c)).trans rfl)
    rfl rfl (fun p => by rw [nodeArr_apply m ρ c hs p]; exact hn _) e q
  rw [this, nodeArr_apply m ρ c hs e]
  rfl

/-- Region 1's input, feature columns: the projected rows of the edges into node `d`, summed. -/
theorem s1_feat (c : Dev nD) (hn : InRange (nid m c) 1000000) (hs : InRange (src1 m c) 600000) (d : Fin 80000) (h : Fin 32) :
    s1Arr m ρ c (ix2 d h.castSucc)
      = ∑ e ∈ into (fun e : Fin 1280000 => dst1 m c (ix1 e)) d.val, xpArr m ρ c (ix2 (row1 m c e) h) := by
  rw [scatter_feat (W3 m ρ c) (dst1 m c) (rowsArr m ρ c) (s1Arr m ρ c) (W3_arg3 m ρ c) rfl rfl d h]
  exact Finset.sum_congr rfl fun e _ => rowsArr_apply m ρ c hn hs e h

/-- Region 1's input, last column: the number of edges into node `d`. -/
theorem s1_cnt (c : Dev nD) (d : Fin 80000) :
    s1Arr m ρ c (ix2 d (Fin.last 32)) = cnt (fun e : Fin 1280000 => dst1 m c (ix1 e)) d.val :=
  scatter_cnt (W3 m ρ c) (dst1 m c) (s1Arr m ρ c) (W3_arg3 m ρ c) rfl d

end Cert.KernelIdeal.Host1

end
-- ==== Proof.KernelHost2.lean ====
/-
  What the kernel program's host operations between its second and third regions compute, entry by entry:
  the second hop's edge sources are looked up in the second region's output, a column of ones is appended, and
  the 33-wide rows are summed into their destination nodes: column h < 32 of node d holds the sum of the rows
  of the edges into d, and column 32 holds their number.
-/
import proofs.«430451_j11338713661814_3_alg».proof.Proof.Gen.KernelIdeal.Frame
import proofs.«430451_j11338713661814_3_alg».proof.Proof.Spec
import proofs.«430451_j11338713661814_3_alg».proof.Proof.KernelHostDefs
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.ReduceAll

set_option maxRecDepth 16384

noncomputable section

namespace Cert.KernelIdeal.Host2

open Cert.KernelIdeal Cert.KernelIdeal.Gen Cert.KernelIdeal.Host Cert.Sage Cert.GS
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- A buffer none of a line's operations writes holds after the line what it held before. -/
local macro "untouched_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### The arguments at region 1's exit are as launched: no host operation before it and neither of the
    first two regions writes them -/

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by untouched_by hostOps1_2
    _ = W2 m ρ c (Proc.devRef .tc main_arg4) := by untouched_by hostOps1_1
    _ = W1 m ρ c (Proc.devRef .tc main_arg4) := by untouched_by hostOps1
    _ = W0 m ρ c (Proc.devRef .tc main_arg4) := W1_of_ne m ρ c main_arg4 (by decide)
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by untouched_by hostOps1_2
    _ = W2 m ρ c (Proc.devRef .tc main_arg5) := by untouched_by hostOps1_1
    _ = W1 m ρ c (Proc.devRef .tc main_arg5) := by untouched_by hostOps1
    _ = W0 m ρ c (Proc.devRef .tc main_arg5) := W1_of_ne m ρ c main_arg5 (by decide)
    _ = m ((c : Thread nD τ).loc main_arg5) := rfl

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by untouched_by hostOps1_2
    _ = W2 m ρ c (Proc.devRef .tc main_arg8) := by untouched_by hostOps1_1
    _ = W1 m ρ c (Proc.devRef .tc main_arg8) := by untouched_by hostOps1
    _ = W0 m ρ c (Proc.devRef .tc main_arg8) := W1_of_ne m ρ c main_arg8 (by decide)
    _ = m ((c : Thread nD τ).loc main_arg8) := rfl

theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by untouched_by hostOps1_2
    _ = W2 m ρ c (Proc.devRef .tc main_arg9) := by untouched_by hostOps1_1
    _ = W1 m ρ c (Proc.devRef .tc main_arg9) := by untouched_by hostOps1
    _ = W0 m ρ c (Proc.devRef .tc main_arg9) := W1_of_ne m ρ c main_arg9 (by decide)
    _ = m ((c : Thread nD τ).loc main_arg9) := rfl

/-- Region 2 is entered with the float arguments as launched. -/
theorem V7_arg8 (c : Dev nD) : V7 m ρ c main_arg8 = m ((c : Thread nD τ).loc main_arg8) :=
  calc W7 m ρ c (Proc.devRef .tc main_arg8)
    _ = W6 m ρ c (Proc.devRef .tc main_arg8) := by untouched_by hostOps2_1
    _ = W5 m ρ c (Proc.devRef .tc main_arg8) := by untouched_by hostOps2
    _ = m ((c : Thread nD τ).loc main_arg8) := W5_arg8 m ρ c
theorem V7_arg9 (c : Dev nD) : V7 m ρ c main_arg9 = m ((c : Thread nD τ).loc main_arg9) :=
  calc W7 m ρ c (Proc.devRef .tc main_arg9)
    _ = W6 m ρ c (Proc.devRef .tc main_arg9) := by untouched_by hostOps2_1
    _ = W5 m ρ c (Proc.devRef .tc main_arg9) := by untouched_by hostOps2
    _ = m ((c : Thread nD τ).loc main_arg9) := W5_arg9 m ρ c

/-! ### The two lines of host operations, as terms of what they read -/

/-- The take's index column: each word, the table's height added when it is negative, as an 80000 × 1 column. -/
def wrapIdx (a : IVec S80000 32) : IVec S80000x1 32 :=
  broadcastInDim S80000x1 ![0] bcast_S80000_S80000x1_0
    (select (cmpi .slt a (broadcastInDim S80000 ![] bcast_S_S80000 (constantI S_ 32 0#32)))
      (addi a (broadcastInDim S80000 ![] bcast_S_S80000 (constantI S_ 32 80000#32))) a)

/-- The take's in-range mask: per position, whether its index word lies in `[0, 79999]`. -/
def takeMask (i : IVec S80000x1 32) : IVec S80000 1 :=
  Host.reduce IntOp.andi
    (andi (cmpi .sge i (broadcastInDim S80000x1 ![] bcast_S_S80000x1 (constantI S_ 32 0#32)))
      (cmpi .sle i (broadcastInDim S80000x1 ![0, 1] bcast_S1x1_S80000x1_0_1
        (broadcastInDim S1x1 ![1] bcast_S1_S1x1_1 (constantI S1 32 79999#32)))))
    (constantI S_ 1 1#1) reducesTo_S80000x1_S80000_d1 h_S_

/-- The take: the gathered rows where the index is in range, a fill value elsewhere. -/
def takeRows (x : FVec Ideal S80000x32 .f32) (a : IVec S80000 32) : FVec Ideal S80000x32 .f32 :=
  select (broadcastInDim S80000x32 ![0] bcast_S80000_S80000x32_0 (takeMask (wrapIdx a)))
    (Host.gather gather_S80000x32_S80000x1_S80000x32_1_0_n_n_0_1_132 x (wrapIdx a))
    (broadcastInDim S80000x32 ![] bcast_S_S80000x32 (constant (F := Ideal) S_ .f32 0x7FC00000#32))

/-- The scatter-add of the 33-wide rows (the taken rows, a column of ones appended) into 8000 zero rows. -/
def sumRows (t : FVec Ideal S80000x32 .f32) (d : IVec S80000 32) : FVec Ideal S8000x33 .f32 :=
  Host.scatterAdd scatter_S8000x33_S80000x1_S80000x33_1_0_0_1
    (broadcastInDim S8000x33 ![] bcast_S_S8000x33 (constant (F := Ideal) S_ .f32 0x00000000#32))
    (broadcastInDim S80000x1 ![0] bcast_S80000_S80000x1_0 d)
    (concatenate S80000x33 1 [⟨S80000x32, t⟩,
      ⟨S80000x1, broadcastInDim S80000x1 ![] bcast_S_S80000x1 (constant (F := Ideal) S_ .f32 0x3F800000#32)⟩]
      concatenates_S80000x32_S80000x1_S80000x33_d1)

set_option maxHeartbeats 1000000 in
/-- The first line (the take), read at its result. -/
theorem after2_v9 (V : Valuation τ sig (Elt Ideal)) :
    StableHlo.after hostOps2 V (Proc.devRef .tc main_v9)
      = takeRows (V (Proc.devRef .tc main_v8)) (V (Proc.devRef .tc main_arg4)) := by
  simp only [hostOps2, List.flatten_cons, List.flatten_nil, List.append_nil, List.cons_append, List.nil_append]
  after_results_simp
  simp only [StableHlo.TRef.toBuf, StableHlo.TRef.ofBuf, cast_cast, cast_eq]
  unfold takeRows takeMask wrapIdx
  rfl

set_option maxHeartbeats 1000000 in
/-- The second line (ones column, concatenation, scatter-add), read at its result. -/
theorem after2_1_v14 (V : Valuation τ sig (Elt Ideal)) :
    StableHlo.after hostOps2_1 V (Proc.devRef .tc main_v14)
      = sumRows (V (Proc.devRef .tc main_v9)) (V (Proc.devRef .tc main_arg5)) := by
  simp only [hostOps2_1, List.flatten_cons, List.flatten_nil, List.append_nil, List.cons_append, List.nil_append]
  after_results_simp
  rfl

/-- Region 2's input array is the two lines composed on region 1's output and the launched index arguments. -/
theorem s2Arr_eq (c : Dev nD) : s2Arr m ρ c = sumRows (takeRows (h1Arr m ρ c) (src2 m c)) (dst2 m c) := by
  have e9 : W6 m ρ c (Proc.devRef .tc main_v9) = takeRows (h1Arr m ρ c) (src2 m c) := by
    refine (after2_v9 (W5 m ρ c)).trans ?_
    rw [W5_arg4]
  have e5 : W6 m ρ c (Proc.devRef .tc main_arg5) = dst2 m c :=
    (show W6 m ρ c (Proc.devRef .tc main_arg5) = W5 m ρ c (Proc.devRef .tc main_arg5) by
      untouched_by hostOps2).trans (W5_arg5 m ρ c)
  refine (after2_1_v14 (W6 m ρ c)).trans ?_
  rw [e9, e5]

/-! ### The operations read entry by entry -/

/-- A vector laid down an `n × 1` column reads, at row `e`, the vector at `e`. -/
theorem col_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply ![0] h v _ _ ?_
  intro a
  obtain rfl : a = 0 := Subsingleton.elim _ _
  have he := e.isLt
  split
  · next h1 => change n = 1 at h1; show e.val = 0; omega
  · rfl

/-- The zero constant spread over any shape reads 0 everywhere, the one constant 1. -/
theorem zeros_apply {T : Shape} (h : S_.BroadcastsInDim T ![]) (j : T.Idx) :
    broadcastInDim T ![] h (constant (F := Ideal) S_ .f32 0x00000000#32) j = 0 := Cert.Fin.ofBits_zero
theorem ones_apply {T : Shape} (h : S_.BroadcastsInDim T ![]) (j : T.Idx) :
    broadcastInDim T ![] h (constant (F := Ideal) S_ .f32 0x3F800000#32) j = 1 := Cert.Fin.ofBits_one

/-- The 33-wide rows: column `h < 32` is the first piece's column `h`, -/
theorem cat_left (t : FVec Ideal S80000x32 .f32) (u : FVec Ideal S80000x1 .f32) (e : Fin 80000) (h : Fin 32) :
    concatenate S80000x33 1 [⟨S80000x32, t⟩, ⟨S80000x1, u⟩] concatenates_S80000x32_S80000x1_S80000x33_d1
      (ix2 e h.castSucc) = t (ix2 e h) := by
  refine concatenate_pair_apply_left _ t u _ (ix2 e h.castSucc) rfl (ix2 e h) ?_
  intro (b : Fin 2)
  match b with
  | ⟨0, _⟩ => rfl
  | ⟨1, _⟩ => rfl

/-- and column 32 is the second piece's one column. -/
theorem cat_right (t : FVec Ideal S80000x32 .f32) (u : FVec Ideal S80000x1 .f32) (e : Fin 80000) :
    concatenate S80000x33 1 [⟨S80000x32, t⟩, ⟨S80000x1, u⟩] concatenates_S80000x32_S80000x1_S80000x33_d1
      (ix2 e (Fin.last 32)) = u (ix2 e (0 : Fin 1)) := by
  refine concatenate_pair_apply_right _ t u _ (ix2 e (Fin.last 32)) rfl rfl (ix2 e (0 : Fin 1)) ?_ ?_
  · intro (b : Fin 2) hb
    match b, hb with
    | ⟨0, _⟩, _ => rfl
    | ⟨1, _⟩, hb => exact absurd rfl hb
  · rfl

/-- The scatter-add into zero rows: entry `(r, q)` is the sum of column `q` of the 33-wide rows of the
    positions whose destination word reads `r`. -/
theorem sumRows_apply (t : FVec Ideal S80000x32 .f32) (d : IVec S80000 32) (r : Fin 8000) (q : Fin 33) :
    sumRows t d (ix2 r q) = ∑ e ∈ into (fun e : Fin 80000 => d (ix1 e)) r.val,
      concatenate S80000x33 1 [⟨S80000x32, t⟩,
        ⟨S80000x1, broadcastInDim S80000x1 ![] bcast_S_S80000x1 (constant (F := Ideal) S_ .f32 0x3F800000#32)⟩]
        concatenates_S80000x32_S80000x1_S80000x33_d1 (ix2 e q) := by
  unfold sumRows
  refine (scatterAdd_rows scatter_S8000x33_S80000x1_S80000x33_1_0_0_1 rfl rfl rfl rfl _ _ _ r q).trans ?_
  rw [zeros_apply, zero_add]
  have hi : (fun e : Fin 80000 => broadcastInDim S80000x1 ![0] bcast_S80000_S80000x1_0 d (ix2 e (0 : Fin 1)))
      = fun e : Fin 80000 => d (ix1 e) := funext fun e => col_apply _ d e
  rw [hi]

/-- A left fold by `and` from 1 over words that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- An in-range index word is not wrapped: the index column reads the word itself. -/
theorem wrapIdx_apply (a : IVec S80000 32) (e : Fin 80000) (h0 : 0 ≤ (a (ix1 e)).toInt) :
    wrapIdx a (ix2 e (0 : Fin 1)) = a (ix1 e) := by
  unfold wrapIdx
  rw [col_apply]
  show Scalar.select (IntOp.cmpi .slt (a (ix1 e)) 0#32) (IntOp.addi (a (ix1 e)) 80000#32) (a (ix1 e)) = a (ix1 e)
  have hc : IntOp.cmpi .slt (a (ix1 e)) 0#32 = 0#1 := by
    refine eq_zero_of_ne_one fun h1 => ?_
    rw [IntOp.cmpi_slt, show (0#32 : BitVec 32).toInt = 0 from by decide] at h1
    omega
  rw [hc, select_zero]

/-- With every index word in range the take's mask is 1 everywhere. -/
theorem takeMask_ones (a : IVec S80000 32) (ha : InRange a 80000) (j : S80000.Idx) : takeMask (wrapIdx a) j = 1#1 := by
  unfold takeMask
  refine reduce_andi_ones _ _ _ _ (fun i => ?_) rfl j
  obtain ⟨e, z, rfl⟩ : ∃ (e : Fin 80000) (z : Fin 1), i = ix2 e z := ⟨i 0, i 1, eq_ix2 i⟩
  obtain rfl : z = 0 := Subsingleton.elim _ _
  obtain ⟨h0, h1⟩ := ha (ix1 e)
  show IntOp.andi (IntOp.cmpi .sge (wrapIdx a (ix2 e 0)) 0#32) (IntOp.cmpi .sle (wrapIdx a (ix2 e 0)) 79999#32) = 1#1
  rw [wrapIdx_apply a e h0]
  refine IntOp.andi_eq_one.mpr ⟨IntOp.cmpi_sge.mpr ?_, IntOp.cmpi_sle.mpr ?_⟩
  · rw [show (0#32 : BitVec 32).toInt = 0 from by decide]; exact h0
  · rw [show (79999#32 : BitVec 32).toInt = 79999 from by decide]; omega

/-- The take under its range hypothesis: entry `(e, h)` is the table's entry `(row, h)`, the row being `e`'s
    index word read signed (and clamped into the table). -/
theorem takeRows_apply (x : FVec Ideal S80000x32 .f32) (a : IVec S80000 32) (ha : InRange a 80000) (e : Fin 80000)
    (h : Fin 32) : takeRows x a (ix2 e h) = x (ix2 (rd 80000 (by decide) (a (ix1 e))) h) := by
  have hm : broadcastInDim S80000x32 ![0] bcast_S80000_S80000x32_0 (takeMask (wrapIdx a)) (ix2 e h) = 1#1 :=
    takeMask_ones a ha _
  unfold takeRows
  rw [select_apply, hm, select_one]
  refine (gather_rows gather_S80000x32_S80000x1_S80000x32_1_0_n_n_0_1_132 rfl rfl rfl rfl rfl x _ e h
    (by decide)).trans ?_
  rw [wrapIdx_apply a e (ha (ix1 e)).1]

/-- Region 2's input, feature columns: the rows of region 1's output of the edges into node `d`, summed. -/
theorem s2_feat (c : Dev nD) (hs : InRange (src2 m c) 80000) (d : Fin 8000) (h : Fin 32) :
    s2Arr m ρ c (ix2 d h.castSucc)
      = ∑ e ∈ into (fun e : Fin 80000 => dst2 m c (ix1 e)) d.val, h1Arr m ρ c (ix2 (row2 m c e) h) := by
  refine (congrFun (s2Arr_eq m ρ c) _).trans ?_
  rw [sumRows_apply]
  refine Finset.sum_congr rfl fun e _ => ?_
  rw [cat_left, takeRows_apply _ _ hs]
  rfl

/-- Region 2's input, last column: the number of second-hop edges into node `d`. -/
theorem s2_cnt (c : Dev nD) (d : Fin 8000) :
    s2Arr m ρ c (ix2 d (Fin.last 32)) = cnt (fun e : Fin 80000 => dst2 m c (ix1 e)) d.val := by
  refine (congrFun (s2Arr_eq m ρ c) _).trans ?_
  rw [sumRows_apply]
  unfold cnt
  refine Finset.sum_congr rfl fun e _ => ?_
  rw [cat_right, ones_apply]

end Cert.KernelIdeal.Host2

end
-- ==== Proof.KernelOut.lean ====
/-
  The kernel program's result, entry by entry, in the arrangement its three regions and its host operations
  compute it: the first layer as "linear, then mean" (project every feature row, sum the projected rows of the
  edges into each node, scale by the reciprocal of the clamped in-degree, add the bias, clamp below at zero),
  the second as "mean by reciprocal, then linear" followed by the logarithm of the softmax of each row.

  Each region's output array is what the region's own lemma says of the arrays it finds at its entry; those are
  what the host operations before it left, and the first region finds the arguments as launched.
-/
import proofs.«430451_j11338713661814_3_alg».proof.Proof.KernelRegion0
import proofs.«430451_j11338713661814_3_alg».proof.Proof.KernelRegion1
import proofs.«430451_j11338713661814_3_alg».proof.Proof.KernelRegion2
import proofs.«430451_j11338713661814_3_alg».proof.Proof.KernelHost1
import proofs.«430451_j11338713661814_3_alg».proof.Proof.KernelHost2

set_option maxRecDepth 16384

noncomputable section

namespace Cert.KernelIdeal.Out

open Cert.KernelIdeal Cert.KernelIdeal.Gen Cert.KernelIdeal.Host Cert.Sage Cert.GS
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The float arguments as launched, as tables over plain indices. -/
def X (c : Dev nD) : Fin 1000000 → Fin 128 → EReal :=
  fun n k => (m ((c : Thread nD τ).loc main_arg0) : S1000000x128.Idx → EReal) (ix2 n k)
def W1t (c : Dev nD) : Fin 128 → Fin 32 → EReal :=
  fun k h => (m ((c : Thread nD τ).loc main_arg6) : S128x32.Idx → EReal) (ix2 k h)
def B1 (c : Dev nD) : Fin 32 → EReal := fun h => (m ((c : Thread nD τ).loc main_arg7) : S32.Idx → EReal) (ix1 h)
def W2t (c : Dev nD) : Fin 32 → Fin 16 → EReal :=
  fun k o => (m ((c : Thread nD τ).loc main_arg8) : S32x16.Idx → EReal) (ix2 k o)
def B2 (c : Dev nD) : Fin 16 → EReal := fun o => (m ((c : Thread nD τ).loc main_arg9) : S16.Idx → EReal) (ix1 o)
/-- The two hops' destination words. -/
def D1 (c : Dev nD) : Fin 1280000 → BitVec 32 := fun e => dst1 m c (ix1 e)
def D2 (c : Dev nD) : Fin 80000 → BitVec 32 := fun e => dst2 m c (ix1 e)

/-- The projected features: region 0's output is the features times the first weights. -/
theorem xp_eq (c : Dev nD) (n : Fin 1000000) (h : Fin 32) :
    xpArr m ρ c (ix2 n h) = ∑ k : Fin 128, X m c n k * W1t m c k h := by
  have e : xpArr m ρ c = ((dat0 (F := Ideal) (V0 m ρ) c).arrAt 2 cfg0.N : S1000000x32.Idx → EReal) :=
    W1_arr m ρ c 2
  rw [e, Region0.arr0 (V0 m ρ) c n h]
  rfl

/-- The first layer as the kernel computes it: linear, then mean, biased, clamped below at zero. -/
theorem h1_eq (c : Dev nD) (hn : InRange (nid m c) 1000000) (hs : InRange (src1 m c) 600000) (d : Fin 80000) (h : Fin 32) :
    h1Arr m ρ c (ix2 d h) = max (linMean (X m c) (row1 m c) (D1 m c) (W1t m c) d.val h + B1 m c h) 0 := by
  have e : h1Arr m ρ c = ((dat1 (F := Ideal) (V4 m ρ) c).arrAt 2 cfg1.N : S80000x32.Idx → EReal) :=
    W5_arr m ρ c 2
  rw [e, Region1.arr1 (V4 m ρ) c d h]
  have hb : Region1.b1Arr (V4 m ρ) c (ix1 h) = B1 m c h := by
    show (V4 m ρ c main_arg7 : S32.Idx → EReal) (ix1 h) = _
    rw [Host1.V4_arg7 m ρ c]; rfl
  have hf : Region1.s1Arr (V4 m ρ) c (ix2 d h.castSucc) = ∑ e ∈ into (D1 m c) d.val, ∑ k : Fin 128, X m c (row1 m c e) k * W1t m c k h := by
    show s1Arr m ρ c (ix2 d h.castSucc) = _
    rw [Host1.s1_feat m ρ c hn hs d h]
    exact Finset.sum_congr rfl fun e _ => xp_eq m ρ c _ h
  have hc : Region1.s1Arr (V4 m ρ) c (ix2 d (Fin.last 32)) = cnt (D1 m c) d.val := Host1.s1_cnt m ρ c d
  rw [hb, hf, hc]
  rfl

/-- The kernel's result: the second layer as mean by reciprocal, then linear, biased, then the logarithm of the
    softmax of each row. -/
theorem out_eq (c : Dev nD) (hs2 : InRange (src2 m c) 80000) (d : Fin 8000) (o : Fin 16) :
    (W8 m ρ c (Proc.devRef .tc main_v15) : S8000x16.Idx → EReal) (ix2 d o)
      = logSoftmax (fun o' : Fin 16 =>
          meanLinInv (fun (n : Fin 80000) (k : Fin 32) => h1Arr m ρ c (ix2 n k)) (row2 m c) (D2 m c) (W2t m c) d.val o'
            + B2 m c o') o := by
  have e : (W8 m ρ c (Proc.devRef .tc main_v15) : S8000x16.Idx → EReal)
      = ((dat2 (F := Ideal) (V7 m ρ) c).arrAt 3 cfg2.N : S8000x16.Idx → EReal) := W8_arr m ρ c 3
  rw [e, Region2.arr2 (V7 m ρ) c d o]
  refine congrArg (fun f : Fin 16 → EReal => logSoftmax f o) (funext fun o' => ?_)
  have hb : Region2.b2Arr (V7 m ρ) c (ix1 o') = B2 m c o' := by
    show (V7 m ρ c main_arg9 : S16.Idx → EReal) (ix1 o') = _
    rw [Host2.V7_arg9 m ρ c]; rfl
  have hw : ∀ k : Fin 32, Region2.w2Arr (V7 m ρ) c (ix2 k o') = W2t m c k o' := fun k => by
    show (V7 m ρ c main_arg8 : S32x16.Idx → EReal) (ix2 k o') = _
    rw [Host2.V7_arg8 m ρ c]; rfl
  have hf : ∀ k : Fin 32, Region2.s2Arr (V7 m ρ) c (ix2 d k.castSucc)
      = ∑ e ∈ into (D2 m c) d.val, h1Arr m ρ c (ix2 (row2 m c e) k) := fun k => Host2.s2_feat m ρ c hs2 d k
  have hc : Region2.s2Arr (V7 m ρ) c (ix2 d (Fin.last 32)) = cnt (D2 m c) d.val := Host2.s2_cnt m ρ c d
  rw [hb, hc]
  simp only [hw, hf]
  rfl

end Cert.KernelIdeal.Out

end
-- ==== Proof.RefLayer1.lean ====
/-
  The reference program's first layer, entry by entry, over the read-at-an-index lemmas of its operations:
  the sampled nodes' feature rows are gathered, then the edges' source rows; the gathered rows are summed into
  the edges' destination nodes, each node's sum is divided by its in-degree clamped below at one, the quotient
  is multiplied by the first weight matrix, the bias is added and the result clamped below at zero. With every
  index in range, a gather reads the row its index names.
-/
import proofs.«430451_j11338713661814_3_alg».proof.Proof.RefRead
import proofs.«430451_j11338713661814_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.ReferenceIdeal.Layer1

open Cert.ReferenceIdeal Cert.ReferenceIdeal.Gen Cert.ReferenceIdeal.ReadP Cert.Sage Cert.GS
open Idealize.ShloMosaic Idealize.ShloMosaic.TcCoe Idealize.ShloMosaic.ValueIdx Idealize.SL.Sem
open scoped BigOperators

/-- A word that reads non-negative is not below zero, so the wrap-around by the table's height leaves it. -/
theorem wrap_id (b c : BitVec 32) (h0 : 0 ≤ b.toInt) :
    Scalar.select (IntOp.cmpi .slt b 0#32) c b = b := by
  have hc : IntOp.cmpi .slt b 0#32 = 0#1 := by
    unfold IntOp.cmpi
    have hs : b.slt 0#32 = false := by
      simp only [BitVec.slt, BitVec.toInt_zero, decide_eq_false_iff_not, not_lt]; exact h0
    simp only [hs]; rfl
  rw [hc]; exact select_zero _ _

/-- The first gather's column of start indices is the sampled-node list itself. -/
theorem v5_read (x1 : (⟨S600000, .i32⟩ : BufTy).Contents (Elt Ideal))
    (hn : InRange (x1 : S600000.Idx → BitVec 32) 1000000) (p : Fin 600000) :
    (val_main_v5 (F := Ideal) x1 : S600000x1.Idx → BitVec 32) (ix2 p 0) = (x1 : S600000.Idx → BitVec 32) (ix1 p) := by
  rw [val_main_v5_apply, val_main_v4_apply, val_main_v1_apply, val_main_v0_apply, val_main_c_apply]
  have e : idx_main_v5 (ix2 p 0) = ix1 p := funext fun a => Fin.ext (by match a with | ⟨0, _⟩ => rfl)
  rw [e]
  exact wrap_id _ _ (hn _).1

/-- The first gather: row p of the result is the feature row named by the p-th sampled node. -/
theorem v6_read (x0 : (⟨S1000000x128, .f32⟩ : BufTy).Contents (Elt Ideal)) (x1 : (⟨S600000, .i32⟩ : BufTy).Contents (Elt Ideal))
    (hn : InRange (x1 : S600000.Idx → BitVec 32) 1000000) (p : Fin 600000) (q : Fin 128) :
    (val_main_v6 (F := Ideal) x0 x1 : S600000x128.Idx → EReal) (ix2 p q)
      = (x0 : S1000000x128.Idx → EReal) (ix2 (rd 1000000 (by decide) ((x1 : S600000.Idx → BitVec 32) (ix1 p))) q) := by
  unfold val_main_v6
  refine (gather_rows gather_S1000000x128_S600000x1_S600000x128_1_0_n_n_0_1_1128 rfl rfl rfl rfl rfl x0 (val_main_v5 (F := Ideal) x1) p q (by decide)).trans ?_
  rw [v5_read x1 hn p]

/-- The second gather's column of start indices is the edges' source list itself. -/
theorem v12_read (x2 : (⟨S1280000, .i32⟩ : BufTy).Contents (Elt Ideal))
    (hs : InRange (x2 : S1280000.Idx → BitVec 32) 600000) (e : Fin 1280000) :
    (val_main_v12 (F := Ideal) x2 : S1280000x1.Idx → BitVec 32) (ix2 e 0) = (x2 : S1280000.Idx → BitVec 32) (ix1 e) := by
  rw [val_main_v12_apply, val_main_v11_apply, val_main_v8_apply, val_main_v7_apply, val_main_c_1_apply]
  have he : idx_main_v12 (ix2 e 0) = ix1 e := funext fun a => Fin.ext (by match a with | ⟨0, _⟩ => rfl)
  rw [he]
  exact wrap_id _ _ (hs _).1

/-- The second gather over the first: row e is the feature row of the node sampled at edge e's source. -/
theorem v13_read (x0 : (⟨S1000000x128, .f32⟩ : BufTy).Contents (Elt Ideal)) (x1 : (⟨S600000, .i32⟩ : BufTy).Contents (Elt Ideal))
    (x2 : (⟨S1280000, .i32⟩ : BufTy).Contents (Elt Ideal))
    (hn : InRange (x1 : S600000.Idx → BitVec 32) 1000000) (hs : InRange (x2 : S1280000.Idx → BitVec 32) 600000)
    (e : Fin 1280000) (q : Fin 128) :
    (val_main_v13 (F := Ideal) x0 x1 x2 : S1280000x128.Idx → EReal) (ix2 e q)
      = (x0 : S1000000x128.Idx → EReal) (ix2 (rd 1000000 (by decide) ((x1 : S600000.Idx → BitVec 32) (ix1 (rd 600000 (by decide) ((x2 : S1280000.Idx → BitVec 32) (ix1 e)))))) q) := by
  unfold val_main_v13
  refine (gather_rows gather_S600000x128_S1280000x1_S1280000x128_1_0_n_n_0_1_1128 rfl rfl rfl rfl rfl (val_main_v6 (F := Ideal) x0 x1) (val_main_v12 (F := Ideal) x2) e q (by decide)).trans ?_
  rw [v12_read x2 hs e, v6_read x0 x1 hn]

/-- The scatters' column of indices is the edges' destination list itself. -/
theorem v15_read (x3 : (⟨S1280000, .i32⟩ : BufTy).Contents (Elt Ideal)) (e : Fin 1280000) :
    (val_main_v15 (F := Ideal) x3 : S1280000x1.Idx → BitVec 32) (ix2 e 0) = (x3 : S1280000.Idx → BitVec 32) (ix1 e) := by
  rw [val_main_v15_apply]
  have he : idx_main_v15 (ix2 e 0) = ix1 e := funext fun a => Fin.ext (by match a with | ⟨0, _⟩ => rfl)
  rw [he]

theorem v19_read (x3 : (⟨S1280000, .i32⟩ : BufTy).Contents (Elt Ideal)) (e : Fin 1280000) :
    (val_main_v19 (F := Ideal) x3 : S1280000x1.Idx → BitVec 32) (ix2 e 0) = (x3 : S1280000.Idx → BitVec 32) (ix1 e) := by
  rw [val_main_v19_apply]
  have he : idx_main_v19 (ix2 e 0) = ix1 e := funext fun a => Fin.ext (by match a with | ⟨0, _⟩ => rfl)
  rw [he]

/-- The row scatter from zero: entry (d, q) is the sum of the gathered rows' q-th entries over the edges into d. -/
theorem v16_read (x0 : (⟨S1000000x128, .f32⟩ : BufTy).Contents (Elt Ideal)) (x1 : (⟨S600000, .i32⟩ : BufTy).Contents (Elt Ideal))
    (x2 x3 : (⟨S1280000, .i32⟩ : BufTy).Contents (Elt Ideal))
    (hn : InRange (x1 : S600000.Idx → BitVec 32) 1000000) (hs : InRange (x2 : S1280000.Idx → BitVec 32) 600000)
    (d : Fin 80000) (q : Fin 128) :
    (val_main_v16 (F := Ideal) x0 x1 x2 x3 : S80000x128.Idx → EReal) (ix2 d q)
      = ∑ e ∈ into (fun e : Fin 1280000 => (x3 : S1280000.Idx → BitVec 32) (ix1 e)) d.val,
          (x0 : S1000000x128.Idx → EReal) (ix2 (rd 1000000 (by decide) ((x1 : S600000.Idx → BitVec 32) (ix1 (rd 600000 (by decide) ((x2 : S1280000.Idx → BitVec 32) (ix1 e)))))) q) := by
  unfold val_main_v16
  refine (scatterAdd_rows scatter_S80000x128_S1280000x1_S1280000x128_1_0_0_1 rfl rfl rfl rfl (val_main_v14 (F := Ideal)) (val_main_v15 (F := Ideal) x3) (val_main_v13 (F := Ideal) x0 x1 x2) d q).trans ?_
  rw [val_main_v14_apply, val_main_cst_apply, Ideal.ofBits_def, Cert.Fin.ofBits_zero, zero_add]
  have hi : (fun e : Fin 1280000 => (val_main_v15 (F := Ideal) x3 : S1280000x1.Idx → BitVec 32) (ix2 e 0)) = fun e : Fin 1280000 => (x3 : S1280000.Idx → BitVec 32) (ix1 e) :=
    funext (v15_read x3)
  rw [hi]
  exact Finset.sum_congr rfl fun e _ => v13_read x0 x1 x2 hn hs e q

/-- The scatter of ones from zero: entry d is the number of edges into d. -/
theorem v20_read (x3 : (⟨S1280000, .i32⟩ : BufTy).Contents (Elt Ideal)) (d : Fin 80000) :
    (val_main_v20 (F := Ideal) x3 : S80000.Idx → EReal) (ix1 d)
      = cnt (fun e : Fin 1280000 => (x3 : S1280000.Idx → BitVec 32) (ix1 e)) d.val := by
  unfold val_main_v20
  refine (scatterAdd_vec scatter_S80000_S1280000x1_S1280000_n_0_0_1 rfl rfl rfl rfl (val_main_v18 (F := Ideal)) (val_main_v19 (F := Ideal) x3) (val_main_v17 (F := Ideal)) d).trans ?_
  rw [val_main_v18_apply, val_main_cst_4_apply, Ideal.ofBits_def, Cert.Fin.ofBits_zero, zero_add]
  have hi : (fun e : Fin 1280000 => (val_main_v19 (F := Ideal) x3 : S1280000x1.Idx → BitVec 32) (ix2 e 0)) = fun e : Fin 1280000 => (x3 : S1280000.Idx → BitVec 32) (ix1 e) :=
    funext (v19_read x3)
  rw [hi]
  unfold cnt
  exact Finset.sum_congr rfl fun e _ => by
    rw [val_main_v17_apply, val_main_cst_3_apply, Ideal.ofBits_def, Cert.Fin.ofBits_one]

/-- The divisor, broadcast along the row: the in-degree clamped below at one. -/
theorem v24_read (x3 : (⟨S1280000, .i32⟩ : BufTy).Contents (Elt Ideal)) (d : Fin 80000) (q : Fin 128) :
    (val_main_v24 (F := Ideal) x3 : S80000x128.Idx → EReal) (ix2 d q)
      = den (fun e : Fin 1280000 => (x3 : S1280000.Idx → BitVec 32) (ix1 e)) d.val := by
  rw [val_main_v24_apply, val_main_v23_apply, val_main_v22_apply, val_main_v21_apply, val_main_cst_5_apply]
  have he : idx_main_v23 (idx_main_v24 (ix2 d q)) = ix1 d := funext fun a => Fin.ext (by match a with | ⟨0, _⟩ => rfl)
  rw [he, v20_read, Ideal.maximumf_def, Ideal.ofBits_def, Cert.Fin.ofBits_one]
  rfl

/-- The mean: the summed rows over the clamped in-degree. -/
theorem v25_read (x0 : (⟨S1000000x128, .f32⟩ : BufTy).Contents (Elt Ideal)) (x1 : (⟨S600000, .i32⟩ : BufTy).Contents (Elt Ideal))
    (x2 x3 : (⟨S1280000, .i32⟩ : BufTy).Contents (Elt Ideal))
    (hn : InRange (x1 : S600000.Idx → BitVec 32) 1000000) (hs : InRange (x2 : S1280000.Idx → BitVec 32) 600000)
    (d : Fin 80000) (q : Fin 128) :
    (val_main_v25 (F := Ideal) x0 x1 x2 x3 : S80000x128.Idx → EReal) (ix2 d q)
      = Ideal.div (∑ e ∈ into (fun e : Fin 1280000 => (x3 : S1280000.Idx → BitVec 32) (ix1 e)) d.val,
          (x0 : S1000000x128.Idx → EReal) (ix2 (rd 1000000 (by decide) ((x1 : S600000.Idx → BitVec 32) (ix1 (rd 600000 (by decide) ((x2 : S1280000.Idx → BitVec 32) (ix1 e)))))) q))
          (den (fun e : Fin 1280000 => (x3 : S1280000.Idx → BitVec 32) (ix1 e)) d.val) := by
  rw [val_main_v25_apply, Ideal.hostDivf_def, v16_read x0 x1 x2 x3 hn hs, v24_read]

/-- Layer 1's output: the mean of the gathered feature rows, then linear, biased, clamped below at zero. -/
theorem layer1 (x0 : (⟨S1000000x128, .f32⟩ : BufTy).Contents (Elt Ideal)) (x1 : (⟨S600000, .i32⟩ : BufTy).Contents (Elt Ideal)) (x2 x3 : (⟨S1280000, .i32⟩ : BufTy).Contents (Elt Ideal)) (x6 : (⟨S128x32, .f32⟩ : BufTy).Contents (Elt Ideal)) (x7 : (⟨S32, .f32⟩ : BufTy).Contents (Elt Ideal))
    (hn : InRange (x1 : S600000.Idx → BitVec 32) 1000000) (hs : InRange (x2 : S1280000.Idx → BitVec 32) 600000)
    (d : Fin 80000) (h : Fin 32) :
    (val_main_v30 (F := Ideal) x0 x1 x2 x3 x6 x7 : S80000x32.Idx → EReal) (ix2 d h)
      = max (meanLin (fun (n : Fin 1000000) (k : Fin 128) => (x0 : S1000000x128.Idx → EReal) (ix2 n k))
                (fun e : Fin 1280000 => rd 1000000 (by decide) ((x1 : S600000.Idx → BitVec 32) (ix1 (rd 600000 (by decide) ((x2 : S1280000.Idx → BitVec 32) (ix1 e))))))
                (fun e : Fin 1280000 => (x3 : S1280000.Idx → BitVec 32) (ix1 e))
                (fun (k : Fin 128) (h : Fin 32) => (x6 : S128x32.Idx → EReal) (ix2 k h)) d.val h
              + (x7 : S32.Idx → EReal) (ix1 h)) 0 := by
  rw [val_main_v30_apply, val_main_v29_apply, val_main_v26_apply, val_main_v28_apply, val_main_v27_apply,
    val_main_call0_v0_apply, val_main_call0_cst_apply]
  have hb : idx_main_v27 (idx_main_v28 (ix2 d h)) = ix1 h := funext fun a => Fin.ext (by match a with | ⟨0, _⟩ => rfl)
  have hl : ∀ k : Fin 128, lidx_main_v26 (ix2 d h) k = ix2 d k := fun k =>
    funext fun a => Fin.ext (by match a with | ⟨0, _⟩ => rfl | ⟨1, _⟩ => rfl)
  have hr : ∀ k : Fin 128, ridx_main_v26 (ix2 d h) k = ix2 k h := fun k =>
    funext fun a => Fin.ext (by match a with | ⟨0, _⟩ => rfl | ⟨1, _⟩ => rfl)
  rw [hb, Ideal.maximumf_def, Ideal.addf_def, Ideal.ofBits_def, Cert.Fin.ofBits_zero]
  unfold meanLin
  refine congrArg (fun t : EReal => max (t + (x7 : S32.Idx → EReal) (ix1 h)) 0) (Finset.sum_congr rfl fun k _ => ?_)
  rw [hl k, hr k, v25_read x0 x1 x2 x3 hn hs d k]

end Cert.ReferenceIdeal.Layer1

end
-- ==== Proof.RefLayer2.lean ====
/-
  The reference program's second layer over its first, entry by entry: the first layer's rows are gathered
  along the second hop's edges and summed into their destination nodes, each sum divided by the in-degree
  clamped below at one, multiplied by the second weight matrix, biased, and each row of sixteen logits turned
  into the logarithm of its softmax.
-/
import proofs.«430451_j11338713661814_3_alg».proof.Proof.RefRead
import proofs.«430451_j11338713661814_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.ReferenceIdeal.Layer2

open Cert.ReferenceIdeal Cert.ReferenceIdeal.Gen Cert.ReferenceIdeal.ReadP Cert.Sage Cert.GS
open Idealize.ShloMosaic Idealize.ShloMosaic.TcCoe Idealize.ShloMosaic.ValueIdx Idealize.SL.Sem
open scoped BigOperators

section Stages

variable (x0 : (⟨S1000000x128, .f32⟩ : BufTy).Contents (Elt Ideal)) (x1 : (⟨S600000, .i32⟩ : BufTy).Contents (Elt Ideal))
  (x2 x3 : (⟨S1280000, .i32⟩ : BufTy).Contents (Elt Ideal)) (x4 x5 : (⟨S80000, .i32⟩ : BufTy).Contents (Elt Ideal))
  (x6 : (⟨S128x32, .f32⟩ : BufTy).Contents (Elt Ideal)) (x7 : (⟨S32, .f32⟩ : BufTy).Contents (Elt Ideal))
  (x8 : (⟨S32x16, .f32⟩ : BufTy).Contents (Elt Ideal)) (x9 : (⟨S16, .f32⟩ : BufTy).Contents (Elt Ideal))

/-- A word that reads non-negative is not below zero, so the wrap-around by the table's height leaves it. -/
theorem wrap_id (b c : BitVec 32) (h0 : 0 ≤ b.toInt) :
    Scalar.select (IntOp.cmpi .slt b 0#32) c b = b := by
  have hc : IntOp.cmpi .slt b 0#32 = 0#1 := by
    unfold IntOp.cmpi
    have hs : b.slt 0#32 = false := by
      simp only [BitVec.slt, BitVec.toInt_zero, decide_eq_false_iff_not, not_lt]; exact h0
    simp only [hs]; rfl
  rw [hc]; exact select_zero _ _

/-- The gather's column of start indices is the second hop's source list itself. -/
theorem v36_read (hs : InRange (x4 : S80000.Idx → BitVec 32) 80000) (e : Fin 80000) :
    (val_main_v36 (F := Ideal) x4 : S80000x1.Idx → BitVec 32) (ix2 e 0) = (x4 : S80000.Idx → BitVec 32) (ix1 e) := by
  rw [val_main_v36_apply, val_main_v35_apply, val_main_v32_apply, val_main_v31_apply, val_main_c_6_apply]
  have he : idx_main_v36 (ix2 e 0) = ix1 e := funext fun a => Fin.ext (by match a with | ⟨0, _⟩ => rfl)
  rw [he]
  exact wrap_id _ _ (hs _).1

/-- The gather: row e is the first layer's row named by edge e's source. -/
theorem v37_read (hs : InRange (x4 : S80000.Idx → BitVec 32) 80000) (e : Fin 80000) (q : Fin 32) :
    (val_main_v37 (F := Ideal) x0 x1 x2 x3 x4 x6 x7 : S80000x32.Idx → EReal) (ix2 e q)
      = (val_main_v30 (F := Ideal) x0 x1 x2 x3 x6 x7 : S80000x32.Idx → EReal) (ix2 (rd 80000 (by decide) ((x4 : S80000.Idx → BitVec 32) (ix1 e))) q) := by
  unfold val_main_v37
  refine (gather_rows gather_S80000x32_S80000x1_S80000x32_1_0_n_n_0_1_132 rfl rfl rfl rfl rfl (val_main_v30 (F := Ideal) x0 x1 x2 x3 x6 x7) (val_main_v36 (F := Ideal) x4) e q (by decide)).trans ?_
  rw [v36_read x4 hs e]

/-- The scatters' column of indices is the second hop's destination list itself. -/
theorem v39_read (e : Fin 80000) :
    (val_main_v39 (F := Ideal) x5 : S80000x1.Idx → BitVec 32) (ix2 e 0) = (x5 : S80000.Idx → BitVec 32) (ix1 e) := by
  rw [val_main_v39_apply]
  have he : idx_main_v39 (ix2 e 0) = ix1 e := funext fun a => Fin.ext (by match a with | ⟨0, _⟩ => rfl)
  rw [he]

theorem v43_read (e : Fin 80000) :
    (val_main_v43 (F := Ideal) x5 : S80000x1.Idx → BitVec 32) (ix2 e 0) = (x5 : S80000.Idx → BitVec 32) (ix1 e) := by
  rw [val_main_v43_apply]
  have he : idx_main_v43 (ix2 e 0) = ix1 e := funext fun a => Fin.ext (by match a with | ⟨0, _⟩ => rfl)
  rw [he]

/-- The row scatter from zero: entry (d, q) sums the gathered rows' q-th entries over the edges into d. -/
theorem v40_read (hs : InRange (x4 : S80000.Idx → BitVec 32) 80000) (d : Fin 8000) (q : Fin 32) :
    (val_main_v40 (F := Ideal) x0 x1 x2 x3 x4 x5 x6 x7 : S8000x32.Idx → EReal) (ix2 d q)
      = ∑ e ∈ into (fun e : Fin 80000 => (x5 : S80000.Idx → BitVec 32) (ix1 e)) d.val, (val_main_v30 (F := Ideal) x0 x1 x2 x3 x6 x7 : S80000x32.Idx → EReal) (ix2 (rd 80000 (by decide) ((x4 : S80000.Idx → BitVec 32) (ix1 e))) q) := by
  unfold val_main_v40
  refine (scatterAdd_rows scatter_S8000x32_S80000x1_S80000x32_1_0_0_1 rfl rfl rfl rfl (val_main_v38 (F := Ideal)) (val_main_v39 (F := Ideal) x5) (val_main_v37 (F := Ideal) x0 x1 x2 x3 x4 x6 x7) d q).trans ?_
  rw [val_main_v38_apply, val_main_cst_8_apply, Ideal.ofBits_def, Cert.Fin.ofBits_zero, zero_add]
  have hi : (fun e : Fin 80000 => (val_main_v39 (F := Ideal) x5 : S80000x1.Idx → BitVec 32) (ix2 e 0)) = (fun e : Fin 80000 => (x5 : S80000.Idx → BitVec 32) (ix1 e)) :=
    funext (v39_read x5)
  rw [hi]
  exact Finset.sum_congr rfl fun e _ => v37_read x0 x1 x2 x3 x4 x6 x7 hs e q

/-- The scatter of ones from zero: entry d is the number of edges into d. -/
theorem v44_read (d : Fin 8000) :
    (val_main_v44 (F := Ideal) x5 : S8000.Idx → EReal) (ix1 d) = cnt (fun e : Fin 80000 => (x5 : S80000.Idx → BitVec 32) (ix1 e)) d.val := by
  unfold val_main_v44
  refine (scatterAdd_vec scatter_S8000_S80000x1_S80000_n_0_0_1 rfl rfl rfl rfl (val_main_v42 (F := Ideal)) (val_main_v43 (F := Ideal) x5) (val_main_v41 (F := Ideal)) d).trans ?_
  rw [val_main_v42_apply, val_main_cst_10_apply, Ideal.ofBits_def, Cert.Fin.ofBits_zero, zero_add]
  have hi : (fun e : Fin 80000 => (val_main_v43 (F := Ideal) x5 : S80000x1.Idx → BitVec 32) (ix2 e 0)) = (fun e : Fin 80000 => (x5 : S80000.Idx → BitVec 32) (ix1 e)) :=
    funext (v43_read x5)
  rw [hi]
  unfold cnt
  exact Finset.sum_congr rfl fun e _ => by
    rw [val_main_v41_apply, val_main_cst_9_apply, Ideal.ofBits_def, Cert.Fin.ofBits_one]

/-- The divisor, broadcast along the row: the in-degree clamped below at one. -/
theorem v48_read (d : Fin 8000) (q : Fin 32) :
    (val_main_v48 (F := Ideal) x5 : S8000x32.Idx → EReal) (ix2 d q) = den (fun e : Fin 80000 => (x5 : S80000.Idx → BitVec 32) (ix1 e)) d.val := by
  rw [val_main_v48_apply, val_main_v47_apply, val_main_v46_apply, val_main_v45_apply, val_main_cst_11_apply]
  have he : idx_main_v47 (idx_main_v48 (ix2 d q)) = ix1 d := funext fun a => Fin.ext (by match a with | ⟨0, _⟩ => rfl)
  rw [he, v44_read, Ideal.maximumf_def, Ideal.ofBits_def, Cert.Fin.ofBits_one]
  rfl

/-- The mean: the summed rows over the clamped in-degree. -/
theorem v49_read (hs : InRange (x4 : S80000.Idx → BitVec 32) 80000) (d : Fin 8000) (q : Fin 32) :
    (val_main_v49 (F := Ideal) x0 x1 x2 x3 x4 x5 x6 x7 : S8000x32.Idx → EReal) (ix2 d q)
      = Ideal.div (∑ e ∈ into (fun e : Fin 80000 => (x5 : S80000.Idx → BitVec 32) (ix1 e)) d.val, (val_main_v30 (F := Ideal) x0 x1 x2 x3 x6 x7 : S80000x32.Idx → EReal) (ix2 (rd 80000 (by decide) ((x4 : S80000.Idx → BitVec 32) (ix1 e))) q)) (den (fun e : Fin 80000 => (x5 : S80000.Idx → BitVec 32) (ix1 e)) d.val) := by
  rw [val_main_v49_apply, Ideal.hostDivf_def, v40_read x0 x1 x2 x3 x4 x5 x6 x7 hs, v48_read]

/-- The logits: the mean, then linear, then biased. -/
theorem v53_read (hs : InRange (x4 : S80000.Idx → BitVec 32) 80000) (d : Fin 8000) (o : Fin 16) :
    (val_main_v53 (F := Ideal) x0 x1 x2 x3 x4 x5 x6 x7 x8 x9 : S8000x16.Idx → EReal) (ix2 d o)
      = meanLin (fun (n : Fin 80000) (k : Fin 32) => (val_main_v30 (F := Ideal) x0 x1 x2 x3 x6 x7 : S80000x32.Idx → EReal) (ix2 n k)) (fun e : Fin 80000 => rd 80000 (by decide) ((x4 : S80000.Idx → BitVec 32) (ix1 e))) (fun e : Fin 80000 => (x5 : S80000.Idx → BitVec 32) (ix1 e)) (fun (k : Fin 32) (o : Fin 16) => (x8 : S32x16.Idx → EReal) (ix2 k o)) d.val o + (x9 : S16.Idx → EReal) (ix1 o) := by
  rw [val_main_v53_apply, val_main_v50_apply, val_main_v52_apply, val_main_v51_apply]
  have hb : idx_main_v51 (idx_main_v52 (ix2 d o)) = ix1 o := funext fun a => Fin.ext (by match a with | ⟨0, _⟩ => rfl)
  have hl : ∀ k : Fin 32, lidx_main_v50 (ix2 d o) k = ix2 d k := fun k =>
    funext fun a => Fin.ext (by match a with | ⟨0, _⟩ => rfl | ⟨1, _⟩ => rfl)
  have hr : ∀ k : Fin 32, ridx_main_v50 (ix2 d o) k = ix2 k o := fun k =>
    funext fun a => Fin.ext (by match a with | ⟨0, _⟩ => rfl | ⟨1, _⟩ => rfl)
  rw [hb, Ideal.addf_def]
  unfold meanLin
  refine congrArg (fun t : EReal => t + (x9 : S16.Idx → EReal) (ix1 o)) (Finset.sum_congr rfl fun k _ => ?_)
  rw [hl k, hr k, v49_read x0 x1 x2 x3 x4 x5 x6 x7 hs d k]

end Stages

section Softmax

variable (x0 : (⟨S1000000x128, .f32⟩ : BufTy).Contents (Elt Ideal)) (x1 : (⟨S600000, .i32⟩ : BufTy).Contents (Elt Ideal))
  (x2 x3 : (⟨S1280000, .i32⟩ : BufTy).Contents (Elt Ideal)) (x4 x5 : (⟨S80000, .i32⟩ : BufTy).Contents (Elt Ideal))
  (x6 : (⟨S128x32, .f32⟩ : BufTy).Contents (Elt Ideal)) (x7 : (⟨S32, .f32⟩ : BufTy).Contents (Elt Ideal))
  (x8 : (⟨S32x16, .f32⟩ : BufTy).Contents (Elt Ideal)) (x9 : (⟨S16, .f32⟩ : BufTy).Contents (Elt Ideal))

/-- The word of minus infinity denotes the least extended real. -/
theorem ofBits_negInf : Ideal.ofBits .f32 0xFF800000#32 = (⊥ : EReal) := by
  simp [Ideal.ofBits, Ideal.ieee]

/-- Row d with the dropped coordinate k put back is (d, k). -/
theorem lift_row (h : S8000x16.Reduces [1] S8000) (d : Fin 8000) (k : Fin (S8000x16.size 1)) :
    h.lift (ix1 d) k = ix2 d (⟨k.val, k.isLt⟩ : Fin 16) := by
  funext c; apply Fin.ext
  rw [h.lift_val]
  match c with
  | ⟨0, _⟩ => rfl
  | ⟨1, _⟩ => rfl

/-- Over any logits: the row reduction by maximum, from an initial value that is minus infinity, is the row's
    largest entry. -/
theorem reduce_max_row (x : FVec Ideal S8000x16 .f32) (init : FVec Ideal S_ .f32)
    (hinit : init (Shape.Idx.first h_S_) = (⊥ : EReal)) (d : Fin 8000) :
    Host.reduce (FloatOps.maximumf (F := Ideal) (φ := .f32)) x init reducesTo_S8000x16_S8000_d1 h_S_ (ix1 d)
      = rowMax (fun o' : Fin 16 => (x (ix2 d o') : EReal)) := by
  have h : S8000x16.Reduces [1] S8000 := by decide
  rw [Host.reduce_eq_fold_single (FloatOps.maximumf (F := Ideal) (φ := .f32)) x init reducesTo_S8000x16_S8000_d1 h h_S_, hinit]
  have hf : (x ∘ h.lift (ix1 d)) = fun k : Fin 16 => x (ix2 d k) :=
    funext fun k => congrArg x (lift_row h d k)
  rw [hf]
  rfl

/-- The row reduction by maximum from minus infinity is the row's largest logit. -/
theorem call1_v0_read (d : Fin 8000) :
    (val_main_call1_v0 (F := Ideal) x0 x1 x2 x3 x4 x5 x6 x7 x8 x9 : S8000.Idx → EReal) (ix1 d) = rowMax (fun o' : Fin 16 => (val_main_v53 (F := Ideal) x0 x1 x2 x3 x4 x5 x6 x7 x8 x9 : S8000x16.Idx → EReal) (ix2 d o')) := by
  unfold val_main_call1_v0
  generalize val_main_v53 (F := Ideal) x0 x1 x2 x3 x4 x5 x6 x7 x8 x9 = y
  exact reduce_max_row y (val_main_call1_cst (F := Ideal))
    (by rw [val_main_call1_cst_apply, Ideal.ofBits_def, ofBits_negInf]) d

/-- The maximum with minus infinity changes nothing: the broadcast row maximum. -/
theorem call1_v4_read (d : Fin 8000) (o : Fin 16) :
    (val_main_call1_v4 (F := Ideal) x0 x1 x2 x3 x4 x5 x6 x7 x8 x9 : S8000x16.Idx → EReal) (ix2 d o) = rowMax (fun o' : Fin 16 => (val_main_v53 (F := Ideal) x0 x1 x2 x3 x4 x5 x6 x7 x8 x9 : S8000x16.Idx → EReal) (ix2 d o')) := by
  rw [val_main_call1_v4_apply, val_main_call1_v3_apply, val_main_call1_v2_apply, val_main_call1_v1_apply, val_main_call1_cst_0_apply]
  have he : idx_main_call1_v3 (idx_main_call1_v4 (ix2 d o)) = ix1 d := funext fun a => Fin.ext (by match a with | ⟨0, _⟩ => rfl)
  rw [he, call1_v0_read, Ideal.maximumf_def, Ideal.ofBits_def, ofBits_negInf]
  exact max_eq_right bot_le

/-- Each logit less its row's maximum. -/
theorem call1_v5_read (d : Fin 8000) (o : Fin 16) :
    (val_main_call1_v5 (F := Ideal) x0 x1 x2 x3 x4 x5 x6 x7 x8 x9 : S8000x16.Idx → EReal) (ix2 d o) = (val_main_v53 (F := Ideal) x0 x1 x2 x3 x4 x5 x6 x7 x8 x9 : S8000x16.Idx → EReal) (ix2 d o) - rowMax (fun o' : Fin 16 => (val_main_v53 (F := Ideal) x0 x1 x2 x3 x4 x5 x6 x7 x8 x9 : S8000x16.Idx → EReal) (ix2 d o')) := by
  rw [val_main_call1_v5_apply, Ideal.subf_def, call1_v4_read]

/-- The row sum of the exponentials of the shifted logits, from zero. -/
theorem call1_v7_read (d : Fin 8000) :
    (val_main_call1_v7 (F := Ideal) x0 x1 x2 x3 x4 x5 x6 x7 x8 x9 : S8000.Idx → EReal) (ix1 d)
      = ∑ k : Fin 16, Ideal.exp ((val_main_v53 (F := Ideal) x0 x1 x2 x3 x4 x5 x6 x7 x8 x9 : S8000x16.Idx → EReal) (ix2 d k) - rowMax (fun o' : Fin 16 => (val_main_v53 (F := Ideal) x0 x1 x2 x3 x4 x5 x6 x7 x8 x9 : S8000x16.Idx → EReal) (ix2 d o'))) := by
  rw [val_main_call1_v7_apply, val_main_call1_cst_1_apply, Ideal.ofBits_def, Cert.Fin.ofBits_zero, zero_add]
  refine Finset.sum_congr rfl fun k _ => ?_
  have he : idx_main_call1_v7 (ix1 d) k = ix2 d k := funext fun a => Fin.ext (by match a with | ⟨0, _⟩ => rfl | ⟨1, _⟩ => rfl)
  rw [he, val_main_call1_v6_apply, Ideal.hostUnary_exp_def, call1_v5_read]

/-- The logarithm of that sum, broadcast along the row. -/
theorem call1_v10_read (d : Fin 8000) (o : Fin 16) :
    (val_main_call1_v10 (F := Ideal) x0 x1 x2 x3 x4 x5 x6 x7 x8 x9 : S8000x16.Idx → EReal) (ix2 d o)
      = Ideal.log (∑ k : Fin 16, Ideal.exp ((val_main_v53 (F := Ideal) x0 x1 x2 x3 x4 x5 x6 x7 x8 x9 : S8000x16.Idx → EReal) (ix2 d k) - rowMax (fun o' : Fin 16 => (val_main_v53 (F := Ideal) x0 x1 x2 x3 x4 x5 x6 x7 x8 x9 : S8000x16.Idx → EReal) (ix2 d o')))) := by
  rw [val_main_call1_v10_apply, val_main_call1_v9_apply, val_main_call1_v8_apply]
  have he : idx_main_call1_v8 (idx_main_call1_v10 (ix2 d o)) = ix1 d := funext fun a => Fin.ext (by match a with | ⟨0, _⟩ => rfl)
  rw [he, Ideal.hostUnary_log_def, call1_v7_read]

/-- The three steps above are the logarithm of the softmax of the row, whatever names the row. -/
theorem logSoftmax_of_row {l l' : Fin 16 → EReal} (hl : l = l') (o : Fin 16) :
    (l o - rowMax l) - Ideal.log (∑ k : Fin 16, Ideal.exp (l k - rowMax l)) = logSoftmax l' o := by
  subst hl; rfl

end Softmax

/-- Layer 2's output over layer 1's: the mean of the gathered rows, then linear, biased, and the logarithm
    of the softmax of each row. -/
theorem layer2 (x0 : (⟨S1000000x128, .f32⟩ : BufTy).Contents (Elt Ideal)) (x1 : (⟨S600000, .i32⟩ : BufTy).Contents (Elt Ideal)) (x2 x3 : (⟨S1280000, .i32⟩ : BufTy).Contents (Elt Ideal)) (x4 x5 : (⟨S80000, .i32⟩ : BufTy).Contents (Elt Ideal)) (x6 : (⟨S128x32, .f32⟩ : BufTy).Contents (Elt Ideal)) (x7 : (⟨S32, .f32⟩ : BufTy).Contents (Elt Ideal)) (x8 : (⟨S32x16, .f32⟩ : BufTy).Contents (Elt Ideal)) (x9 : (⟨S16, .f32⟩ : BufTy).Contents (Elt Ideal))
    (hs : InRange (x4 : S80000.Idx → BitVec 32) 80000) (d : Fin 8000) (o : Fin 16) :
    (val_main_v54 (F := Ideal) x0 x1 x2 x3 x4 x5 x6 x7 x8 x9 : S8000x16.Idx → EReal) (ix2 d o)
      = logSoftmax (fun o' : Fin 16 =>
          meanLin (fun (n : Fin 80000) (k : Fin 32) => (val_main_v30 (F := Ideal) x0 x1 x2 x3 x6 x7 : S80000x32.Idx → EReal) (ix2 n k))
              (fun e : Fin 80000 => rd 80000 (by decide) ((x4 : S80000.Idx → BitVec 32) (ix1 e)))
              (fun e : Fin 80000 => (x5 : S80000.Idx → BitVec 32) (ix1 e))
              (fun (k : Fin 32) (o : Fin 16) => (x8 : S32x16.Idx → EReal) (ix2 k o)) d.val o'
            + (x9 : S16.Idx → EReal) (ix1 o')) o := by
  rw [val_main_v54_apply, Ideal.subf_def, call1_v5_read, call1_v10_read]
  exact logSoftmax_of_row (l := fun o' : Fin 16 => (val_main_v53 (F := Ideal) x0 x1 x2 x3 x4 x5 x6 x7 x8 x9 : S8000x16.Idx → EReal) (ix2 d o'))
    (funext fun o' => v53_read x0 x1 x2 x3 x4 x5 x6 x7 x8 x9 hs d o') o

end Cert.ReferenceIdeal.Layer2

end
-- ==== Proof.RefOut.lean ====
/-
  The reference program's result, entry by entry, in the arrangement it computes it: both layers as "mean, then
  linear" (sum the gathered rows of the edges into each node, divide by the clamped in-degree, multiply by the
  weights, add the bias), the first clamped below at zero, the second followed by the logarithm of the softmax
  of each row. The result buffer after the run is the last stage of the run's composed term of the arguments.
-/
import proofs.«430451_j11338713661814_3_alg».proof.Proof.RefRead
import proofs.«430451_j11338713661814_3_alg».proof.Proof.RefLayer1
import proofs.«430451_j11338713661814_3_alg».proof.Proof.RefLayer2

set_option maxRecDepth 16384

noncomputable section

namespace Cert.ReferenceIdeal.Out

open Cert.ReferenceIdeal Cert.ReferenceIdeal.Gen Cert.ReferenceIdeal.ReadP Cert.Sage Cert.GS
open Idealize.ShloMosaic Idealize.ShloMosaic.TcCoe Idealize.ShloMosaic.ValueIdx Idealize.SL.Sem
open scoped BigOperators

variable (m : (ℓ : Loc nD τ sig) → Buf (Elt Ideal) ℓ)

/-- The arguments as launched, each at its literal type. -/
abbrev a0 (c : Dev nD) : S1000000x128.Idx → EReal := m ((c : Thread nD τ).loc main_arg0)
abbrev a1 (c : Dev nD) : S600000.Idx → BitVec 32 := m ((c : Thread nD τ).loc main_arg1)
abbrev a2 (c : Dev nD) : S1280000.Idx → BitVec 32 := m ((c : Thread nD τ).loc main_arg2)
abbrev a3 (c : Dev nD) : S1280000.Idx → BitVec 32 := m ((c : Thread nD τ).loc main_arg3)
abbrev a4 (c : Dev nD) : S80000.Idx → BitVec 32 := m ((c : Thread nD τ).loc main_arg4)
abbrev a5 (c : Dev nD) : S80000.Idx → BitVec 32 := m ((c : Thread nD τ).loc main_arg5)
abbrev a6 (c : Dev nD) : S128x32.Idx → EReal := m ((c : Thread nD τ).loc main_arg6)
abbrev a7 (c : Dev nD) : S32.Idx → EReal := m ((c : Thread nD τ).loc main_arg7)
abbrev a8 (c : Dev nD) : S32x16.Idx → EReal := m ((c : Thread nD τ).loc main_arg8)
abbrev a9 (c : Dev nD) : S16.Idx → EReal := m ((c : Thread nD τ).loc main_arg9)

/-- The feature row the first hop's edge reads, and the first-layer row the second hop's edge reads. -/
def row1 (c : Dev nD) (e : Fin 1280000) : Fin 1000000 :=
  rd 1000000 (by decide) (a1 m c (ix1 (rd 600000 (by decide) (a2 m c (ix1 e)))))
def row2 (c : Dev nD) (e : Fin 80000) : Fin 80000 := rd 80000 (by decide) (a4 m c (ix1 e))

/-- The first layer's output, as a table over plain indices. -/
def H1 (c : Dev nD) : Fin 80000 → Fin 32 → EReal := fun n k =>
  (val_main_v30 (F := Ideal) (a0 m c) (a1 m c) (a2 m c) (a3 m c) (a6 m c) (a7 m c) : S80000x32.Idx → EReal) (ix2 n k)

/-- The first layer: mean, then linear, biased, clamped below at zero. -/
theorem h1_eq (c : Dev nD) (hn : InRange (a1 m c) 1000000) (hs : InRange (a2 m c) 600000) (d : Fin 80000) (h : Fin 32) :
    H1 m c d h = max (meanLin (fun n k => a0 m c (ix2 n k)) (row1 m c) (fun e => a3 m c (ix1 e))
        (fun k h => a6 m c (ix2 k h)) d.val h + a7 m c (ix1 h)) 0 :=
  Layer1.layer1 (a0 m c) (a1 m c) (a2 m c) (a3 m c) (a6 m c) (a7 m c) hn hs d h

/-- The reference's result buffer after the run: the second layer over the first, then the logarithm of the
    softmax of each row. -/
theorem out_eq (c : Dev nD) (hs2 : InRange (a4 m c) 80000) (d : Fin 8000) (o : Fin 16) :
    (Cert.ReferenceIdeal.ValueP.res_main_v54 (F := Ideal) m c : S8000x16.Idx → EReal) (ix2 d o)
      = logSoftmax (fun o' : Fin 16 =>
          meanLin (H1 m c) (row2 m c) (fun e => a5 m c (ix1 e)) (fun k o => a8 m c (ix2 k o)) d.val o'
            + a9 m c (ix1 o')) o := by
  rw [val_main_v54_eq (F := Ideal) m c]
  exact Layer2.layer2 (a0 m c) (a1 m c) (a2 m c) (a3 m c) (a4 m c) (a5 m c) (a6 m c) (a7 m c) (a8 m c) (a9 m c) hs2 d o

end Cert.ReferenceIdeal.Out

end
-- ==== Proof.Pre.lean ====
/-
  The precondition, read back.

  The precondition says: every entry of each float argument has absolute value below plus infinity, and every
  entry of the sampled-node table and of the two edge-source tables lies in `[0, n)` for the table it indexes.
  It is printed as one conjunction of reductions by "and"; here each reduction that is one gives its fact at
  every index: an entry whose absolute value is below plus infinity is a real number, and a word that is at
  least zero and below `n`, read signed, is in range.
-/
import proofs.«430451_j11338713661814_3_alg».proof.Pre_finite_inputs
import proofs.«430451_j11338713661814_3_alg».proof.Proof.Gen.Pre_finite_inputs
import proofs.«430451_j11338713661814_3_alg».proof.Proof.Spec
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal.Laws

set_option maxRecDepth 16384

noncomputable section

namespace Cert.PreDecode

open Idealize.ShloMosaic Idealize.ShloMosaic.ValueIdx Cert.Pre_finite_inputs Cert.Fin Cert.Sage

/-- A rank-zero array has one index. -/
instance : Subsingleton S_.Idx := ⟨fun a b => funext fun d => d.elim0⟩

/-- An extended real whose absolute value is below plus infinity is a real number. -/
theorem isFin_of_abs_lt (x : EReal) (h : Ideal.cmp .olt (max x (-x)) (Ideal.ofBits .f32 0x7F800000#32) = 1#1) : IsFin x := by
  have htop : Ideal.ofBits .f32 0x7F800000#32 = ⊤ := by simp [Ideal.ofBits, Ideal.ieee]
  rw [htop] at h
  unfold Ideal.cmp at h
  simp only [StableHlo.Predicate.ofBool_eq_one_iff, decide_eq_true_eq] at h
  induction x using EReal.rec with
  | bot => simp at h
  | top => simp at h
  | coe r => exact ⟨r, rfl⟩

/-- A word at least zero and below `n`, read signed. -/
theorem inRange_of (w : BitVec 32) (n : ℕ) (hn : n < 2 ^ 31) (h0 : IntOp.cmpi .sge w 0#32 = 1#1)
    (h1 : IntOp.cmpi .slt w (BitVec.ofNat 32 n) = 1#1) : 0 ≤ w.toInt ∧ w.toInt < (n : ℤ) := by
  rw [IntOp.cmpi_sge] at h0
  rw [IntOp.cmpi_slt] at h1
  have e : (BitVec.ofNat 32 n).toInt = (n : ℤ) := StableHlo.Predicate.toInt_ofNat_small n hn
  constructor
  · simpa using h0
  · rw [e] at h1; exact h1

/-- THE PRECONDITION DECODED: the features and the first weights are real numbers, and the three index tables
    that are gathered through are in range. -/
theorem decode (x0 : FVec Ideal S1000000x128 .f32) (x1 : IVec S600000 32) (x2 x3 : IVec S1280000 32)
    (x4 x5 : IVec S80000 32) (x6 : FVec Ideal S128x32 .f32) (x7 : FVec Ideal S32 .f32) (x8 : FVec Ideal S32x16 .f32)
    (x9 : FVec Ideal S16 .f32)
    (h : fn (F := Ideal) x0 x1 x2 x3 x4 x5 x6 x7 x8 x9 = fun _ => 1#1) :
    AllFin x0 ∧ AllFin x6 ∧ InRange x1 1000000 ∧ InRange x2 600000 ∧ InRange x4 80000 := by
  have e := congrFun h ix0
  dsimp only [fn, fn_part1, fn_part2] at e
  -- the conjunction of the eight reductions, split: an "and" of two bits is one when both are
  have split : ∀ (a b : IVec S_ 1), andi a b ix0 = 1#1 → a ix0 = 1#1 ∧ b ix0 = 1#1 :=
    fun a b hab => IntOp.andi_eq_one.1 (show IntOp.andi (a ix0) (b ix0) = 1#1 from hab)
  obtain ⟨e, e4⟩ := split _ _ e
  obtain ⟨e, e2⟩ := split _ _ e
  obtain ⟨e, e1⟩ := split _ _ e
  obtain ⟨e, _e9⟩ := split _ _ e
  obtain ⟨e, _e8⟩ := split _ _ e
  obtain ⟨e, _e7⟩ := split _ _ e
  obtain ⟨e0, e6⟩ := split _ _ e
  refine ⟨fun i => ?_, fun i => ?_, fun i => ?_, fun i => ?_, fun i => ?_⟩
  · exact isFin_of_abs_lt _ (Host.reduce_andi_all _ _ _ _ ix0 e0 i)
  · exact isFin_of_abs_lt _ (Host.reduce_andi_all _ _ _ _ ix0 e6 i)
  · obtain ⟨h0, h1⟩ := IntOp.andi_eq_one.1 (Host.reduce_andi_all _ _ _ _ ix0 e1 i)
    exact inRange_of (x1 i) 1000000 (by decide) h0 h1
  · obtain ⟨h0, h1⟩ := IntOp.andi_eq_one.1 (Host.reduce_andi_all _ _ _ _ ix0 e2 i)
    exact inRange_of (x2 i) 600000 (by decide) h0 h1
  · obtain ⟨h0, h1⟩ := IntOp.andi_eq_one.1 (Host.reduce_andi_all _ _ _ _ ix0 e4 i)
    exact inRange_of (x4 i) 80000 (by decide) h0 h1

end Cert.PreDecode

end
-- ==== Proof.lean ====
/-
  A two-layer mean-aggregation graph network against its plain reference, over the extended reals.

  The kernel program projects every feature row through the first weight matrix before the first hop's gather
  and segment sum, so that the rows it moves are 32 wide, not 128; the reference gathers and sums the 128-wide
  rows, divides by the in-degree, and only then multiplies by the weights. Over finite features and weights the
  two agree because the linear map commutes with the sum over a node's edges and with the division by its
  in-degree clamped below at one (a real number that is not zero). The second layer differs only in multiplying
  by the reciprocal of the clamped in-degree where the reference divides by it, which agree on every extended
  real; both end in the logarithm of the softmax of each row of logits, the same function of the logits.

  Both programs gather rows through index tables. Where every index lies inside the table it indexes the two
  programs' gathers read the same rows; that is the precondition's second half. Destination indices need no
  such condition: both programs drop an edge whose destination lies outside the table.

  The three frames are the generated ones (the reference's from its run); nothing was rewritten by the ideal
  pass, so the idealization claim is trivial.
-/
import proofs.«430451_j11338713661814_3_alg».proof.Defs
import proofs.«430451_j11338713661814_3_alg».proof.Proof.Gen.Kernel
import proofs.«430451_j11338713661814_3_alg».proof.Proof.Gen.Kernel.Skeleton
import proofs.«430451_j11338713661814_3_alg».proof.Proof.Gen.Kernel.Launch
import proofs.«430451_j11338713661814_3_alg».proof.Proof.Gen.Kernel.Points
import proofs.«430451_j11338713661814_3_alg».proof.Proof.Gen.Kernel.Frame
import proofs.«430451_j11338713661814_3_alg».proof.Proof.Gen.KernelIdeal
import proofs.«430451_j11338713661814_3_alg».proof.Proof.Gen.KernelIdeal.Skeleton
import proofs.«430451_j11338713661814_3_alg».proof.Proof.Gen.KernelIdeal.Launch
import proofs.«430451_j11338713661814_3_alg».proof.Proof.Gen.KernelIdeal.Points
import proofs.«430451_j11338713661814_3_alg».proof.Proof.Gen.KernelIdeal.Frame
import proofs.«430451_j11338713661814_3_alg».proof.Proof.Gen.ReferenceIdeal
import proofs.«430451_j11338713661814_3_alg».proof.Proof.Gen.Pre_finite_inputs
import proofs.«430451_j11338713661814_3_alg».proof.Proof.KernelRun
import proofs.«430451_j11338713661814_3_alg».proof.Proof.KernelOut
import proofs.«430451_j11338713661814_3_alg».proof.Proof.RefOut
import proofs.«430451_j11338713661814_3_alg».proof.Proof.Pre
import Idealize.ShloMosaic.Adequacy
import Idealize.ShloMosaic.Init

set_option maxRecDepth 16384

noncomputable section

namespace Cert.Proof

open Idealize.ShloMosaic Idealize.ShloMosaic.ValueIdx Idealize.SL.Sem Cert.Sage Cert.GS Cert.Fin

/-- The two programs' results are one array: entry by entry the kernel's arrangement of the two layers is the
    reference's, under the decoded precondition and on arguments that agree. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = (fun _ => 1#1))
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.ValueP.res_main_v54 (F := Ideal) m' c : (⟨2, ![8000, 16]⟩ : Shape).Idx → EReal)
      = (Cert.KernelIdeal.Gen.W8 m ρ c (Proc.devRef .tc Cert.KernelIdeal.main_v15) : (⟨2, ![8000, 16]⟩ : Shape).Idx → EReal) := by
  obtain ⟨hx, hw, hn, hs, hs2⟩ := Cert.PreDecode.decode _ _ _ _ _ _ _ _ _ _ hpre
  funext i
  obtain ⟨d, o, rfl⟩ : ∃ (d : Fin 8000) (o : Fin 16), i = ix2 d o := ⟨i 0, i 1, eq_ix2 i⟩
  -- the arguments agree, table by table
  have e0 : (fun (n : Fin 1000000) (k : Fin 128) => Cert.ReferenceIdeal.Out.a0 m' c (ix2 n k)) = Cert.KernelIdeal.Out.X m c :=
    funext fun n => funext fun k => congrFun g0 (ix2 n k)
  have e6 : (fun (k : Fin 128) (h : Fin 32) => Cert.ReferenceIdeal.Out.a6 m' c (ix2 k h)) = Cert.KernelIdeal.Out.W1t m c :=
    funext fun k => funext fun h => congrFun g6 (ix2 k h)
  have e7 : ∀ h : Fin 32, Cert.ReferenceIdeal.Out.a7 m' c (ix1 h) = Cert.KernelIdeal.Out.B1 m c h := fun h => congrFun g7 (ix1 h)
  have e8 : (fun (k : Fin 32) (o : Fin 16) => Cert.ReferenceIdeal.Out.a8 m' c (ix2 k o)) = Cert.KernelIdeal.Out.W2t m c :=
    funext fun k => funext fun o => congrFun g8 (ix2 k o)
  have e9 : ∀ o : Fin 16, Cert.ReferenceIdeal.Out.a9 m' c (ix1 o) = Cert.KernelIdeal.Out.B2 m c o := fun o => congrFun g9 (ix1 o)
  have e3 : (fun e : Fin 1280000 => Cert.ReferenceIdeal.Out.a3 m' c (ix1 e)) = Cert.KernelIdeal.Out.D1 m c := funext fun e => congrFun g3 (ix1 e)
  have e5 : (fun e : Fin 80000 => Cert.ReferenceIdeal.Out.a5 m' c (ix1 e)) = Cert.KernelIdeal.Out.D2 m c := funext fun e => congrFun g5 (ix1 e)
  have r1 : Cert.ReferenceIdeal.Out.row1 m' c = Cert.KernelIdeal.Host.row1 m c := funext fun e => by
    unfold Cert.ReferenceIdeal.Out.row1 Cert.KernelIdeal.Host.row1
    rw [show Cert.ReferenceIdeal.Out.a2 m' c (ix1 e) = Cert.KernelIdeal.Host.src1 m c (ix1 e) from congrFun g2 (ix1 e)]
    exact congrArg _ (congrFun g1 _)
  have r2 : Cert.ReferenceIdeal.Out.row2 m' c = Cert.KernelIdeal.Host.row2 m c := funext fun e => by
    unfold Cert.ReferenceIdeal.Out.row2 Cert.KernelIdeal.Host.row2
    exact congrArg _ (congrFun g4 (ix1 e))
  -- the ranges, on the reference's copies of the tables
  have hn' : InRange (Cert.ReferenceIdeal.Out.a1 m' c) 1000000 := fun j => by rw [show Cert.ReferenceIdeal.Out.a1 m' c j = _ from congrFun g1 j]; exact hn j
  have hs' : InRange (Cert.ReferenceIdeal.Out.a2 m' c) 600000 := fun j => by rw [show Cert.ReferenceIdeal.Out.a2 m' c j = _ from congrFun g2 j]; exact hs j
  have hs2' : InRange (Cert.ReferenceIdeal.Out.a4 m' c) 80000 := fun j => by rw [show Cert.ReferenceIdeal.Out.a4 m' c j = _ from congrFun g4 j]; exact hs2 j
  -- the first layer: linear then mean is mean then linear, over finite features and weights
  have hH : Cert.ReferenceIdeal.Out.H1 m' c = fun (n : Fin 80000) (k : Fin 32) => Cert.KernelIdeal.Host.h1Arr m ρ c (ix2 n k) :=
    funext fun n => funext fun k => by
      rw [Cert.ReferenceIdeal.Out.h1_eq m' c hn' hs' n k, Cert.KernelIdeal.Out.h1_eq m ρ c hn hs n k, e0, e6, e3, r1, e7 k,
        linMean_eq (Cert.KernelIdeal.Out.X m c) (Cert.KernelIdeal.Host.row1 m c) (Cert.KernelIdeal.Out.D1 m c) (Cert.KernelIdeal.Out.W1t m c)
          (fun n k => hx (ix2 n k)) (fun k h => hw (ix2 k h)) n.val k]
  rw [Cert.ReferenceIdeal.Out.out_eq m' c hs2' d o, Cert.KernelIdeal.Out.out_eq m ρ c hs2 d o]
  refine congrArg (fun f : Fin 16 → EReal => logSoftmax f o) (funext fun o' => ?_)
  rw [meanLinInv_eq, hH, e8, e5, r2, e9 o']

/-- Every weakly fair execution of the kernel program terminates without a fault, its arguments unchanged. -/
theorem frame_Kernel : Cert.frame_Kernel := fun m ρ _ => Cert.Kernel.Gen.frame m ρ

/-- The same for the idealized kernel program. -/
theorem frame_KernelIdeal : Cert.frame_KernelIdeal := fun m ρ _ => Cert.KernelIdeal.Gen.frame m ρ

/-- The reference program's frame is its run with the result dropped. -/
theorem frame_ReferenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- From memories that agree on the arguments, under the precondition, both programs run and end with equal
    results: the kernel's result array is the reference's, entry by entry. -/
theorem algebraic : Cert.algebraic_KernelIdeal_ReferenceIdeal := by
  intro m ρ m' ρ' hpre hagree
  refine ⟨fun c => Cert.KernelIdeal.Gen.W8 m ρ c (Proc.devRef .tc Cert.KernelIdeal.main_v15), Cert.KernelIdeal.GenP.run_main m ρ, ?_⟩
  refine (θ_run Cert.ReferenceIdeal.defs _ _).mono (fun r h c => ⟨(h c).1.trans ?_, (h c).2⟩) (Cert.ReferenceIdeal.ValueP.run (F := Ideal) m' ρ')
  obtain ⟨g0, g1, g2, g3, g4, g5, g6, g7, g8, g9⟩ := hagree c
  exact result_eq m ρ m' c (hpre c) g0 g1 g2 g3 g4 g5 g6 g7 g8 g9

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
